-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S64x64 : Shape := ⟨2, ![64, 64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_
  bcast_S_S64x64 : S_.BroadcastsInDim S64x64 (![] : Fin 0 → Fin S64x64.rank)
  reducesTo_S64x64_S_d0_1 : S64x64.ReducesTo [0, 1] S_
  bcast_S_S1600000 : S_.BroadcastsInDim S1600000 (![] : Fin 0 → Fin S1600000.rank)
  reducesTo_S1600000_S_d0 : S1600000.ReducesTo [0] S_

variable [Facts]

def fn_part2 {F : FTy → Type} [FloatOps F] (main_arg1 : IVec S1600000 32) (main_arg2 : IVec S1600000 32) (main_v33 : IVec S_ 1) : IVec S_ 1 :=
  let main_c_12 : IVec S_ 32 := constantI S_ 32 0#32
  let main_v34 : IVec S1600000 32 := broadcastInDim S1600000 ![] bcast_S_S1600000 main_c_12
  let main_v35 : IVec S1600000 1 := cmpi .sge main_arg1 main_v34
  let main_c_13 : IVec S_ 32 := constantI S_ 32 100000#32
  let main_v36 : IVec S1600000 32 := broadcastInDim S1600000 ![] bcast_S_S1600000 main_c_13
  let main_v37 : IVec S1600000 1 := cmpi .slt main_arg1 main_v36
  let main_v38 : IVec S1600000 1 := andi main_v35 main_v37
  let main_c_14 : IVec S_ 1 := constantI S_ 1 1#1
  let main_v39 : IVec S_ 1 := (fun x v => Host.reduce IntOp.andi x v reducesTo_S1600000_S_d0 h_S_) main_v38 main_c_14
  let main_v40 : IVec S_ 1 := andi main_v33 main_v39
  let main_c_15 : IVec S_ 32 := constantI S_ 32 0#32
  let main_v41 : IVec S1600000 32 := broadcastInDim S1600000 ![] bcast_S_S1600000 main_c_15
  let main_v42 : IVec S1600000 1 := cmpi .sge main_arg2 main_v41
  let main_c_16 : IVec S_ 32 := constantI S_ 32 100000#32
  let main_v43 : IVec S1600000 32 := broadcastInDim S1600000 ![] bcast_S_S1600000 main_c_16
  let main_v44 : IVec S1600000 1 := cmpi .slt main_arg2 main_v43
  let main_v45 : IVec S1600000 1 := andi main_v42 main_v44
  let main_c_17 : IVec S_ 1 := constantI S_ 1 1#1
  let main_v46 : IVec S_ 1 := (fun x v => Host.reduce IntOp.andi x v reducesTo_S1600000_S_d0 h_S_) main_v45 main_c_17
  let main_v47 : IVec S_ 1 := andi main_v40 main_v46
  main_v47

def fn_part1 {F : FTy → Type} [FloatOps F] (main_arg1 : IVec S1600000 32) (main_arg2 : IVec S1600000 32) (main_arg6 : FVec F S1 .f32) (main_arg7 : FVec F S64x64 .f32) (main_arg8 : FVec F S64 .f32) (main_v13 : IVec S_ 1) (main_v16 : IVec S64x1 1) : IVec S_ 1 :=
  let main_c_5 : IVec S_ 1 := constantI S_ 1 1#1
  let main_v17 : IVec S_ 1 := (fun x v => Host.reduce IntOp.andi x v reducesTo_S64x1_S_d0_1 h_S_) main_v16 main_c_5
  let main_v18 : IVec S_ 1 := andi main_v13 main_v17
  let main_v19 : FVec F S1 .f32 := Host.absf main_arg6
  let main_cst_6 : FVec F S_ .f32 := constant S_ .f32 0x7F800000#32
  let main_v20 : FVec F S1 .f32 := broadcastInDim S1 ![] bcast_S_S1 main_cst_6
  let main_v21 : IVec S1 1 := cmpf .olt main_v19 main_v20
  let main_c_7 : IVec S_ 1 := constantI S_ 1 1#1
  let main_v22 : IVec S_ 1 := (fun x v => Host.reduce IntOp.andi x v reducesTo_S1_S_d0 h_S_) main_v21 main_c_7
  let main_v23 : IVec S_ 1 := andi main_v18 main_v22
  let main_v24 : FVec F S64x64 .f32 := Host.absf main_arg7
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg8
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg1 main_arg2 main_v33

def fn {F : FTy → Type} [FloatOps F] (main_arg0 : FVec F S100000x64 .f32) (main_arg1 : IVec S1600000 32) (main_arg2 : IVec S1600000 32) (main_arg3 : FVec F S128x64 .f32) (main_arg4 : FVec F S64 .f32) (main_arg5 : FVec F S64x1 .f32) (main_arg6 : FVec F S1 .f32) (main_arg7 : FVec F S64x64 .f32) (main_arg8 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S128x64 .f32 := Host.absf main_arg3
  let main_cst_0 : FVec F S_ .f32 := constant S_ .f32 0x7F800000#32
  let main_v5 : FVec F S128x64 .f32 := broadcastInDim S128x64 ![] bcast_S_S128x64 main_cst_0
  let main_v6 : IVec S128x64 1 := cmpf .olt main_v4 main_v5
  let main_c_1 : IVec S_ 1 := constantI S_ 1 1#1
  let main_v7 : IVec S_ 1 := (fun x v => Host.reduce IntOp.andi x v reducesTo_S128x64_S_d0_1 h_S_) main_v6 main_c_1
  let main_v8 : IVec S_ 1 := andi main_v3 main_v7
  let main_v9 : FVec F S64 .f32 := Host.absf main_arg4
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x1 .f32 := Host.absf main_arg5
  let main_cst_4 : FVec F S_ .f32 := constant S_ .f32 0x7F800000#32
  let main_v15 : FVec F S64x1 .f32 := broadcastInDim S64x1 ![] bcast_S_S64x1 main_cst_4
  let main_v16 : IVec S64x1 1 := cmpf .olt main_v14 main_v15
  fn_part1 (F := F) main_arg1 main_arg2 main_arg6 main_arg7 main_arg8 main_v13 main_v16
-- ==== Kernel.lean ====
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S64x64 : Shape := ⟨2, ![64, 64]⟩
abbrev S64x192 : Shape := ⟨2, ![64, 192]⟩
abbrev S_ : Shape := ⟨0, ![]⟩
abbrev S192 : Shape := ⟨1, ![192]⟩
abbrev S1x192 : Shape := ⟨2, ![1, 192]⟩
abbrev S100000x192 : Shape := ⟨2, ![100000, 192]⟩
abbrev S10000x64 : Shape := ⟨2, ![10000, 64]⟩
abbrev S10000x192 : Shape := ⟨2, ![10000, 192]⟩
abbrev S1600000x1 : Shape := ⟨2, ![1600000, 1]⟩
abbrev S1x1 : Shape := ⟨2, ![1, 1]⟩
abbrev S1600000x64 : Shape := ⟨2, ![1600000, 64]⟩
abbrev S1x64 : Shape := ⟨2, ![1, 64]⟩
abbrev S10000x1 : Shape := ⟨2, ![10000, 1]⟩
abbrev S10000 : Shape := ⟨1, ![10000]⟩
abbrev S100000x1 : Shape := ⟨2, ![100000, 1]⟩

abbrev nBuf : Space → Nat
  | .hbm => 136
  | .vmem => 14
  | .smem => 0
  | _ => 0

abbrev hbmTy0_0 (i : Nat) : BufTy := match i % 128 with
  | 0 => ⟨S100000x64, .f32⟩
  | 1 => ⟨S1600000, .i32⟩
  | 2 => ⟨S1600000, .i32⟩
  | 3 => ⟨S128x64, .f32⟩
  | 4 => ⟨S64, .f32⟩
  | 5 => ⟨S64x1, .f32⟩
  | 6 => ⟨S1, .f32⟩
  | 7 => ⟨S64x64, .f32⟩
  | 8 => ⟨S64, .f32⟩
  | 9 => ⟨S64x64, .f32⟩
  | 10 => ⟨S64x64, .f32⟩
  | 11 => ⟨S64x192, .f32⟩
  | 12 => ⟨S_, .f32⟩
  | 13 => ⟨S64, .f32⟩
  | 14 => ⟨S192, .f32⟩
  | 15 => ⟨S1x192, .f32⟩
  | 16 => ⟨S100000x192, .f32⟩
  | 17 => ⟨S100000x64, .f32⟩
  | 18 => ⟨S100000x64, .f32⟩
  | 19 => ⟨S100000x64, .f32⟩
  | 20 => ⟨S_, .i32⟩
  | 21 => ⟨S1600000, .i32⟩
  | 22 => ⟨S1600000, .i1⟩
  | 23 => ⟨S_, .i32⟩
  | 24 => ⟨S1600000, .i32⟩
  | 25 => ⟨S1600000, .i32⟩
  | 26 => ⟨S1600000, .i32⟩
  | 27 => ⟨S1600000x1, .i32⟩
  | 28 => ⟨S1, .i32⟩
  | 29 => ⟨S_, .i32⟩
  | 30 => ⟨S1600000x1, .i32⟩
  | 31 => ⟨S1600000x1, .i1⟩
  | 32 => ⟨S1x1, .i32⟩
  | 33 => ⟨S1600000x1, .i32⟩
  | 34 => ⟨S1600000x1, .i1⟩
  | 35 => ⟨S1600000x1, .i1⟩
  | 36 => ⟨S_, .i1⟩
  | 37 => ⟨S1600000, .i1⟩
  | 38 => ⟨S1600000x64, .f32⟩
  | 39 => ⟨S1600000x64, .i1⟩
  | 40 => ⟨S_, .f32⟩
  | 41 => ⟨S1600000x64, .f32⟩
  | 42 => ⟨S1600000x64, .f32⟩
  | 43 => ⟨S_, .i32⟩
  | 44 => ⟨S1600000, .i32⟩
  | 45 => ⟨S1600000, .i1⟩
  | 46 => ⟨S_, .i32⟩
  | 47 => ⟨S1600000, .i32⟩
  | 48 => ⟨S1600000, .i32⟩
  | 49 => ⟨S1600000, .i32⟩
  | 50 => ⟨S1600000x1, .i32⟩
  | 51 => ⟨S1, .i32⟩
  | 52 => ⟨S_, .i32⟩
  | 53 => ⟨S1600000x1, .i32⟩
  | 54 => ⟨S1600000x1, .i1⟩
  | 55 => ⟨S1x1, .i32⟩
  | 56 => ⟨S1600000x1, .i32⟩
  | 57 => ⟨S1600000x1, .i1⟩
  | 58 => ⟨S1600000x1, .i1⟩
  | 59 => ⟨S_, .i1⟩
  | 60 => ⟨S1600000, .i1⟩
  | 61 => ⟨S1600000x64, .f32⟩
  | 62 => ⟨S1600000x64, .i1⟩
  | 63 => ⟨S_, .f32⟩
  | 64 => ⟨S1600000x64, .f32⟩
  | 65 => ⟨S1600000x64, .f32⟩
  | 66 => ⟨S_, .i32⟩
  | 67 => ⟨S1600000, .i32⟩
  | 68 => ⟨S1600000, .i1⟩
  | 69 => ⟨S_, .i32⟩
  | 70 => ⟨S1600000, .i32⟩
  | 71 => ⟨S1600000, .i32⟩
  | 72 => ⟨S1600000, .i32⟩
  | 73 => ⟨S1600000x1, .i32⟩
  | 74 => ⟨S1, .i32⟩
  | 75 => ⟨S_, .i32⟩
  | 76 => ⟨S1600000x1, .i32⟩
  | 77 => ⟨S1600000x1, .i1⟩
  | 78 => ⟨S1x1, .i32⟩
  | 79 => ⟨S1600000x1, .i32⟩
  | 80 => ⟨S1600000x1, .i1⟩
  | 81 => ⟨S1600000x1, .i1⟩
  | 82 => ⟨S_, .i1⟩
  | 83 => ⟨S1600000, .i1⟩
  | 84 => ⟨S1600000x64, .f32⟩
  | 85 => ⟨S1600000x64, .i1⟩
  | 86 => ⟨S_, .f32⟩
  | 87 => ⟨S1600000x64, .f32⟩
  | 88 => ⟨S1600000x64, .f32⟩
  | 89 => ⟨S1x64, .f32⟩
  | 90 => ⟨S1x1, .f32⟩
  | 91 => ⟨S1600000x1, .f32⟩
  | 92 => ⟨S_, .f32⟩
  | 93 => ⟨S100000x1, .f32⟩
  | 94 => ⟨S1600000x1, .i32⟩
  | 95 => ⟨S100000x1, .f32⟩
  | 96 => ⟨S_, .f32⟩
  | 97 => ⟨S100000x1, .f32⟩
  | 98 => ⟨S100000x1, .f32⟩
  | 99 => ⟨S_, .i32⟩
  | 100 => ⟨S1600000, .i32⟩
  | 101 => ⟨S1600000, .i1⟩
  | 102 => ⟨S_, .i32⟩
  | 103 => ⟨S1600000, .i32⟩
  | 104 => ⟨S1600000, .i32⟩
  | 105 => ⟨S1600000, .i32⟩
  | 106 => ⟨S1600000x1, .i32⟩
  | 107 => ⟨S1, .i32⟩
  | 108 => ⟨S_, .i32⟩
  | 109 => ⟨S1600000x1, .i32⟩
  | 110 => ⟨S1600000x1, .i1⟩
  | 111 => ⟨S1x1, .i32⟩
  | 112 => ⟨S1600000x1, .i32⟩
  | 113 => ⟨S1600000x1, .i1⟩
  | 114 => ⟨S1600000x1, .i1⟩
  | 115 => ⟨S_, .i1⟩
  | 116 => ⟨S1600000, .i1⟩
  | 117 => ⟨S1600000x1, .f32⟩
  | 118 => ⟨S1600000x1, .i1⟩
  | 119 => ⟨S_, .f32⟩
  | 120 => ⟨S1600000x1, .f32⟩
  | 121 => ⟨S1600000x1, .f32⟩
  | 122 => ⟨S1600000x1, .f32⟩
  | 123 => ⟨S1600000x64, .f32⟩
  | 124 => ⟨S1600000x64, .f32⟩
  | 125 => ⟨S_, .f32⟩
  | 126 => ⟨S100000x64, .f32⟩
  | 127 => ⟨S1600000x1, .i32⟩
  | _ => ⟨S100000x64, .f32⟩

abbrev hbmTy0_1 (i : Nat) : BufTy := match i % 128 with
  | 0 => ⟨S100000x64, .f32⟩
  | 1 => ⟨S_, .f32⟩
  | 2 => ⟨S100000x64, .f32⟩
  | 3 => ⟨S100000x64, .i1⟩
  | 4 => ⟨S_, .f32⟩
  | 5 => ⟨S100000x64, .f32⟩
  | 6 => ⟨S100000x64, .f32⟩
  | 7 => ⟨S100000x64, .f32⟩
  | _ => ⟨S100000x64, .f32⟩

abbrev hbmTy (i : Nat) : BufTy := match i / 128 with
  | 0 => hbmTy0_0 i
  | 1 => hbmTy0_1 i
  | _ => ⟨S100000x64, .f32⟩

abbrev bufTy : (tb : Table) → Fin (tcTables nBuf tb) → BufTy
  | .hbm, ⟨i, _⟩ => hbmTy i
  | .local _ .vmem, ⟨0, _⟩ => ⟨S10000x64, .f32⟩
  | .local _ .vmem, ⟨1, _⟩ => ⟨S10000x64, .f32⟩
  | .local _ .vmem, ⟨2, _⟩ => ⟨S64x192, .f32⟩
  | .local _ .vmem, ⟨3, _⟩ => ⟨S1x192, .f32⟩
  | .local _ .vmem, ⟨4, _⟩ => ⟨S10000x192, .f32⟩
  | .local _ .vmem, ⟨5, _⟩ => ⟨S10000x192, .f32⟩
  | .local _ .vmem, ⟨6, _⟩ => ⟨S10000x64, .f32⟩
  | .local _ .vmem, ⟨7, _⟩ => ⟨S10000x64, .f32⟩
  | .local _ .vmem, ⟨8, _⟩ => ⟨S10000x64, .f32⟩
  | .local _ .vmem, ⟨9, _⟩ => ⟨S10000x64, .f32⟩
  | .local _ .vmem, ⟨10, _⟩ => ⟨S1x64, .f32⟩
  | .local _ .vmem, ⟨11, _⟩ => ⟨S1x1, .f32⟩
  | .local _ .vmem, ⟨12, _⟩ => ⟨S10000x1, .f32⟩
  | .local _ .vmem, ⟨13, _⟩ => ⟨S10000x1, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_cst : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_call0_c : Ref sig .tc := ⟨.hbm, 20, rfl⟩
abbrev main_call0_v0 : Ref sig .tc := ⟨.hbm, 21, rfl⟩
abbrev main_call0_v1 : Ref sig .tc := ⟨.hbm, 22, rfl⟩
abbrev main_call0_c_0 : Ref sig .tc := ⟨.hbm, 23, rfl⟩
abbrev main_call0_v2 : Ref sig .tc := ⟨.hbm, 24, rfl⟩
abbrev main_call0_v3 : Ref sig .tc := ⟨.hbm, 25, rfl⟩
abbrev main_call0_v4 : Ref sig .tc := ⟨.hbm, 26, rfl⟩
abbrev main_call0_v5 : Ref sig .tc := ⟨.hbm, 27, rfl⟩
abbrev main_call0_c_1 : Ref sig .tc := ⟨.hbm, 28, rfl⟩
abbrev main_call0_c_2 : Ref sig .tc := ⟨.hbm, 29, rfl⟩
abbrev main_call0_v6 : Ref sig .tc := ⟨.hbm, 30, rfl⟩
abbrev main_call0_v7 : Ref sig .tc := ⟨.hbm, 31, rfl⟩
abbrev main_call0_v8 : Ref sig .tc := ⟨.hbm, 32, rfl⟩
abbrev main_call0_v9 : Ref sig .tc := ⟨.hbm, 33, rfl⟩
abbrev main_call0_v10 : Ref sig .tc := ⟨.hbm, 34, rfl⟩
abbrev main_call0_v11 : Ref sig .tc := ⟨.hbm, 35, rfl⟩
abbrev main_call0_c_3 : Ref sig .tc := ⟨.hbm, 36, rfl⟩
abbrev main_call0_v12 : Ref sig .tc := ⟨.hbm, 37, rfl⟩
abbrev main_call0_v13 : Ref sig .tc := ⟨.hbm, 38, rfl⟩
abbrev main_call0_v14 : Ref sig .tc := ⟨.hbm, 39, rfl⟩
abbrev main_call0_cst : Ref sig .tc := ⟨.hbm, 40, rfl⟩
abbrev main_call0_v15 : Ref sig .tc := ⟨.hbm, 41, rfl⟩
abbrev main_v10 : Ref sig .tc := ⟨.hbm, 42, rfl⟩
abbrev main_call1_c : Ref sig .tc := ⟨.hbm, 43, rfl⟩
abbrev main_call1_v0 : Ref sig .tc := ⟨.hbm, 44, rfl⟩
abbrev main_call1_v1 : Ref sig .tc := ⟨.hbm, 45, rfl⟩
abbrev main_call1_c_0 : Ref sig .tc := ⟨.hbm, 46, rfl⟩
abbrev main_call1_v2 : Ref sig .tc := ⟨.hbm, 47, rfl⟩
abbrev main_call1_v3 : Ref sig .tc := ⟨.hbm, 48, rfl⟩
abbrev main_call1_v4 : Ref sig .tc := ⟨.hbm, 49, rfl⟩
abbrev main_call1_v5 : Ref sig .tc := ⟨.hbm, 50, rfl⟩
abbrev main_call1_c_1 : Ref sig .tc := ⟨.hbm, 51, rfl⟩
abbrev main_call1_c_2 : Ref sig .tc := ⟨.hbm, 52, rfl⟩
abbrev main_call1_v6 : Ref sig .tc := ⟨.hbm, 53, rfl⟩
abbrev main_call1_v7 : Ref sig .tc := ⟨.hbm, 54, rfl⟩
abbrev main_call1_v8 : Ref sig .tc := ⟨.hbm, 55, rfl⟩
abbrev main_call1_v9 : Ref sig .tc := ⟨.hbm, 56, rfl⟩
abbrev main_call1_v10 : Ref sig .tc := ⟨.hbm, 57, rfl⟩
abbrev main_call1_v11 : Ref sig .tc := ⟨.hbm, 58, rfl⟩
abbrev main_call1_c_3 : Ref sig .tc := ⟨.hbm, 59, rfl⟩
abbrev main_call1_v12 : Ref sig .tc := ⟨.hbm, 60, rfl⟩
abbrev main_call1_v13 : Ref sig .tc := ⟨.hbm, 61, rfl⟩
abbrev main_call1_v14 : Ref sig .tc := ⟨.hbm, 62, rfl⟩
abbrev main_call1_cst : Ref sig .tc := ⟨.hbm, 63, rfl⟩
abbrev main_call1_v15 : Ref sig .tc := ⟨.hbm, 64, rfl⟩
abbrev main_v11 : Ref sig .tc := ⟨.hbm, 65, rfl⟩
abbrev main_call2_c : Ref sig .tc := ⟨.hbm, 66, rfl⟩
abbrev main_call2_v0 : Ref sig .tc := ⟨.hbm, 67, rfl⟩
abbrev main_call2_v1 : Ref sig .tc := ⟨.hbm, 68, rfl⟩
abbrev main_call2_c_0 : Ref sig .tc := ⟨.hbm, 69, rfl⟩
abbrev main_call2_v2 : Ref sig .tc := ⟨.hbm, 70, rfl⟩
abbrev main_call2_v3 : Ref sig .tc := ⟨.hbm, 71, rfl⟩
abbrev main_call2_v4 : Ref sig .tc := ⟨.hbm, 72, rfl⟩
abbrev main_call2_v5 : Ref sig .tc := ⟨.hbm, 73, rfl⟩
abbrev main_call2_c_1 : Ref sig .tc := ⟨.hbm, 74, rfl⟩
abbrev main_call2_c_2 : Ref sig .tc := ⟨.hbm, 75, rfl⟩
abbrev main_call2_v6 : Ref sig .tc := ⟨.hbm, 76, rfl⟩
abbrev main_call2_v7 : Ref sig .tc := ⟨.hbm, 77, rfl⟩
abbrev main_call2_v8 : Ref sig .tc := ⟨.hbm, 78, rfl⟩
abbrev main_call2_v9 : Ref sig .tc := ⟨.hbm, 79, rfl⟩
abbrev main_call2_v10 : Ref sig .tc := ⟨.hbm, 80, rfl⟩
abbrev main_call2_v11 : Ref sig .tc := ⟨.hbm, 81, rfl⟩
abbrev main_call2_c_3 : Ref sig .tc := ⟨.hbm, 82, rfl⟩
abbrev main_call2_v12 : Ref sig .tc := ⟨.hbm, 83, rfl⟩
abbrev main_call2_v13 : Ref sig .tc := ⟨.hbm, 84, rfl⟩
abbrev main_call2_v14 : Ref sig .tc := ⟨.hbm, 85, rfl⟩
abbrev main_call2_cst : Ref sig .tc := ⟨.hbm, 86, rfl⟩
abbrev main_call2_v15 : Ref sig .tc := ⟨.hbm, 87, rfl⟩
abbrev main_v12 : Ref sig .tc := ⟨.hbm, 88, rfl⟩
abbrev main_v13 : Ref sig .tc := ⟨.hbm, 89, rfl⟩
abbrev main_v14 : Ref sig .tc := ⟨.hbm, 90, rfl⟩
abbrev main_v15 : Ref sig .tc := ⟨.hbm, 91, rfl⟩
abbrev main_cst_0 : Ref sig .tc := ⟨.hbm, 92, rfl⟩
abbrev main_v16 : Ref sig .tc := ⟨.hbm, 93, rfl⟩
abbrev main_v17 : Ref sig .tc := ⟨.hbm, 94, rfl⟩
abbrev main_v18 : Ref sig .tc := ⟨.hbm, 95, rfl⟩
abbrev main_cst_1 : Ref sig .tc := ⟨.hbm, 96, rfl⟩
abbrev main_v19 : Ref sig .tc := ⟨.hbm, 97, rfl⟩
abbrev main_v20 : Ref sig .tc := ⟨.hbm, 98, rfl⟩
abbrev main_call3_c : Ref sig .tc := ⟨.hbm, 99, rfl⟩
abbrev main_call3_v0 : Ref sig .tc := ⟨.hbm, 100, rfl⟩
abbrev main_call3_v1 : Ref sig .tc := ⟨.hbm, 101, rfl⟩
abbrev main_call3_c_0 : Ref sig .tc := ⟨.hbm, 102, rfl⟩
abbrev main_call3_v2 : Ref sig .tc := ⟨.hbm, 103, rfl⟩
abbrev main_call3_v3 : Ref sig .tc := ⟨.hbm, 104, rfl⟩
abbrev main_call3_v4 : Ref sig .tc := ⟨.hbm, 105, rfl⟩
abbrev main_call3_v5 : Ref sig .tc := ⟨.hbm, 106, rfl⟩
abbrev main_call3_c_1 : Ref sig .tc := ⟨.hbm, 107, rfl⟩
abbrev main_call3_c_2 : Ref sig .tc := ⟨.hbm, 108, rfl⟩
abbrev main_call3_v6 : Ref sig .tc := ⟨.hbm, 109, rfl⟩
abbrev main_call3_v7 : Ref sig .tc := ⟨.hbm, 110, rfl⟩
abbrev main_call3_v8 : Ref sig .tc := ⟨.hbm, 111, rfl⟩
abbrev main_call3_v9 : Ref sig .tc := ⟨.hbm, 112, rfl⟩
abbrev main_call3_v10 : Ref sig .tc := ⟨.hbm, 113, rfl⟩
abbrev main_call3_v11 : Ref sig .tc := ⟨.hbm, 114, rfl⟩
abbrev main_call3_c_3 : Ref sig .tc := ⟨.hbm, 115, rfl⟩
abbrev main_call3_v12 : Ref sig .tc := ⟨.hbm, 116, rfl⟩
abbrev main_call3_v13 : Ref sig .tc := ⟨.hbm, 117, rfl⟩
abbrev main_call3_v14 : Ref sig .tc := ⟨.hbm, 118, rfl⟩
abbrev main_call3_cst : Ref sig .tc := ⟨.hbm, 119, rfl⟩
abbrev main_call3_v15 : Ref sig .tc := ⟨.hbm, 120, rfl⟩
abbrev main_v21 : Ref sig .tc := ⟨.hbm, 121, rfl⟩
abbrev main_v22 : Ref sig .tc := ⟨.hbm, 122, rfl⟩
abbrev main_v23 : Ref sig .tc := ⟨.hbm, 123, rfl⟩
abbrev main_v24 : Ref sig .tc := ⟨.hbm, 124, rfl⟩
abbrev main_cst_2 : Ref sig .tc := ⟨.hbm, 125, rfl⟩
abbrev main_v25 : Ref sig .tc := ⟨.hbm, 126, rfl⟩
abbrev main_v26 : Ref sig .tc := ⟨.hbm, 127, rfl⟩
abbrev main_v27 : Ref sig .tc := ⟨.hbm, 128, rfl⟩
abbrev main_cst_3 : Ref sig .tc := ⟨.hbm, 129, rfl⟩
abbrev main_v28 : Ref sig .tc := ⟨.hbm, 130, rfl⟩
abbrev main_v29 : Ref sig .tc := ⟨.hbm, 131, rfl⟩
abbrev main_cst_4 : Ref sig .tc := ⟨.hbm, 132, rfl⟩
abbrev main_v30 : Ref sig .tc := ⟨.hbm, 133, rfl⟩
abbrev main_v31 : Ref sig .tc := ⟨.hbm, 134, rfl⟩
abbrev main_v32 : Ref sig .tc := ⟨.hbm, 135, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x64 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S10000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

class Facts₀ : Prop where
  slices_S128x64_S64x64_0_0 : S128x64.Slices ![0, 0] S64x64
  slices_S128x64_S64x64_64_0 : S128x64.Slices ![64, 0] S64x64
  concatenates_S64x64_S64x64_S64x64_S64x192_d1 : Shape.Concatenates [S64x64, S64x64, S64x64] S64x192 1
  bcast_S_S64 : S_.BroadcastsInDim S64 (![] : Fin 0 → Fin S64.rank)
  concatenates_S64_S64_S64_S192_d0 : Shape.Concatenates [S64, S64, S64] S192 0
  shapeCasts_S192_S1x192 : S192.ShapeCasts S1x192
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x192_S64x192_0_0 : ∀ a, (![0, 0] : Fin 2 → Nat) a + S64x192.size a ≤ S64x192.size a
  h_S64x192 : 0 < S64x192.numel
  shapeCasts_S64x192_S64x192 : S64x192.ShapeCasts S64x192
  inb_S1x192_S1x192_0_0 : ∀ a, (![0, 0] : Fin 2 → Nat) a + S1x192.size a ≤ S1x192.size a
  h_S1x192 : 0 < S1x192.numel
  shapeCasts_S1x192_S1x192 : S1x192.ShapeCasts S1x192
  broadcasts_S1x192_S10000x192 : S1x192.Broadcasts S10000x192
  inb_S10000x192_S10000x192_0_0 : ∀ a, (![0, 0] : Fin 2 → Nat) a + S10000x192.size a ≤ S10000x192.size a
  h_S10000x192 : 0 < S10000x192.numel
  slices_S100000x192_S100000x64_0_0 : S100000x192.Slices ![0, 0] S100000x64
  slices_S100000x192_S100000x64_0_64 : S100000x192.Slices ![0, 64] S100000x64
  slices_S100000x192_S100000x64_0_128 : S100000x192.Slices ![0, 128] S100000x64
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S1600000x1 : S_.BroadcastsInDim S1600000x1 (![] : Fin 0 → Fin S1600000x1.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  reducesTo_S1600000x1_S1600000_d1 : S1600000x1.ReducesTo [1] S1600000
  h_S_ : 0 < S_.numel
  bcast_S1600000_S1600000x64_0 : S1600000.BroadcastsInDim S1600000x64 (![0] : Fin 1 → Fin S1600000x64.rank)
  bcast_S_S1600000x64 : S_.BroadcastsInDim S1600000x64 (![] : Fin 0 → Fin S1600000x64.rank)
  shapeCasts_S64x1_S1x64 : S64x1.ShapeCasts S1x64
  shapeCasts_S1_S1x1 : S1.ShapeCasts S1x1
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x64_S10000x64 : S1x64.Broadcasts S10000x64
  reduces_S10000x64_S10000 : S10000x64.Reduces [1] S10000
  shapeCasts_S10000_S10000x1 : S10000.ShapeCasts S10000x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  bcast_S_S100000x1 : S_.BroadcastsInDim S100000x1 (![] : Fin 0 → Fin S100000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  dot_S10000x64_S64x192_S10000x192_1_0_0_1_n_n_wf : DotDims.WF S10000x64 S64x192 S10000x192 [1] [0] [0] [1] [] []
  gather_S100000x64_S1600000x1_S1600000x64_1_0_n_n_0_1_164_wf : GatherDims.WF S100000x64 S1600000x1 S1600000x64 [1] [0] [] [0] [] 1 ![1, 64]
  scatter_S100000x1_S1600000x1_S1600000x1_1_0_0_1_wf : ScatterDims.WF S100000x1 S1600000x1 S1600000x1 [1] [0] [0] 1
  gather_S100000x1_S1600000x1_S1600000x1_1_0_n_n_0_1_11_wf : GatherDims.WF S100000x1 S1600000x1 S1600000x1 [1] [0] [] [0] [] 1 ![1, 1]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x192.size a ≤ S64x192.size a
  hwx0_1 : ∀ i : grid0.Coords, EltTy.bits .f32 = 32 ∨ (Rect.block (s := S64x192) S64x192.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x192.size a ≤ S1x192.size a
  hwx0_2 : ∀ i : grid0.Coords, EltTy.bits .f32 = 32 ∨ (Rect.block (s := S1x192) S1x192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x192.size a ≤ S100000x192.size a
  hwx0_3 : ∀ i : grid0.Coords, EltTy.bits .f32 = 32 ∨ (Rect.block (s := S100000x192) S10000x192.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S1600000x64.size a
  hwx1_0 : ∀ i : grid1.Coords, EltTy.bits .f32 = 32 ∨ (Rect.block (s := S1600000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x64.size a ≤ S1600000x64.size a
  hwx1_1 : ∀ i : grid1.Coords, EltTy.bits .f32 = 32 ∨ (Rect.block (s := S1600000x64) S10000x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1.size a ≤ S1x1.size a
  hwx1_3 : ∀ i : grid1.Coords, EltTy.bits .f32 = 32 ∨ (Rect.block (s := S1x1) S1x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S10000x1.size a ≤ S1600000x1.size a
  hwx1_4 : ∀ i : grid1.Coords, EltTy.bits .f32 = 32 ∨ (Rect.block (s := S1600000x1) S10000x1.size (cc1_transform_4 i) (hinb1_4 i)).WholeWords (EltTy.packing .f32)

variable [Facts₀]

def dot_S10000x64_S64x192_S10000x192_1_0_0_1_n_n : DotDims S10000x64 S64x192 S10000x192 where
  lhsContracting := [1]
  rhsContracting := [0]
  lhsNonContracting := [0]
  rhsNonContracting := [1]
  lhsBatch := []
  rhsBatch := []
  wf := dot_S10000x64_S64x192_S10000x192_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S64x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v5) S1x192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v6) S10000x192.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v10) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S10000x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S1x64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S1x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v15) S10000x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S100000x64 : Shape := ⟨2, ![100000, 64]⟩
abbrev S1600000 : Shape := ⟨1, ![1600000]⟩
abbrev S128x64 : Shape := ⟨2, ![128, 64]⟩
abbrev S64 : Shape := ⟨1, ![64]⟩
abbrev S64x1 : Shape := ⟨2, ![64, 1]⟩
abbrev S1 : Shape := ⟨1, ![1]⟩
abbrev S64x64 : Shape := ⟨2, ![64, 64]⟩
abbrev S_ : Shape := ⟨0, ![]⟩
abbrev S1600000x1 : Shape := ⟨2, ![1600000, 1]⟩
abbrev S1600000x64 : Shape := ⟨2, ![1600000, 64]⟩
abbrev S1x64 : Shape := ⟨2, ![1, 64]⟩
abbrev S1x1 : Shape := ⟨2, ![1, 1]⟩
abbrev S100000x1 : Shape := ⟨2, ![100000, 1]⟩

abbrev nBuf : Space → Nat
  | .hbm => 81
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S1600000, .i32⟩
  | .hbm, ⟨2, _⟩ => ⟨S1600000, .i32⟩
  | .hbm, ⟨3, _⟩ => ⟨S128x64, .f32⟩
  | .hbm, ⟨4, _⟩ => ⟨S64, .f32⟩
  | .hbm, ⟨5, _⟩ => ⟨S64x1, .f32⟩
  | .hbm, ⟨6, _⟩ => ⟨S1, .f32⟩
  | .hbm, ⟨7, _⟩ => ⟨S64x64, .f32⟩
  | .hbm, ⟨8, _⟩ => ⟨S64, .f32⟩
  | .hbm, ⟨9, _⟩ => ⟨S_, .i32⟩
  | .hbm, ⟨10, _⟩ => ⟨S1600000, .i32⟩
  | .hbm, ⟨11, _⟩ => ⟨S1600000, .i1⟩
  | .hbm, ⟨12, _⟩ => ⟨S_, .i32⟩
  | .hbm, ⟨13, _⟩ => ⟨S1600000, .i32⟩
  | .hbm, ⟨14, _⟩ => ⟨S1600000, .i32⟩
  | .hbm, ⟨15, _⟩ => ⟨S1600000, .i32⟩
  | .hbm, ⟨16, _⟩ => ⟨S1600000x1, .i32⟩
  | .hbm, ⟨17, _⟩ => ⟨S1600000x64, .f32⟩
  | .hbm, ⟨18, _⟩ => ⟨S_, .i32⟩
  | .hbm, ⟨19, _⟩ => ⟨S1600000, .i32⟩
  | .hbm, ⟨20, _⟩ => ⟨S1600000, .i1⟩
  | .hbm, ⟨21, _⟩ => ⟨S_, .i32⟩
  | .hbm, ⟨22, _⟩ => ⟨S1600000, .i32⟩
  | .hbm, ⟨23, _⟩ => ⟨S1600000, .i32⟩
  | .hbm, ⟨24, _⟩ => ⟨S1600000, .i32⟩
  | .hbm, ⟨25, _⟩ => ⟨S1600000x1, .i32⟩
  | .hbm, ⟨26, _⟩ => ⟨S1600000x64, .f32⟩
  | .hbm, ⟨27, _⟩ => ⟨S64x64, .f32⟩
  | .hbm, ⟨28, _⟩ => ⟨S1600000x64, .f32⟩
  | .hbm, ⟨29, _⟩ => ⟨S64x64, .f32⟩
  | .hbm, ⟨30, _⟩ => ⟨S1600000x64, .f32⟩
  | .hbm, ⟨31, _⟩ => ⟨S1600000x64, .f32⟩
  | .hbm, ⟨32, _⟩ => ⟨S1x64, .f32⟩
  | .hbm, ⟨33, _⟩ => ⟨S1600000x64, .f32⟩
  | .hbm, ⟨34, _⟩ => ⟨S1600000x64, .f32⟩
  | .hbm, ⟨35, _⟩ => ⟨S_, .f32⟩
  | .hbm, ⟨36, _⟩ => ⟨S1600000x64, .f32⟩
  | .hbm, ⟨37, _⟩ => ⟨S1600000x64, .i1⟩
  | .hbm, ⟨38, _⟩ => ⟨S_, .f32⟩
  | .hbm, ⟨39, _⟩ => ⟨S1600000x64, .f32⟩
  | .hbm, ⟨40, _⟩ => ⟨S1600000x64, .f32⟩
  | .hbm, ⟨41, _⟩ => ⟨S1600000x64, .f32⟩
  | .hbm, ⟨42, _⟩ => ⟨S1600000x1, .f32⟩
  | .hbm, ⟨43, _⟩ => ⟨S1x1, .f32⟩
  | .hbm, ⟨44, _⟩ => ⟨S1600000x1, .f32⟩
  | .hbm, ⟨45, _⟩ => ⟨S1600000x1, .f32⟩
  | .hbm, ⟨46, _⟩ => ⟨S1600000x1, .f32⟩
  | .hbm, ⟨47, _⟩ => ⟨S_, .f32⟩
  | .hbm, ⟨48, _⟩ => ⟨S100000x1, .f32⟩
  | .hbm, ⟨49, _⟩ => ⟨S1600000x1, .i32⟩
  | .hbm, ⟨50, _⟩ => ⟨S100000x1, .f32⟩
  | .hbm, ⟨51, _⟩ => ⟨S_, .f32⟩
  | .hbm, ⟨52, _⟩ => ⟨S100000x1, .f32⟩
  | .hbm, ⟨53, _⟩ => ⟨S100000x1, .f32⟩
  | .hbm, ⟨54, _⟩ => ⟨S_, .i32⟩
  | .hbm, ⟨55, _⟩ => ⟨S1600000, .i32⟩
  | .hbm, ⟨56, _⟩ => ⟨S1600000, .i1⟩
  | .hbm, ⟨57, _⟩ => ⟨S_, .i32⟩
  | .hbm, ⟨58, _⟩ => ⟨S1600000, .i32⟩
  | .hbm, ⟨59, _⟩ => ⟨S1600000, .i32⟩
  | .hbm, ⟨60, _⟩ => ⟨S1600000, .i32⟩
  | .hbm, ⟨61, _⟩ => ⟨S1600000x1, .i32⟩
  | .hbm, ⟨62, _⟩ => ⟨S1600000x1, .f32⟩
  | .hbm, ⟨63, _⟩ => ⟨S1600000x1, .f32⟩
  | .hbm, ⟨64, _⟩ => ⟨S1600000x64, .f32⟩
  | .hbm, ⟨65, _⟩ => ⟨S1x64, .f32⟩
  | .hbm, ⟨66, _⟩ => ⟨S1600000x64, .f32⟩
  | .hbm, ⟨67, _⟩ => ⟨S1600000x64, .f32⟩
  | .hbm, ⟨68, _⟩ => ⟨S1600000x64, .f32⟩
  | .hbm, ⟨69, _⟩ => ⟨S1600000x64, .f32⟩
  | .hbm, ⟨70, _⟩ => ⟨S_, .f32⟩
  | .hbm, ⟨71, _⟩ => ⟨S100000x64, .f32⟩
  | .hbm, ⟨72, _⟩ => ⟨S1600000x1, .i32⟩
  | .hbm, ⟨73, _⟩ => ⟨S100000x64, .f32⟩
  | .hbm, ⟨74, _⟩ => ⟨S_, .f32⟩
  | .hbm, ⟨75, _⟩ => ⟨S100000x64, .f32⟩
  | .hbm, ⟨76, _⟩ => ⟨S100000x64, .i1⟩
  | .hbm, ⟨77, _⟩ => ⟨S_, .f32⟩
  | .hbm, ⟨78, _⟩ => ⟨S100000x64, .f32⟩
  | .hbm, ⟨79, _⟩ => ⟨S100000x64, .f32⟩
  | .hbm, ⟨80, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst : Ref sig .tc := ⟨.hbm, 35, rfl⟩
abbrev main_v22 : Ref sig .tc := ⟨.hbm, 36, rfl⟩
abbrev main_v23 : Ref sig .tc := ⟨.hbm, 37, rfl⟩
abbrev main_cst_3 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_4 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_5 : Ref sig .tc := ⟨.hbm, 51, rfl⟩
abbrev main_v35 : Ref sig .tc := ⟨.hbm, 52, rfl⟩
abbrev main_v36 : Ref sig .tc := ⟨.hbm, 53, rfl⟩
abbrev main_c_6 : Ref sig .tc := ⟨.hbm, 54, rfl⟩
abbrev main_v37 : Ref sig .tc := ⟨.hbm, 55, rfl⟩
abbrev main_v38 : Ref sig .tc := ⟨.hbm, 56, rfl⟩
abbrev main_c_7 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_cst_8 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_v55 : Ref sig .tc := ⟨.hbm, 76, rfl⟩
abbrev main_cst_10 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S128x64_S64x64_0_0 : S128x64.Slices ![0, 0] S64x64
  slices_S128x64_S64x64_64_0 : S128x64.Slices ![64, 0] S64x64
  bcast_S64_S1x64_1 : S64.BroadcastsInDim S1x64 (![1] : Fin 1 → Fin S1x64.rank)
  bcast_S1x64_S1600000x64_0_1 : S1x64.BroadcastsInDim S1600000x64 (![0, 1] : Fin 2 → Fin S1600000x64.rank)
  bcast_S_S1600000x64 : S_.BroadcastsInDim S1600000x64 (![] : Fin 0 → Fin S1600000x64.rank)
  bcast_S1_S1x1_1 : S1.BroadcastsInDim S1x1 (![1] : Fin 1 → Fin S1x1.rank)
  bcast_S1x1_S1600000x1_0_1 : S1x1.BroadcastsInDim S1600000x1 (![0, 1] : Fin 2 → Fin S1600000x1.rank)
  bcast_S_S100000x1 : S_.BroadcastsInDim S100000x1 (![] : Fin 0 → Fin S100000x1.rank)
  bcast_S1600000x1_S1600000x64_0_1 : S1600000x1.BroadcastsInDim S1600000x64 (![0, 1] : Fin 2 → Fin S1600000x64.rank)
  bcast_S_S100000x64 : S_.BroadcastsInDim S100000x64 (![] : Fin 0 → Fin S100000x64.rank)
  gather_S100000x64_S1600000x1_S1600000x64_1_0_n_n_0_1_164_wf : GatherDims.WF S100000x64 S1600000x1 S1600000x64 [1] [0] [] [0] [] 1 ![1, 64]
  dot_S1600000x64_S64x64_S1600000x64_1_0_0_1_n_n_wf : DotDims.WF S1600000x64 S64x64 S1600000x64 [1] [0] [0] [1] [] []
  dot_S1600000x64_S64x1_S1600000x1_1_0_0_1_n_n_wf : DotDims.WF S1600000x64 S64x1 S1600000x1 [1] [0] [0] [1] [] []
  scatter_S100000x1_S1600000x1_S1600000x1_1_0_0_1_wf : ScatterDims.WF S100000x1 S1600000x1 S1600000x1 [1] [0] [0] 1
  gather_S100000x1_S1600000x1_S1600000x1_1_0_n_n_0_1_11_wf : GatherDims.WF S100000x1 S1600000x1 S1600000x1 [1] [0] [] [0] [] 1 ![1, 1]
  scatter_S100000x64_S1600000x1_S1600000x64_1_0_0_1_wf : ScatterDims.WF S100000x64 S1600000x1 S1600000x64 [1] [0] [0] 1

variable [Facts₀]

def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def dot_S1600000x64_S64x64_S1600000x64_1_0_0_1_n_n : DotDims S1600000x64 S64x64 S1600000x64 where
  lhsContracting := [1]
  rhsContracting := [0]
  lhsNonContracting := [0]
  rhsNonContracting := [1]
  lhsBatch := []
  rhsBatch := []
  wf := dot_S1600000x64_S64x64_S1600000x64_1_0_0_1_n_n_wf
def dot_S1600000x64_S64x1_S1600000x1_1_0_0_1_n_n : DotDims S1600000x64 S64x1 S1600000x1 where
  lhsContracting := [1]
  rhsContracting := [0]
  lhsNonContracting := [0]
  rhsNonContracting := [1]
  lhsBatch := []
  rhsBatch := []
  wf := dot_S1600000x64_S64x1_S1600000x1_1_0_0_1_n_n_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x1_S1600000x1_S1600000x1_1_0_n_n_0_1_11 : GatherDims S100000x1 S1600000x1 S1600000x1 where
  offsetDims := [1]
  collapsedSliceDims := [0]
  operandBatchingDims := []
  startIndicesBatchingDims := []
  startIndexMap := [0]
  indexVectorDim := 1
  sliceSizes := ![1, 1]
  wf := gather_S100000x1_S1600000x1_S1600000x1_1_0_n_n_0_1_11_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.Kernel.Proj.lean ====
/-
  Region 0 of the kernel program: the node projection `P = x · W_cat + bias_cat`, one pallas_call over a grid of 10
  points, point `t` taking rows `10000 t … 10000 t + 9999` of `x` and of `P`, the weight block (64 × 192) and the bias
  row (1 × 192) the same at every point.  Stated at a parameter `V`, the buffers' contents when the region is entered:
  what each window's block is at a point, what the body leaves in the output block (one whole-block store of the
  body's one payload: the matrix product of the two loaded blocks plus the broadcast bias row), the body's triple, the
  pipeline's proof data and the obligation the launch theorem asks at every point.
-/
import proofs.«425531_j44890998177866_3_alg».proof.Proof.Gen.Kernel.Launch
import proofs.«425531_j44890998177866_3_alg».proof.Proof.Gen.Kernel.Skeleton
import proofs.«425531_j44890998177866_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` a point takes sit in its staging buffer when the body runs, whichever of the two buffers it is. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight block is fetched once and is still there at every later point: its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole block -/

abbrev rx0 : Rect S10000x64 := Rect.unit (s := S10000x64) ![0, 0] S10000x64.size inb_S10000x64_S10000x64_0_0
abbrev rw0 : Rect S64x192 := Rect.unit (s := S64x192) ![0, 0] S64x192.size inb_S64x192_S64x192_0_0
abbrev rb0 : Rect S1x192 := Rect.unit (s := S1x192) ![0, 0] S1x192.size inb_S1x192_S1x192_0_0
abbrev ro0 : Rect S10000x192 := Rect.unit (s := S10000x192) ![0, 0] S10000x192.size inb_S10000x192_S10000x192_0_0

/-- What the body leaves in the output block, from the three input blocks: its one store, of the product plus bias. -/
def out0_3 (x0 : Vec F S10000x64 .f32) (x1 : Vec F S64x192 .f32) (x2 : Vec F S1x192 .f32) : Vec F S10000x192 .f32 :=
  View.canon [⟨ro0, k0_pay1 (View.ld x0 rx0) (View.ld x1 rw0) (View.ld x2 rb0)⟩]

/-- The one store covers the output block. -/
theorem cover0_3 (p0 : Vec F S10000x192 .f32) (y : S10000x192.Idx) :
    ∃ pc ∈ ([⟨ro0, p0⟩] : List (View.Piece (Elt F) S10000x192 .f32)), y ∈ pc.1.set :=
  View.cover_of_tiled [⟨ro0, p0⟩] S10000x192.size (by rfl) y

/-! ## The body's triple -/

set_option maxHeartbeats 1000000 in
/-- The body on whole staging memrefs, the inputs' holding `x0`, `x1`, `x2` and the output's anything, runs to the
    continuation with the inputs' unchanged and the output's at `out0_3 x0 x1 x2`. -/
theorem sound_kernel0 (c : Dev nD) (E : Set ℕ) (i : grid0.Coords) (arg1 : Memref sig .tc .vmem S10000x64 .f32) (harg1 : arg1.IsWhole)
    (arg2 : Memref sig .tc .vmem S64x192 .f32) (harg2 : arg2.IsWhole) (arg3 : Memref sig .tc .vmem S1x192 .f32) (harg3 : arg3.IsWhole)
    (arg4 : Memref sig .tc .vmem S10000x192 .f32) (harg4 : arg4.IsWhole)
    (x0 : Vec F S10000x64 .f32) (x1 : Vec F S64x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Region 0's proof data on core `c`: the arrays as the region finds them; after the body at point `t` each input's
    buffer still at its block and the output's at `out0_3` of the three input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.Kernel.Edge.lean ====
/-
  Region 1 of the kernel program: the per-edge attention weight, one pallas_call over a grid of 160 points, point `t`
  taking rows `10000 t … 10000 t + 9999` of the two gathered arrays and of the result, the attention row (1 × 64) and
  the attention bias (1 × 1) the same at every point.  The body's one payload is, row by row,
  `exp (Σ_j leaky (a + b)[j] · w[j] + β)`.  Stated at a parameter `V`, the buffers' contents when the region is entered:
  the windows' blocks, what the body leaves in the output block, the body's triple, the pipeline's proof data and the
  obligation the launch theorem asks at every point.
-/
import proofs.«425531_j44890998177866_3_alg».proof.Proof.Gen.Kernel.Launch
import proofs.«425531_j44890998177866_3_alg».proof.Proof.Gen.Kernel.Skeleton
import proofs.«425531_j44890998177866_3_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The source-side rows a point takes sit in their staging buffer when the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The target-side rows likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The attention row is fetched once and is still there at every later point: its index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The attention bias likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole block -/

abbrev rg1 : Rect S10000x64 := Rect.unit (s := S10000x64) ![0, 0] S10000x64.size inb_S10000x64_S10000x64_0_0
abbrev ra1 : Rect S1x64 := Rect.unit (s := S1x64) ![0, 0] S1x64.size inb_S1x64_S1x64_0_0
abbrev rc1 : Rect S1x1 := Rect.unit (s := S1x1) ![0, 0] S1x1.size inb_S1x1_S1x1_0_0
abbrev ro1 : Rect S10000x1 := Rect.unit (s := S10000x1) ![0, 0] S10000x1.size inb_S10000x1_S10000x1_0_0

/-- What the body leaves in the output block, from the four input blocks: its one store, of the exponentials. -/
def out1_4 (x0 : Vec F S10000x64 .f32) (x1 : Vec F S10000x64 .f32) (x2 : Vec F S1x64 .f32) (x3 : Vec F S1x1 .f32) : Vec F S10000x1 .f32 :=
  View.canon [⟨ro1, k1_pay1 (View.ld x0 rg1) (View.ld x1 rg1) (View.ld x2 ra1) (View.ld x3 rc1)⟩]

/-- The one store covers the output block. -/
theorem cover1_4 (p0 : Vec F S10000x1 .f32) (y : S10000x1.Idx) :
    ∃ pc ∈ ([⟨ro1, p0⟩] : List (View.Piece (Elt F) S10000x1 .f32)), y ∈ pc.1.set :=
  View.cover_of_tiled [⟨ro1, p0⟩] S10000x1.size (by rfl) y

/-! ## The body's triple -/

set_option maxHeartbeats 1000000 in
/-- The body on whole staging memrefs, the inputs' holding `x0 … x3` and the output's anything, runs to the continuation
    with the inputs' unchanged and the output's at `out1_4 x0 x1 x2 x3`. -/
theorem sound_kernel1 (c : Dev nD) (E : Set ℕ) (i : grid1.Coords) (arg1 : Memref sig .tc .vmem S10000x64 .f32) (harg1 : arg1.IsWhole)
    (arg2 : Memref sig .tc .vmem S10000x64 .f32) (harg2 : arg2.IsWhole) (arg3 : Memref sig .tc .vmem S1x64 .f32) (harg3 : arg3.IsWhole)
    (arg4 : Memref sig .tc .vmem S1x1 .f32) (harg4 : arg4.IsWhole) (arg5 : Memref sig .tc .vmem S10000x1 .f32) (harg5 : arg5.IsWhole)
    (x0 : Vec F S10000x64 .f32) (x1 : Vec F S10000x64 .f32) (x2 : Vec F S1x64 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__edge_pass1_kernel i arg1 harg1 arg2 harg2 arg3 harg3 arg4 harg4 arg5 harg5) K := by
  simp only [cc1__edge_pass1_kernel_eq_skeleton]; unfold cc1__edge_pass1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- Region 1's proof data on core `c`: the arrays as the region finds them; after the body at point `t` each input's
    buffer still at its block and the output's at `out1_4` of the four input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.Kernel.Run.lean ====
/-
  The run of the kernel program: @main is twelve items in order, host stretches and the two regions.  Between two
  items core `c` holds every unscoped buffer at a known valuation (`V0 … V12` of the generated conditional frame, which
  are the launch memory folded through the host stretches, with an unknown `outs` for what a region leaves in its
  output array).  Here `outs` is chosen: region 0 leaves in `main_v6` what its write-backs fold to, region 1 likewise
  in `main_v15`; each region is given its segment record over those valuations; and the launch theorem is called once,
  with a post that names every unscoped buffer at the end.  The frame (the nine argument arrays end as launched) is
  read off that post.
-/
import proofs.«425531_j44890998177866_3_alg».proof.Proof.Gen.Kernel.Regions
import proofs.«425531_j44890998177866_3_alg».proof.Proof.Kernel.Proj
import proofs.«425531_j44890998177866_3_alg».proof.Proof.Kernel.Edge

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## What the regions leave -/

/-- The buffers as region 0 finds them, read at the TensorCore's references. -/
abbrev Vr1 : (c : Dev nD) → (b : Ref sig .tc) → Buf (Elt F) ((c : Thread nD τ).loc b) := fun c b => V1 m c b

/-- The buffers as region 0 leaves them: its arrays at what the pipeline's write-backs fold to, the rest as entered. -/
def U2 (c : Dev nD) : Valuation τ sig (Elt F) :=
  Pipeline.withArrays spec0 c (V1 m c) fun w => (dat0 (Vr1 m) c).arrAt w cfg0.N

/-- The unknowns with region 0's output chosen (region 1's not yet). -/
def outsA : Outs (F := F) := fun _ r c => U2 m c r

/-- The buffers as region 1 finds them, read at the TensorCore's references. -/
abbrev Vr7 : (c : Dev nD) → (b : Ref sig .tc) → Buf (Elt F) ((c : Thread nD τ).loc b) := fun c b => V7 m (outsA m) c b

/-- The buffers as region 1 leaves them. -/
def U8 (c : Dev nD) : Valuation τ sig (Elt F) :=
  Pipeline.withArrays spec1 c (V7 m (outsA m) c) fun w => (dat1 (Vr7 m) c).arrAt w cfg1.N

/-- What the regions leave in the buffers they may change: after item 1 region 0's, after item 7 region 1's. -/
def outs : Outs (F := F) := fun J r c => if J = 2 then U2 m c r else U8 m c r

theorem outs_two (r : Ref sig .tc) (c : Dev nD) : outs m 2 r c = U2 m c r := if_pos rfl
theorem outs_eight (r : Ref sig .tc) (c : Dev nD) : outs m 8 r c = U8 m c r := if_neg (by decide)

theorem V2_outs (c : Dev nD) : V2 m (outs m) c = V2 m (outsA m) c := by
  show Function.update (V1 m c) _ (outs m 2 main_v6 c) = Function.update (V1 m c) _ (outsA m 2 main_v6 c)
  rw [outs_two]; rfl

theorem V7_outs (c : Dev nD) : V7 m (outs m) c = V7 m (outsA m) c := by
  show StableHlo.after hostOps1_4 (StableHlo.after hostOps1_3 (StableHlo.after hostOps1_2 (StableHlo.after hostOps1_1
    (StableHlo.after hostOps1 (V2 m (outs m) c))))) = StableHlo.after hostOps1_4 (StableHlo.after hostOps1_3
    (StableHlo.after hostOps1_2 (StableHlo.after hostOps1_1 (StableHlo.after hostOps1 (V2 m (outsA m) c)))))
  rw [V2_outs]

/-! ## The proof data family, and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Vr1 m) c
  | ⟨1, _⟩ => fun c => dat1 (Vr7 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and its dues, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## Each region's exit contents are the chosen valuation -/

/-- The buffers as region 0 leaves them, read at the TensorCore's references. -/
abbrev Vr2 : (c : Dev nD) → (b : Ref sig .tc) → Buf (Elt F) ((c : Thread nD τ).loc b) := fun c b => V2 m (outs m) c b
/-- The buffers as region 1 leaves them, read at the TensorCore's references. -/
abbrev Vr8 : (c : Dev nD) → (b : Ref sig .tc) → Buf (Elt F) ((c : Thread nD τ).loc b) := fun c b => V8 m (outs m) c b

/-- Region 0's arrays at its exit: an input's array is as entered, the output's is the folded write-backs. -/
theorem hF0 (c : Dev nD) (w : Fin cfg0.W) :
    (dat0 (Vr1 m) c).arrAt w cfg0.N = Vr2 m c (Pipeline.arrRef spec0 w) := by
  show _ = V2 m (outs m) c (Proc.devRef .tc (Pipeline.arrRef spec0 w))
  rw [V2_outs]
  match w with
  | ⟨0, _⟩ => exact (((dat0 (Vr1 m) c).arrAt_in 0 rfl _).trans (A_eq0 (Vr1 m) c 0)).trans (V2_of m (outsA m) c main_arg0 (by decide)).symm
  | ⟨1, _⟩ => exact (((dat0 (Vr1 m) c).arrAt_in 1 rfl _).trans (A_eq0 (Vr1 m) c 1)).trans (V2_of m (outsA m) c main_v2 (by decide)).symm
  | ⟨2, _⟩ => exact (((dat0 (Vr1 m) c).arrAt_in 2 rfl _).trans (A_eq0 (Vr1 m) c 2)).trans (V2_of m (outsA m) c main_v5 (by decide)).symm
  | ⟨3, _⟩ =>
    show _ = Function.update (V1 m c) (Proc.devRef .tc main_v6) (outsA m 2 main_v6 c) (Proc.devRef .tc main_v6)
    rw [Function.update_self]
    unfold outsA U2
    exact (Pipeline.withArrays_arr spec0 launch0.win.arr_inj c (V1 m c) (fun w => (dat0 (Vr1 m) c).arrAt w cfg0.N) 3).symm
  | ⟨_ + 4, h⟩ => exact absurd h (Nat.not_lt.2 (Nat.le_add_left _ _))

/-- Every buffer that is no array of region 0 is, at its exit, as entered. -/
theorem hrest0 (c : Dev nD) : ∀ b, b ∉ Finset.univ.image (Pipeline.arrRef spec0) → Vr2 m c b = Vr1 m c b :=
  fun b hb => V2_of m (outs m) c b fun h =>
    hb (Finset.mem_image.mpr ⟨3, Finset.mem_univ _, (List.mem_singleton.mp h).symm⟩)

/-- Region 1's arrays at its exit. -/
theorem hF1 (c : Dev nD) (w : Fin cfg1.W) :
    (dat1 (Vr7 m) c).arrAt w cfg1.N = Vr8 m c (Pipeline.arrRef spec1 w) := by
  match w with
  | ⟨0, _⟩ =>
    exact (((dat1 (Vr7 m) c).arrAt_in 0 rfl _).trans (A_eq1 (Vr7 m) c 0)).trans
      ((V8_of m (outs m) c main_v10 (by decide)).trans (congrFun (V7_outs m c) _)).symm
  | ⟨1, _⟩ =>
    exact (((dat1 (Vr7 m) c).arrAt_in 1 rfl _).trans (A_eq1 (Vr7 m) c 1)).trans
      ((V8_of m (outs m) c main_v11 (by decide)).trans (congrFun (V7_outs m c) _)).symm
  | ⟨2, _⟩ =>
    exact (((dat1 (Vr7 m) c).arrAt_in 2 rfl _).trans (A_eq1 (Vr7 m) c 2)).trans
      ((V8_of m (outs m) c main_v13 (by decide)).trans (congrFun (V7_outs m c) _)).symm
  | ⟨3, _⟩ =>
    exact (((dat1 (Vr7 m) c).arrAt_in 3 rfl _).trans (A_eq1 (Vr7 m) c 3)).trans
      ((V8_of m (outs m) c main_v14 (by decide)).trans (congrFun (V7_outs m c) _)).symm
  | ⟨4, _⟩ =>
    show _ = Function.update (V7 m (outs m) c) (Proc.devRef .tc main_v15) (outs m 8 main_v15 c) (Proc.devRef .tc main_v15)
    rw [Function.update_self, outs_eight]
    unfold U8
    exact (Pipeline.withArrays_arr spec1 launch1.win.arr_inj c (V7 m (outsA m) c) (fun w => (dat1 (Vr7 m) c).arrAt w cfg1.N) 4).symm
  | ⟨_ + 5, h⟩ => exact absurd h (Nat.not_lt.2 (Nat.le_add_left _ _))

/-- Every buffer that is no array of region 1 is, at its exit, as entered. -/
theorem hrest1 (c : Dev nD) : ∀ b, b ∉ Finset.univ.image (Pipeline.arrRef spec1) → Vr8 m c b = Vr7 m c b :=
  fun b hb => (V8_of m (outs m) c b fun h =>
    hb (Finset.mem_image.mpr ⟨4, Finset.mem_univ _, (List.mem_singleton.mp h).symm⟩)).trans (congrFun (V7_outs m c) _)

/-! ## The regions as segments -/

-- a library lemma stated over the pinned configuration unifies with the printed one only when unification may unfold
-- plain definitions in a metavariable's type
set_option backward.isDefEq.respectTransparency.types false in
/-- Region 0 over the thread state: entered with every unscoped buffer at the valuation before it, left with them at
    the valuation after it.  Its arrays are split out of the unscoped buffers at entry and put back at exit; the
    generator register goes into the pipeline's invariant and comes out; nothing is owed; the kernel has no semaphore
    of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at the valuation before it, left with them at
    the valuation after it.  Its arrays are split out of the unscoped buffers at entry and put back at exit; the
    generator register goes into the pipeline's invariant and comes out; nothing is owed; the kernel has no semaphore
    of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr7 m) c).loose
  hwaits := Pipeline.hwaits_of_owed_zero _ _ _ _ L lv 1 fun _ _ => rfl
  pre c := iprop(StableHlo.held (c : Thread nD τ) (Pipeline.ucRefs τ sig) (V7 m (outsA m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr7 m c) (Vr8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

theorem hE2 (c : Dev nD) : E (F := F) 2 c ⊢ (iprop(∃ W, owes (c : Thread nD τ) (0 : CellTallies nD τ sig Unit) W) : sProp 𝕄) := by
  iintro ⟨-, H⟩; iexact H

/-- The chain arrives at region 1 with the buffers at the valuation its proof data were stated at. -/
theorem hpre1 (c : Dev nD) :
    (iprop(StableHlo.held (c : Thread nD τ) (Pipeline.ucRefs τ sig) (V7 m (outs m) c) ∗ E 1 c) : sProp 𝕄) ⊢ (reg1 m).pre c := by
  rw [V7_outs]; exact .rfl

-- the launch theorem's implicit arguments are found by unifying its conclusion with this one, which takes unfolding
-- plain definitions in a metavariable's type
set_option backward.isDefEq.respectTransparency.types false in
/-- THE RUN.  From any memory with zero counters every weakly fair execution of @main on the TensorCores terminates,
    nothing faulting, and in every final memory each unscoped buffer of core `c` holds what the last valuation says:
    the launch memory folded through the host stretches, with the two regions' outputs at the folded write-backs. -/
theorem run_all : θ_run defs (onTc (τ := τ) (main (F := F))) ⟨m, fun _ => 0, ρ⟩ (fun r => ∀ c : Dev nD,
    ∀ b ∈ Pipeline.ucRefs τ sig, r.2.mem ((c : Thread nD τ).1, b) = V12 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V12 m (outs m) c))
    (hch := fun c => ⟨.rfl, .rfl, .rfl, .rfl, .rfl, .rfl, .rfl, hpre1 m c, .rfl, .rfl, .rfl, .rfl, sep_mono .rfl (hE2 c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V12 m (outs m) c b)
    (hfin := fun c s' => by
      iintro ⟨Hh, HSI⟩
      unfold StableHlo.held
      imodintro
      iapply (pointsTo_read_all (Pipeline.ucRefs τ sig) (fun b => ((c : Thread nD τ).1, b)) (V12 m (outs m) c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the nine argument arrays end as launched — no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c),
     (h c _ (mem_uc main_arg6 (by decide))).trans (V12_main_arg6 m (outs m) c),
     (h c _ (mem_uc main_arg7 (by decide))).trans (V12_main_arg7 m (outs m) c),
     (h c _ (mem_uc main_arg8 (by decide))).trans (V12_main_arg8 m (outs m) c)⟩) (run_all m ρ)

end Cert.Kernel.Hand

end
-- ==== Proof.KernelIdeal.Proj.lean ====
/-
  Region 0 of the kernel program: the node projection `P = x · W_cat + bias_cat`, one pallas_call over a grid of 10
  points, point `t` taking rows `10000 t … 10000 t + 9999` of `x` and of `P`, the weight block (64 × 192) and the bias
  row (1 × 192) the same at every point.  Stated at a parameter `V`, the buffers' contents when the region is entered:
  what each window's block is at a point, what the body leaves in the output block (one whole-block store of the
  body's one payload: the matrix product of the two loaded blocks plus the broadcast bias row), the body's triple, the
  pipeline's proof data and the obligation the launch theorem asks at every point.
-/
import proofs.«425531_j44890998177866_3_alg».proof.Proof.Gen.KernelIdeal.Launch
import proofs.«425531_j44890998177866_3_alg».proof.Proof.Gen.KernelIdeal.Skeleton
import proofs.«425531_j44890998177866_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The rows of `x` a point takes sit in its staging buffer when the body runs, whichever of the two buffers it is. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- The weight block is fetched once and is still there at every later point: its index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- The bias row likewise. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every load and the store take a whole block -/

abbrev rx0 : Rect S10000x64 := Rect.unit (s := S10000x64) ![0, 0] S10000x64.size inb_S10000x64_S10000x64_0_0
abbrev rw0 : Rect S64x192 := Rect.unit (s := S64x192) ![0, 0] S64x192.size inb_S64x192_S64x192_0_0
abbrev rb0 : Rect S1x192 := Rect.unit (s := S1x192) ![0, 0] S1x192.size inb_S1x192_S1x192_0_0
abbrev ro0 : Rect S10000x192 := Rect.unit (s := S10000x192) ![0, 0] S10000x192.size inb_S10000x192_S10000x192_0_0

/-- What the body leaves in the output block, from the three input blocks: its one store, of the product plus bias. -/
def out0_3 (x0 : Vec F S10000x64 .f32) (x1 : Vec F S64x192 .f32) (x2 : Vec F S1x192 .f32) : Vec F S10000x192 .f32 :=
  View.canon [⟨ro0, k0_pay1 (View.ld x0 rx0) (View.ld x1 rw0) (View.ld x2 rb0)⟩]

/-- The one store covers the output block. -/
theorem cover0_3 (p0 : Vec F S10000x192 .f32) (y : S10000x192.Idx) :
    ∃ pc ∈ ([⟨ro0, p0⟩] : List (View.Piece (Elt F) S10000x192 .f32)), y ∈ pc.1.set :=
  View.cover_of_tiled [⟨ro0, p0⟩] S10000x192.size (by rfl) y

/-! ## The body's triple -/

set_option maxHeartbeats 1000000 in
/-- The body on whole staging memrefs, the inputs' holding `x0`, `x1`, `x2` and the output's anything, runs to the
    continuation with the inputs' unchanged and the output's at `out0_3 x0 x1 x2`. -/
theorem sound_kernel0 (c : Dev nD) (E : Set ℕ) (i : grid0.Coords) (arg1 : Memref sig .tc .vmem S10000x64 .f32) (harg1 : arg1.IsWhole)
    (arg2 : Memref sig .tc .vmem S64x192 .f32) (harg2 : arg2.IsWhole) (arg3 : Memref sig .tc .vmem S1x192 .f32) (harg3 : arg3.IsWhole)
    (arg4 : Memref sig .tc .vmem S10000x192 .f32) (harg4 : arg4.IsWhole)
    (x0 : Vec F S10000x64 .f32) (x1 : Vec F S64x192 .f32) (x2 : Vec F S1x192 .f32) (K : PUnit → sProp 𝕄) :
    iprop(owns (c : Thread nD τ) arg1 fullShare x0 ∗ owns (c : Thread nD τ) arg2 fullShare x1 ∗ owns (c : Thread nD τ) arg3 fullShare x2
        ∗ (∃ d, owns (c : Thread nD τ) arg4 fullShare d)
        ∗ (iprop(owns (c : Thread nD τ) arg1 fullShare x0 ∗ owns (c : Thread nD τ) arg2 fullShare x1 ∗ owns (c : Thread nD τ) arg3 fullShare x2
            ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0 hf1 hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-! ## The pipeline's proof data -/

/-- Region 0's proof data on core `c`: the arrays as the region finds them; after the body at point `t` each input's
    buffer still at its block and the output's at `out0_3` of the three input blocks; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) :
    (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

/-! ## The body obligation, at a generic point -/

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

/-- The body at any point: the inputs' memrefs hold their blocks, so the triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ (grid0.coords t) _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KernelIdeal.Edge.lean ====
/-
  Region 1 of the kernel program: the per-edge attention weight, one pallas_call over a grid of 160 points, point `t`
  taking rows `10000 t … 10000 t + 9999` of the two gathered arrays and of the result, the attention row (1 × 64) and
  the attention bias (1 × 1) the same at every point.  The body's one payload is, row by row,
  `exp (Σ_j leaky (a + b)[j] · w[j] + β)`.  Stated at a parameter `V`, the buffers' contents when the region is entered:
  the windows' blocks, what the body leaves in the output block, the body's triple, the pipeline's proof data and the
  obligation the launch theorem asks at every point.
-/
import proofs.«425531_j44890998177866_3_alg».proof.Proof.Gen.KernelIdeal.Launch
import proofs.«425531_j44890998177866_3_alg».proof.Proof.Gen.KernelIdeal.Skeleton
import proofs.«425531_j44890998177866_3_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the buffers' contents when the region is entered
variable (V : (c : Dev nD) → (b : Ref sig .tc) → Buf (Elt F) ((c : Thread nD τ).loc b))

/-! ## The windows' blocks -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The source-side rows a point takes sit in their staging buffer when the body runs. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- The target-side rows likewise. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- The attention row is fetched once and is still there at every later point: its index never moves. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- The attention bias likewise. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-! ## The body's accesses: every load and the store take a whole block -/

abbrev rg1 : Rect S10000x64 := Rect.unit (s := S10000x64) ![0, 0] S10000x64.size inb_S10000x64_S10000x64_0_0
abbrev ra1 : Rect S1x64 := Rect.unit (s := S1x64) ![0, 0] S1x64.size inb_S1x64_S1x64_0_0
abbrev rc1 : Rect S1x1 := Rect.unit (s := S1x1) ![0, 0] S1x1.size inb_S1x1_S1x1_0_0
abbrev ro1 : Rect S10000x1 := Rect.unit (s := S10000x1) ![0, 0] S10000x1.size inb_S10000x1_S10000x1_0_0

/-- What the body leaves in the output block, from the four input blocks: its one store, of the exponentials. -/
def out1_4 (x0 : Vec F S10000x64 .f32) (x1 : Vec F S10000x64 .f32) (x2 : Vec F S1x64 .f32) (x3 : Vec F S1x1 .f32) : Vec F S10000x1 .f32 :=
  View.canon [⟨ro1, k1_pay1 (View.ld x0 rg1) (View.ld x1 rg1) (View.ld x2 ra1) (View.ld x3 rc1)⟩]

/-- The one store covers the output block. -/
theorem cover1_4 (p0 : Vec F S10000x1 .f32) (y : S10000x1.Idx) :
    ∃ pc ∈ ([⟨ro1, p0⟩] : List (View.Piece (Elt F) S10000x1 .f32)), y ∈ pc.1.set :=
  View.cover_of_tiled [⟨ro1, p0⟩] S10000x1.size (by rfl) y

/-! ## The body's triple -/

set_option maxHeartbeats 1000000 in
/-- The body on whole staging memrefs, the inputs' holding `x0 … x3` and the output's anything, runs to the continuation
    with the inputs' unchanged and the output's at `out1_4 x0 x1 x2 x3`. -/
theorem sound_kernel1 (c : Dev nD) (E : Set ℕ) (i : grid1.Coords) (arg1 : Memref sig .tc .vmem S10000x64 .f32) (harg1 : arg1.IsWhole)
    (arg2 : Memref sig .tc .vmem S10000x64 .f32) (harg2 : arg2.IsWhole) (arg3 : Memref sig .tc .vmem S1x64 .f32) (harg3 : arg3.IsWhole)
    (arg4 : Memref sig .tc .vmem S1x1 .f32) (harg4 : arg4.IsWhole) (arg5 : Memref sig .tc .vmem S10000x1 .f32) (harg5 : arg5.IsWhole)
    (x0 : Vec F S10000x64 .f32) (x1 : Vec F S10000x64 .f32) (x2 : Vec F S1x64 .f32) (x3 : Vec F S1x1 .f32) (K : PUnit → sProp 𝕄) :
    iprop(owns (c : Thread nD τ) arg1 fullShare x0 ∗ owns (c : Thread nD τ) arg2 fullShare x1 ∗ owns (c : Thread nD τ) arg3 fullShare x2
        ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2
            ∗ owns (c : Thread nD τ) arg4 fullShare x3 ∗ owns (c : Thread nD τ) arg5 fullShare (out1_4 x0 x1 x2 x3)) -∗ K ⟨⟩))
      ⊢ wp frame (wpE (defs₀ (F := F)) Variants.none c none) E (cc1__edge_pass1_kernel i arg1 harg1 arg2 harg2 arg3 harg3 arg4 harg4 arg5 harg5) K := by
  simp only [cc1__edge_pass1_kernel_eq_skeleton]; unfold cc1__edge_pass1_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0 hf1 hf2 hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover1_4 _)

/-! ## The pipeline's proof data -/

/-- Region 1's proof data on core `c`: the arrays as the region finds them; after the body at point `t` each input's
    buffer still at its block and the output's at `out1_4` of the four input blocks; nothing owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => out1_4 (iblk1 V c 0 t) (iblk1 V c 1 t) (iblk1 V c 2 t) (iblk1 V c 3 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) :
    (dat1 V c).after 4 t = out1_4 (iblk1 V c 0 t) (iblk1 V c 1 t) (iblk1 V c 2 t) (iblk1 V c 3 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

/-- The body at any point: the inputs' memrefs hold their blocks, so the triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3]
  rw [show (dat1 V c).Φ t.succ = (dat1 V c).Φ t.castSucc from rfl,
    show (dat1 V c).owesAt () t.succ = (dat1 V c).owesAt () t.castSucc from rfl,
    after1_0, after1_1, after1_2, after1_3, after1_4]
  iintro ⟨HΦ, Ho, ⟨%d0, H0⟩, ⟨%d1, H1⟩, ⟨%d2, H2⟩, ⟨%d3, H3⟩, ⟨%d4, H4⟩⟩
  iapply (sound_kernel1 c Set.univ (grid1.coords t) _ _ _ _ _ _ _ _ _ _ (iblk1 V c 0 t) (iblk1 V c 1 t) (iblk1 V c 2 t) (iblk1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KernelIdeal.Run.lean ====
/-
  The run of the kernel program: @main is twelve items in order, host stretches and the two regions.  Between two
  items core `c` holds every unscoped buffer at a known valuation (`V0 … V12` of the generated conditional frame, which
  are the launch memory folded through the host stretches, with an unknown `outs` for what a region leaves in its
  output array).  Here `outs` is chosen: region 0 leaves in `main_v6` what its write-backs fold to, region 1 likewise
  in `main_v15`; each region is given its segment record over those valuations; and the launch theorem is called once,
  with a post that names every unscoped buffer at the end.  The frame (the nine argument arrays end as launched) is
  read off that post.
-/
import proofs.«425531_j44890998177866_3_alg».proof.Proof.Gen.KernelIdeal.Regions
import proofs.«425531_j44890998177866_3_alg».proof.Proof.KernelIdeal.Proj
import proofs.«425531_j44890998177866_3_alg».proof.Proof.KernelIdeal.Edge

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.Pipeline (Seg HostSeg RegionSeg)

variable (m : (ℓ : Loc nD τ sig) → Buf (Elt F) ℓ) (ρ : Dev nD → PrngReg)

/-! ## What the regions leave -/

/-- The buffers as region 0 finds them, read at the TensorCore's references. -/
abbrev Vr1 : (c : Dev nD) → (b : Ref sig .tc) → Buf (Elt F) ((c : Thread nD τ).loc b) := fun c b => V1 m c b

/-- The buffers as region 0 leaves them: its arrays at what the pipeline's write-backs fold to, the rest as entered. -/
def U2 (c : Dev nD) : Valuation τ sig (Elt F) :=
  Pipeline.withArrays spec0 c (V1 m c) fun w => (dat0 (Vr1 m) c).arrAt w cfg0.N

/-- The unknowns with region 0's output chosen (region 1's not yet). -/
def outsA : Outs (F := F) := fun _ r c => U2 m c r

/-- The buffers as region 1 finds them, read at the TensorCore's references. -/
abbrev Vr7 : (c : Dev nD) → (b : Ref sig .tc) → Buf (Elt F) ((c : Thread nD τ).loc b) := fun c b => V7 m (outsA m) c b

/-- The buffers as region 1 leaves them. -/
def U8 (c : Dev nD) : Valuation τ sig (Elt F) :=
  Pipeline.withArrays spec1 c (V7 m (outsA m) c) fun w => (dat1 (Vr7 m) c).arrAt w cfg1.N

/-- What the regions leave in the buffers they may change: after item 1 region 0's, after item 7 region 1's. -/
def outs : Outs (F := F) := fun J r c => if J = 2 then U2 m c r else U8 m c r

theorem outs_two (r : Ref sig .tc) (c : Dev nD) : outs m 2 r c = U2 m c r := if_pos rfl
theorem outs_eight (r : Ref sig .tc) (c : Dev nD) : outs m 8 r c = U8 m c r := if_neg (by decide)

theorem V2_outs (c : Dev nD) : V2 m (outs m) c = V2 m (outsA m) c := by
  show Function.update (V1 m c) _ (outs m 2 main_v6 c) = Function.update (V1 m c) _ (outsA m 2 main_v6 c)
  rw [outs_two]; rfl

theorem V7_outs (c : Dev nD) : V7 m (outs m) c = V7 m (outsA m) c := by
  show StableHlo.after hostOps1_4 (StableHlo.after hostOps1_3 (StableHlo.after hostOps1_2 (StableHlo.after hostOps1_1
    (StableHlo.after hostOps1 (V2 m (outs m) c))))) = StableHlo.after hostOps1_4 (StableHlo.after hostOps1_3
    (StableHlo.after hostOps1_2 (StableHlo.after hostOps1_1 (StableHlo.after hostOps1 (V2 m (outsA m) c)))))
  rw [V2_outs]

/-! ## The proof data family, and what rides beside the buffers -/

/-- Every pipeline's proof data, each at its region's entry contents. -/
def pdats : (p : Fin 2) → (c : Dev nD) → Dat τ (Elt F) Unit ℕ (UR sig nD τ) ℕ (cfgs p) c
  | ⟨0, _⟩ => fun c => dat0 (Vr1 m) c
  | ⟨1, _⟩ => fun c => dat1 (Vr7 m) c

abbrev 𝒱₀ : Variants := Variants.none
/-- No core owes another anything: no level is assigned. -/
abbrev L : GSem nD τ sig → Finset Unit := fun _ => ∅
abbrev lv : GSem nD τ sig → Unit → ℕ := fun _ _ => 0
/-- Beside the buffers through every item: the core's generator register at some state, and its dues, at nothing. -/
abbrev R (c : Dev nD) : sProp 𝕄 := iprop((∃ r, prngReg c r) ∗ ∃ W, owes (c : Thread nD τ) (0 : CellTallies nD τ sig Unit) W)
abbrev E : Fin 3 → Dev nD → sProp 𝕄 := fun _ c => R c

/-! ## Each region's exit contents are the chosen valuation -/

/-- The buffers as region 0 leaves them, read at the TensorCore's references. -/
abbrev Vr2 : (c : Dev nD) → (b : Ref sig .tc) → Buf (Elt F) ((c : Thread nD τ).loc b) := fun c b => V2 m (outs m) c b
/-- The buffers as region 1 leaves them, read at the TensorCore's references. -/
abbrev Vr8 : (c : Dev nD) → (b : Ref sig .tc) → Buf (Elt F) ((c : Thread nD τ).loc b) := fun c b => V8 m (outs m) c b

/-- Region 0's arrays at its exit: an input's array is as entered, the output's is the folded write-backs. -/
theorem hF0 (c : Dev nD) (w : Fin cfg0.W) :
    (dat0 (Vr1 m) c).arrAt w cfg0.N = Vr2 m c (Pipeline.arrRef spec0 w) := by
  show _ = V2 m (outs m) c (Proc.devRef .tc (Pipeline.arrRef spec0 w))
  rw [V2_outs]
  match w with
  | ⟨0, _⟩ => exact (((dat0 (Vr1 m) c).arrAt_in 0 rfl _).trans (A_eq0 (Vr1 m) c 0)).trans (V2_of m (outsA m) c main_arg0 (by decide)).symm
  | ⟨1, _⟩ => exact (((dat0 (Vr1 m) c).arrAt_in 1 rfl _).trans (A_eq0 (Vr1 m) c 1)).trans (V2_of m (outsA m) c main_v2 (by decide)).symm
  | ⟨2, _⟩ => exact (((dat0 (Vr1 m) c).arrAt_in 2 rfl _).trans (A_eq0 (Vr1 m) c 2)).trans (V2_of m (outsA m) c main_v5 (by decide)).symm
  | ⟨3, _⟩ =>
    show _ = Function.update (V1 m c) (Proc.devRef .tc main_v6) (outsA m 2 main_v6 c) (Proc.devRef .tc main_v6)
    rw [Function.update_self]
    unfold outsA U2
    exact (Pipeline.withArrays_arr spec0 launch0.win.arr_inj c (V1 m c) (fun w => (dat0 (Vr1 m) c).arrAt w cfg0.N) 3).symm
  | ⟨_ + 4, h⟩ => exact absurd h (Nat.not_lt.2 (Nat.le_add_left _ _))

/-- Every buffer that is no array of region 0 is, at its exit, as entered. -/
theorem hrest0 (c : Dev nD) : ∀ b, b ∉ Finset.univ.image (Pipeline.arrRef spec0) → Vr2 m c b = Vr1 m c b :=
  fun b hb => V2_of m (outs m) c b fun h =>
    hb (Finset.mem_image.mpr ⟨3, Finset.mem_univ _, (List.mem_singleton.mp h).symm⟩)

/-- Region 1's arrays at its exit. -/
theorem hF1 (c : Dev nD) (w : Fin cfg1.W) :
    (dat1 (Vr7 m) c).arrAt w cfg1.N = Vr8 m c (Pipeline.arrRef spec1 w) := by
  match w with
  | ⟨0, _⟩ =>
    exact (((dat1 (Vr7 m) c).arrAt_in 0 rfl _).trans (A_eq1 (Vr7 m) c 0)).trans
      ((V8_of m (outs m) c main_v10 (by decide)).trans (congrFun (V7_outs m c) _)).symm
  | ⟨1, _⟩ =>
    exact (((dat1 (Vr7 m) c).arrAt_in 1 rfl _).trans (A_eq1 (Vr7 m) c 1)).trans
      ((V8_of m (outs m) c main_v11 (by decide)).trans (congrFun (V7_outs m c) _)).symm
  | ⟨2, _⟩ =>
    exact (((dat1 (Vr7 m) c).arrAt_in 2 rfl _).trans (A_eq1 (Vr7 m) c 2)).trans
      ((V8_of m (outs m) c main_v13 (by decide)).trans (congrFun (V7_outs m c) _)).symm
  | ⟨3, _⟩ =>
    exact (((dat1 (Vr7 m) c).arrAt_in 3 rfl _).trans (A_eq1 (Vr7 m) c 3)).trans
      ((V8_of m (outs m) c main_v14 (by decide)).trans (congrFun (V7_outs m c) _)).symm
  | ⟨4, _⟩ =>
    show _ = Function.update (V7 m (outs m) c) (Proc.devRef .tc main_v15) (outs m 8 main_v15 c) (Proc.devRef .tc main_v15)
    rw [Function.update_self, outs_eight]
    unfold U8
    exact (Pipeline.withArrays_arr spec1 launch1.win.arr_inj c (V7 m (outsA m) c) (fun w => (dat1 (Vr7 m) c).arrAt w cfg1.N) 4).symm
  | ⟨_ + 5, h⟩ => exact absurd h (Nat.not_lt.2 (Nat.le_add_left _ _))

/-- Every buffer that is no array of region 1 is, at its exit, as entered. -/
theorem hrest1 (c : Dev nD) : ∀ b, b ∉ Finset.univ.image (Pipeline.arrRef spec1) → Vr8 m c b = Vr7 m c b :=
  fun b hb => (V8_of m (outs m) c b fun h =>
    hb (Finset.mem_image.mpr ⟨4, Finset.mem_univ _, (List.mem_singleton.mp h).symm⟩)).trans (congrFun (V7_outs m c) _)

/-! ## The regions as segments -/

-- a library lemma stated over the pinned configuration unifies with the printed one only when unification may unfold
-- plain definitions in a metavariable's type
set_option backward.isDefEq.respectTransparency.types false in
/-- Region 0 over the thread state: entered with every unscoped buffer at the valuation before it, left with them at
    the valuation after it.  Its arrays are split out of the unscoped buffers at entry and put back at exit; the
    generator register goes into the pipeline's invariant and comes out; nothing is owed; the kernel has no semaphore
    of its own. -/
def reg0 : RegionSeg (pcfgs (F := F)) adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Vr1 m) c).loose
  hwaits := Pipeline.hwaits_of_owed_zero _ _ _ _ L lv 0 fun _ _ => rfl
  pre c := iprop(StableHlo.held (c : Thread nD τ) (Pipeline.ucRefs τ sig) (V1 m c) ∗ R c)
  post c := iprop(StableHlo.held (c : Thread nD τ) (Pipeline.ucRefs τ sig) (V2 m (outs m) c) ∗ R c)
  X c := iprop(∃ r, prngReg c r)
  Y c := iprop(∃ r, prngReg c r)
  Z c := Pipeline.unscopedRest (Ix := Unit) (Name := ℕ) (U := UR sig nD τ) (Lvl := ℕ) spec0 c (Vr1 m c)
  hentry c := by
    rw [Pipeline.ownSems0_none]
    have hsplit := Pipeline.arrays_of_unscopedBufs (p := 0) (pcfgs (F := F)) adm (pdats m) launch0.win launch0.arr_whole c
      ((pdats m 0 c).share_full fun _ => rfl) (Vr1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m) ((pdats m 0 c).share_full fun _ => rfl)
      (Vr1 m c) (Vr2 m c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

-- a library lemma stated over the pinned configuration unifies with the printed one only when unification may unfold
-- plain definitions in a metavariable's type
set_option backward.isDefEq.respectTransparency.types false in
/-- Region 1 over the thread state: entered with every unscoped buffer at the valuation before it, left with them at
    the valuation after it.  Its arrays are split out of the unscoped buffers at entry and put back at exit; the
    generator register goes into the pipeline's invariant and comes out; nothing is owed; the kernel has no semaphore
    of its own. -/
def reg1 : RegionSeg (pcfgs (F := F)) adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Vr7 m) c).loose
  hwaits := Pipeline.hwaits_of_owed_zero _ _ _ _ L lv 1 fun _ _ => rfl
  pre c := iprop(StableHlo.held (c : Thread nD τ) (Pipeline.ucRefs τ sig) (V7 m (outsA m) c) ∗ R c)
  post c := iprop(StableHlo.held (c : Thread nD τ) (Pipeline.ucRefs τ sig) (V8 m (outs m) c) ∗ R c)
  X c := iprop(∃ r, prngReg c r)
  Y c := iprop(∃ r, prngReg c r)
  Z c := Pipeline.unscopedRest (Ix := Unit) (Name := ℕ) (U := UR sig nD τ) (Lvl := ℕ) spec1 c (Vr7 m c)
  hentry c := by
    rw [Pipeline.ownSems0_none]
    have hsplit := Pipeline.arrays_of_unscopedBufs (p := 1) (pcfgs (F := F)) adm (pdats m) launch1.win launch1.arr_whole c
      ((pdats m 1 c).share_full fun _ => rfl) (Vr7 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m) ((pdats m 1 c).share_full fun _ => rfl)
      (Vr7 m c) (Vr8 m c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The launch -/

theorem hE2 (c : Dev nD) : E (F := F) 2 c ⊢ (iprop(∃ W, owes (c : Thread nD τ) (0 : CellTallies nD τ sig Unit) W) : sProp 𝕄) := by
  iintro ⟨-, H⟩; iexact H

/-- The chain arrives at region 1 with the buffers at the valuation its proof data were stated at. -/
theorem hpre1 (c : Dev nD) :
    (iprop(StableHlo.held (c : Thread nD τ) (Pipeline.ucRefs τ sig) (V7 m (outs m) c) ∗ E 1 c) : sProp 𝕄) ⊢ (reg1 m).pre c := by
  rw [V7_outs]; exact .rfl

-- the launch theorem's implicit arguments are found by unifying its conclusion with this one, which takes unfolding
-- plain definitions in a metavariable's type
set_option backward.isDefEq.respectTransparency.types false in
/-- THE RUN.  From any memory with zero counters every weakly fair execution of @main on the TensorCores terminates,
    nothing faulting, and in every final memory each unscoped buffer of core `c` holds what the last valuation says:
    the launch memory folded through the host stretches, with the two regions' outputs at the folded write-backs. -/
theorem run_all : θ_run defs (onTc (τ := τ) (main (F := F))) ⟨m, fun _ => 0, ρ⟩ (fun r => ∀ c : Dev nD,
    ∀ b ∈ Pipeline.ucRefs τ sig, r.2.mem ((c : Thread nD τ).1, b) = V12 m (outs m) c b) := by
  refine Pipeline.θ_run_regions_kit_dev (pcfgs (F := F)) adm (pdats m) () cellOf_inj emb₁ defs₀ 𝒱₀ L lv m ρ main
    (segs m (outs m) 𝒱₀ L lv E () (pdats m) (reg0 m) (reg1 m))
    (fun c Q => by
      rewrite [main_chain c, Seg.run_eq_chain,
        show (segs m (outs m) 𝒱₀ L lv E () (pdats m) (reg0 m) (reg1 m) c).map Seg.prog = [
          StableHlo.seq hostOps0,
          Prog.lift (.customCall (Pipeline.entry 0) ()),
          StableHlo.seq hostOps1,
          StableHlo.seq hostOps1_1,
          StableHlo.seq hostOps1_2,
          StableHlo.seq hostOps1_3,
          StableHlo.seq hostOps1_4,
          Prog.lift (.customCall (Pipeline.entry 1) ()),
          StableHlo.seq hostOps2,
          StableHlo.seq hostOps2_1,
          StableHlo.seq hostOps2_2,
          StableHlo.seq hostOps2_3 ] from rfl]
      exact .rfl)
    (fun c => by simp only [segs, Seg.pipes_host, Seg.pipes_region, Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (V12 m (outs m) c))
    (hch := fun c => ⟨.rfl, .rfl, .rfl, .rfl, .rfl, .rfl, .rfl, hpre1 m c, .rfl, .rfl, .rfl, .rfl, sep_mono .rfl (hE2 c)⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = V12 m (outs m) c b)
    (hfin := fun c s' => by
      iintro ⟨Hh, HSI⟩
      unfold StableHlo.held
      imodintro
      iapply (pointsTo_read_all (Pipeline.ucRefs τ sig) (fun b => ((c : Thread nD τ).1, b)) (V12 m (outs m) c) s')
      isplitl [Hh] <;> iassumption)
    (hQ := fun s h c => h c)

/-- An unscoped TensorCore reference is among those the last thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- THE FRAME: the nine argument arrays end as launched — no host stretch writes one and no region may change one. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (V12_main_arg0 m (outs m) c),
     (h c _ (mem_uc main_arg1 (by decide))).trans (V12_main_arg1 m (outs m) c),
     (h c _ (mem_uc main_arg2 (by decide))).trans (V12_main_arg2 m (outs m) c),
     (h c _ (mem_uc main_arg3 (by decide))).trans (V12_main_arg3 m (outs m) c),
     (h c _ (mem_uc main_arg4 (by decide))).trans (V12_main_arg4 m (outs m) c),
     (h c _ (mem_uc main_arg5 (by decide))).trans (V12_main_arg5 m (outs m) c),
     (h c _ (mem_uc main_arg6 (by decide))).trans (V12_main_arg6 m (outs m) c),
     (h c _ (mem_uc main_arg7 (by decide))).trans (V12_main_arg7 m (outs m) c),
     (h c _ (mem_uc main_arg8 (by decide))).trans (V12_main_arg8 m (outs m) c)⟩) (run_all m ρ)

end Cert.KernelIdeal.Hand

end
-- ==== Proof.KTake.lean ====
/-
  `jnp.take` along axis 0 with the default out-of-range fill, as the kernel program's @main spells it: a negative index
  is wrapped by the axis length, the wrapped index is tested against `[0, 99999]`, the row is gathered (the gather itself
  clamps), and a row whose index failed the test is replaced by the fill word `0x7FC00000`.  Two instances: rows of a
  100000 × 64 array, and entries of a 100000 × 1 array.
-/
import proofs.«425531_j44890998177866_3_alg».proof.Proof.Gen.KernelIdeal

noncomputable section

namespace Cert.KernelIdeal.Hand

open Cert.KernelIdeal Cert.KernelIdeal.Gen
open Idealize.ShloMosaic

variable {F : FTy → Type} [FloatOps F]

/-- The index array after the wrap of negatives, as a column: `I[e] + 100000` where `I[e] < 0`, else `I[e]`. -/
def wrapCol (I : IVec S1600000 32) : IVec S1600000x1 32 :=
  broadcastInDim S1600000x1 ![0] bcast_S1600000_S1600000x1_0
    (select (cmpi .slt I (broadcastInDim S1600000 ![] bcast_S_S1600000 (constantI S_ 32 0#32)))
      (addi I (broadcastInDim S1600000 ![] bcast_S_S1600000 (constantI S_ 32 100000#32))) I)

/-- Per row, whether the wrapped index lies in `[0, 99999]`. -/
def inRange (J : IVec S1600000x1 32) : IVec S1600000 1 :=
  Host.reduce IntOp.andi
    (andi (cmpi .sge J (broadcastInDim S1600000x1 ![] bcast_S_S1600000x1 (constantI S_ 32 0#32)))
      (cmpi .sle J (broadcastInDim S1600000x1 ![0, 1] bcast_S1x1_S1600000x1_0_1
        (broadcastInDim S1x1 ![1] bcast_S1_S1x1_1 (constantI S1 32 99999#32)))))
    (constantI S_ 1 1#1) reducesTo_S1600000x1_S1600000_d1 h_S_

/-- `take` of rows of a 100000 × 64 array. -/
def takeRows (x : FVec F S100000x64 .f32) (I : IVec S1600000 32) : FVec F S1600000x64 .f32 :=
  select (broadcastInDim S1600000x64 ![0] bcast_S1600000_S1600000x64_0 (inRange (wrapCol I)))
    (Host.gather gather_S100000x64_S1600000x1_S1600000x64_1_0_n_n_0_1_164 x (wrapCol I))
    (broadcastInDim S1600000x64 ![] bcast_S_S1600000x64 (constant S_ .f32 0x7FC00000#32))

/-- `take` of entries of a 100000 × 1 array. -/
def takeCol (x : FVec F S100000x1 .f32) (I : IVec S1600000 32) : FVec F S1600000x1 .f32 :=
  select (broadcastInDim S1600000x1 ![0] bcast_S1600000_S1600000x1_0 (inRange (wrapCol I)))
    (Host.gather gather_S100000x1_S1600000x1_S1600000x1_1_0_n_n_0_1_11 x (wrapCol I))
    (broadcastInDim S1600000x1 ![] bcast_S_S1600000x1 (constant S_ .f32 0x7FC00000#32))

end Cert.KernelIdeal.Hand

end
-- ==== Proof.KHost.lean ====
/-
  The host stretches of the kernel program's @main, each read back as one function of the buffers it starts from.
  A stretch is a list of StableHLO operations; over ANY valuation `W` of the buffers before it, the buffer a stretch
  is read at afterwards holds the composition of the stretch's operations applied to `W` at the buffers the stretch
  reads.  Stated over a variable `W`, so that nothing upstream is ever evaluated.
-/
import proofs.«425531_j44890998177866_3_alg».proof.Proof.Gen.KernelIdeal.Launch
import proofs.«425531_j44890998177866_3_alg».proof.Proof.KTake
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.StableHlo
open Idealize.SL Idealize.SL.Sem

variable {F : FTy → Type} [FloatOps F]

/-! ## Contents carried to a buffer's own type and back -/

/-- Contents carried to a buffer's own type and back are the contents. -/
theorem ofBuf_toBuf {T : BufTy} (x : StableHlo.TRef sig T) (v : T.Contents (Elt F)) : x.ofBuf (x.toBuf v) = v := by
  obtain ⟨r, h, h1, h2⟩ := x; subst h; rfl

theorem toBuf_v10 (h h1 h2) (v : FVec F S1600000x64 .f32) :
    (TRef.of main_v10 h h1 h2 : StableHlo.TRef sig ⟨S1600000x64, .f32⟩).toBuf (Val := Elt F) v = (v : (main_v10 : Ref sig .tc).ty.Contents (Elt F)) := rfl
theorem toBuf_v11 (h h1 h2) (v : FVec F S1600000x64 .f32) :
    (TRef.of main_v11 h h1 h2 : StableHlo.TRef sig ⟨S1600000x64, .f32⟩).toBuf (Val := Elt F) v = (v : (main_v11 : Ref sig .tc).ty.Contents (Elt F)) := rfl
theorem toBuf_v12 (h h1 h2) (v : FVec F S1600000x64 .f32) :
    (TRef.of main_v12 h h1 h2 : StableHlo.TRef sig ⟨S1600000x64, .f32⟩).toBuf (Val := Elt F) v = (v : (main_v12 : Ref sig .tc).ty.Contents (Elt F)) := rfl
theorem toBuf_v21 (h h1 h2) (v : FVec F S1600000x1 .f32) :
    (TRef.of main_v21 h h1 h2 : StableHlo.TRef sig ⟨S1600000x1, .f32⟩).toBuf (Val := Elt F) v = (v : (main_v21 : Ref sig .tc).ty.Contents (Elt F)) := rfl
theorem toBuf_v32 (h h1 h2) (v : FVec F S100000x64 .f32) :
    (TRef.of main_v32 h h1 h2 : StableHlo.TRef sig ⟨S100000x64, .f32⟩).toBuf (Val := Elt F) v = (v : (main_v32 : Ref sig .tc).ty.Contents (Elt F)) := rfl
theorem ofBuf_v7 (h h1 h2) (v : FVec F S100000x64 .f32) :
    ((TRef.of main_v7 h h1 h2 : StableHlo.TRef sig ⟨S100000x64, .f32⟩).ofBuf (Val := Elt F) v : FVec F S100000x64 .f32) = v := rfl
theorem ofBuf_v8 (h h1 h2) (v : FVec F S100000x64 .f32) :
    ((TRef.of main_v8 h h1 h2 : StableHlo.TRef sig ⟨S100000x64, .f32⟩).ofBuf (Val := Elt F) v : FVec F S100000x64 .f32) = v := rfl
theorem ofBuf_v9 (h h1 h2) (v : FVec F S100000x64 .f32) :
    ((TRef.of main_v9 h h1 h2 : StableHlo.TRef sig ⟨S100000x64, .f32⟩).ofBuf (Val := Elt F) v : FVec F S100000x64 .f32) = v := rfl
theorem ofBuf_v20 (h h1 h2) (v : FVec F S100000x1 .f32) :
    ((TRef.of main_v20 h h1 h2 : StableHlo.TRef sig ⟨S100000x1, .f32⟩).ofBuf (Val := Elt F) v : FVec F S100000x1 .f32) = v := rfl
theorem ofBuf_arg1 (h h1 h2) (v : IVec S1600000 32) :
    ((TRef.of main_arg1 h h1 h2 : StableHlo.TRef sig ⟨S1600000, .i32⟩).ofBuf (Val := Elt F) v : IVec S1600000 32) = v := rfl
theorem ofBuf_arg2 (h h1 h2) (v : IVec S1600000 32) :
    ((TRef.of main_arg2 h h1 h2 : StableHlo.TRef sig ⟨S1600000, .i32⟩).ofBuf (Val := Elt F) v : IVec S1600000 32) = v := rfl
theorem ofBuf_v29 (h h1 h2) (v : IVec S100000x64 1) :
    ((TRef.of main_v29 h h1 h2 : StableHlo.TRef sig ⟨S100000x64, .i1⟩).ofBuf (Val := Elt F) v : IVec S100000x64 1) = v := rfl
theorem ofBuf_v27 (h h1 h2) (v : FVec F S100000x64 .f32) :
    ((TRef.of main_v27 h h1 h2 : StableHlo.TRef sig ⟨S100000x64, .f32⟩).ofBuf (Val := Elt F) v : FVec F S100000x64 .f32) = v := rfl
theorem ofBuf_v31 (h h1 h2) (v : FVec F S100000x64 .f32) :
    ((TRef.of main_v31 h h1 h2 : StableHlo.TRef sig ⟨S100000x64, .f32⟩).ofBuf (Val := Elt F) v : FVec F S100000x64 .f32) = v := rfl

/-! ## The stretches -/

variable (W : Valuation τ sig (Elt F))

/-- Before region 0: the three weight blocks side by side. -/
def wcat (Win : FVec F S128x64 .f32) (Wout : FVec F S64x64 .f32) : FVec F S64x192 .f32 :=
  concatenate S64x192 1 [⟨S64x64, extractStridedSlice S64x64 ![0, 0] Win slices_S128x64_S64x64_0_0⟩,
    ⟨S64x64, extractStridedSlice S64x64 ![64, 0] Win slices_S128x64_S64x64_64_0⟩, ⟨S64x64, Wout⟩]
    concatenates_S64x64_S64x64_S64x64_S64x192_d1

/-- Before region 0: the three bias segments end to end (the middle one zero). -/
def bcat (bin bout : FVec F S64 .f32) : FVec F S192 .f32 :=
  concatenate S192 0 [⟨S64, bin⟩, ⟨S64, broadcastInDim S64 ![] bcast_S_S64 (constant S_ .f32 0x00000000#32)⟩, ⟨S64, bout⟩]
    concatenates_S64_S64_S64_S192_d0

set_option maxHeartbeats 4000000 in
theorem s0_v2 : (StableHlo.after hostOps0 W (Proc.devRef .tc main_v2) : FVec F S64x192 .f32) = wcat (W main_arg3) (W main_arg7) := by
  after_results_simp
  rfl

set_option maxHeartbeats 4000000 in
theorem s0_v4 : (StableHlo.after hostOps0 W (Proc.devRef .tc main_v4) : FVec F S192 .f32) = bcat (W main_arg4) (W main_arg8) := by
  after_results_simp
  rfl

/-- Before region 0: the bias row. -/
def biasRow (bin bout : FVec F S64 .f32) : FVec F S1x192 .f32 :=
  shapeCast S1x192 (bcat bin bout) shapeCasts_S192_S1x192

set_option maxHeartbeats 4000000 in
theorem s0_v5 : (StableHlo.after hostOps0 W (Proc.devRef .tc main_v5) : FVec F S1x192 .f32) = biasRow (W main_arg4) (W main_arg8) := by
  after_results_simp
  rfl

/-- After region 0: the three column blocks of the projection. -/
theorem s1_v7 : (StableHlo.after hostOps1 W (Proc.devRef .tc main_v7) : FVec F S100000x64 .f32)
    = extractStridedSlice S100000x64 ![0, 0] (W main_v6) slices_S100000x192_S100000x64_0_0 := by
  after_results_simp
theorem s1_v8 : (StableHlo.after hostOps1 W (Proc.devRef .tc main_v8) : FVec F S100000x64 .f32)
    = extractStridedSlice S100000x64 ![0, 64] (W main_v6) slices_S100000x192_S100000x64_0_64 := by
  after_results_simp
theorem s1_v9 : (StableHlo.after hostOps1 W (Proc.devRef .tc main_v9) : FVec F S100000x64 .f32)
    = extractStridedSlice S100000x64 ![0, 128] (W main_v6) slices_S100000x192_S100000x64_0_128 := by
  after_results_simp

set_option maxHeartbeats 8000000 in
/-- The source-side rows: the first column block taken at the source indices. -/
theorem s11_v10 : (StableHlo.after hostOps1_1 W (Proc.devRef .tc main_v10) : FVec F S1600000x64 .f32)
    = takeRows (W main_v7) (W main_arg1) := by
  after_results_simp
  simp only [ofBuf_toBuf, toBuf_v10, ofBuf_v7, ofBuf_arg1]
  rfl

set_option maxHeartbeats 8000000 in
/-- The target-side rows for the logits: the second column block taken at the target indices. -/
theorem s12_v11 : (StableHlo.after hostOps1_2 W (Proc.devRef .tc main_v11) : FVec F S1600000x64 .f32)
    = takeRows (W main_v8) (W main_arg2) := by
  after_results_simp
  simp only [ofBuf_toBuf, toBuf_v11, ofBuf_v8, ofBuf_arg2]
  rfl

set_option maxHeartbeats 8000000 in
/-- The target-side rows for the aggregation: the third column block taken at the target indices. -/
theorem s13_v12 : (StableHlo.after hostOps1_3 W (Proc.devRef .tc main_v12) : FVec F S1600000x64 .f32)
    = takeRows (W main_v9) (W main_arg2) := by
  after_results_simp
  simp only [ofBuf_toBuf, toBuf_v12, ofBuf_v9, ofBuf_arg2]
  rfl

/-- The attention vector as a row, the attention bias as a 1 × 1 block. -/
theorem s14_v13 : (StableHlo.after hostOps1_4 W (Proc.devRef .tc main_v13) : FVec F S1x64 .f32)
    = shapeCast S1x64 (W main_arg5) shapeCasts_S64x1_S1x64 := by
  after_results_simp
  rfl
theorem s14_v14 : (StableHlo.after hostOps1_4 W (Proc.devRef .tc main_v14) : FVec F S1x1 .f32)
    = shapeCast S1x1 (W main_arg6) shapeCasts_S1_S1x1 := by
  after_results_simp
  rfl

/-- The softmax denominators: the per-edge weights summed into their target nodes, plus the literal `0x358637BD`. -/
def denomArr (tgt : IVec S1600000 32) (ex : FVec F S1600000x1 .f32) : FVec F S100000x1 .f32 :=
  addf (Host.scatterAdd scatter_S100000x1_S1600000x1_S1600000x1_1_0_0_1
      (broadcastInDim S100000x1 ![] bcast_S_S100000x1 (constant S_ .f32 0x00000000#32))
      (broadcastInDim S1600000x1 ![0] bcast_S1600000_S1600000x1_0 tgt) ex)
    (broadcastInDim S100000x1 ![] bcast_S_S100000x1 (constant S_ .f32 0x358637BD#32))

theorem s2_v20 : (StableHlo.after hostOps2 W (Proc.devRef .tc main_v20) : FVec F S100000x1 .f32)
    = denomArr (W main_arg2) (W main_v15) := by
  after_results_simp
  rfl

set_option maxHeartbeats 8000000 in
/-- Each edge's denominator: the denominators taken at the target indices. -/
theorem s21_v21 : (StableHlo.after hostOps2_1 W (Proc.devRef .tc main_v21) : FVec F S1600000x1 .f32)
    = takeCol (W main_v20) (W main_arg2) := by
  after_results_simp
  simp only [ofBuf_toBuf, toBuf_v21, ofBuf_v20, ofBuf_arg2]
  rfl

/-- The aggregation: each edge's normalized weight times its target-side row, summed into the target nodes. -/
def aggArr (tgt : IVec S1600000 32) (ex den : FVec F S1600000x1 .f32) (g : FVec F S1600000x64 .f32) : FVec F S100000x64 .f32 :=
  Host.scatterAdd scatter_S100000x64_S1600000x1_S1600000x64_1_0_0_1
    (broadcastInDim S100000x64 ![] bcast_S_S100000x64 (constant S_ .f32 0x00000000#32))
    (broadcastInDim S1600000x1 ![0] bcast_S1600000_S1600000x1_0 tgt)
    (mulf (broadcastInDim S1600000x64 ![0, 1] bcast_S1600000x1_S1600000x64_0_1 (Host.divf ex den)) g)

/-- The leaky rectifier on a node array. -/
def leakyArr (s : FVec F S100000x64 .f32) : FVec F S100000x64 .f32 :=
  select (cmpf .oge s (broadcastInDim S100000x64 ![] bcast_S_S100000x64 (constant S_ .f32 0x00000000#32))) s
    (mulf (broadcastInDim S100000x64 ![] bcast_S_S100000x64 (constant S_ .f32 0x3C23D70A#32)) s)

theorem s22_v27 : (StableHlo.after hostOps2_2 W (Proc.devRef .tc main_v27) : FVec F S100000x64 .f32)
    = aggArr (W main_arg2) (W main_v15) (W main_v21) (W main_v12) := by
  after_results_simp
  rfl
theorem s22_v29 : (StableHlo.after hostOps2_2 W (Proc.devRef .tc main_v29) : IVec S100000x64 1)
    = cmpf .oge (aggArr (W main_arg2) (W main_v15) (W main_v21) (W main_v12))
        (broadcastInDim S100000x64 ![] bcast_S_S100000x64 (constant S_ .f32 0x00000000#32)) := by
  after_results_simp
  rfl
theorem s22_v31 : (StableHlo.after hostOps2_2 W (Proc.devRef .tc main_v31) : FVec F S100000x64 .f32)
    = mulf (broadcastInDim S100000x64 ![] bcast_S_S100000x64 (constant S_ .f32 0x3C23D70A#32))
        (aggArr (W main_arg2) (W main_v15) (W main_v21) (W main_v12)) := by
  after_results_simp
  rfl

/-- The result: the rectifier's select. -/
theorem s23_v32 : (StableHlo.after hostOps2_3 W (Proc.devRef .tc main_v32) : FVec F S100000x64 .f32)
    = select (W main_v29) (W main_v27) (W main_v31) := by
  after_results_simp
  simp only [ofBuf_toBuf, toBuf_v32, ofBuf_v29, ofBuf_v27, ofBuf_v31]

end Cert.KernelIdeal.Hand

end
-- ==== Proof.Spec.lean ====
/-
  The two kernels' results as plain index-by-index functions on the extended reals.

  * `proj x w b`: the node projection, row `p` column `q` being `Σ_k x[p,k] · w[k,q] + b[0,q]`.
  * `leaky z`: `z` where `z ≥ 0`, else the literal `0x3C23D70A` (the single-precision word nearest 1/100) times `z`.
  * `edge a b w β`: the per-edge attention weight, row `e` being `exp (Σ_j leaky (a[e,j] + b[e,j]) · w[0,j] + β[0,0])`.
-/
import Idealize.ShloMosaic.PureOps.Ideal
import Idealize.ShloMosaic.Lib.ValueIdx

noncomputable section

namespace Cert.Spec

open Idealize.ShloMosaic Idealize.ShloMosaic.ValueIdx

/-- Row `p`, column `q` of `x · w + b`, the bias `b` a single row. -/
def projAt (x : FVec Ideal ⟨2, ![100000, 64]⟩ .f32) (w : FVec Ideal ⟨2, ![64, 192]⟩ .f32) (b : FVec Ideal ⟨2, ![1, 192]⟩ .f32)
    (p : Fin 100000) (q : Fin 192) : EReal :=
  (∑ k : Fin 64, x (ix2 p k) * w (ix2 k q)) + b (ix2 0 q)

/-- The node projection `x · w + b` as a whole array. -/
def proj (x : FVec Ideal ⟨2, ![100000, 64]⟩ .f32) (w : FVec Ideal ⟨2, ![64, 192]⟩ .f32) (b : FVec Ideal ⟨2, ![1, 192]⟩ .f32) :
    FVec Ideal ⟨2, ![100000, 192]⟩ .f32 :=
  fun i => projAt x w b (i 0) (i 1)

/-- The leaky rectifier with the slope literal both programs carry. -/
def leaky (z : EReal) : EReal :=
  Scalar.select (Ideal.cmp .oge z (Ideal.ofBits .f32 0x00000000#32)) z (Ideal.ofBits .f32 0x3C23D70A#32 * z)

/-- Row `e` of the per-edge attention weight. -/
def edgeAt (a b : FVec Ideal ⟨2, ![1600000, 64]⟩ .f32) (w : FVec Ideal ⟨2, ![1, 64]⟩ .f32) (β : FVec Ideal ⟨2, ![1, 1]⟩ .f32)
    (e : Fin 1600000) : EReal :=
  Ideal.exp ((∑ j : Fin 64, leaky (a (ix2 e j) + b (ix2 e j)) * w (ix2 0 j)) + β (ix2 0 0))

/-- The per-edge attention weight as a whole (one-column) array. -/
def edge (a b : FVec Ideal ⟨2, ![1600000, 64]⟩ .f32) (w : FVec Ideal ⟨2, ![1, 64]⟩ .f32) (β : FVec Ideal ⟨2, ![1, 1]⟩ .f32) :
    FVec Ideal ⟨2, ![1600000, 1]⟩ .f32 :=
  fun i => edgeAt a b w β (i 0)

/-- Every entry of the index array names a row: `0 ≤ I[e] < 100000` as a signed integer. -/
def InRows (I : IVec ⟨1, ![1600000]⟩ 32) : Prop :=
  ∀ e : Fin 1600000, 0 ≤ (I (ix1 e)).toInt ∧ (I (ix1 e)).toInt < 100000

/-- The row entry `e` of an in-range index array names. -/
def rowOf (I : IVec ⟨1, ![1600000]⟩ 32) (hI : InRows I) (e : Fin 1600000) : Fin 100000 :=
  ⟨(I (ix1 e)).toInt.toNat, by have := hI e; omega⟩

/-- Row `k` of the upper half of the 128-row input weight. -/
def top (k : Fin 64) : Fin 128 := ⟨k.val, by omega⟩
/-- Row `k` of its lower half. -/
def bot (k : Fin 64) : Fin 128 := ⟨64 + k.val, by omega⟩

/-- Source side of the pre-activation, node `r`, feature `j`: `Σ_k x[r,k] · W_in[k,j] + b_in[j]`. -/
def whSrc (x : FVec Ideal ⟨2, ![100000, 64]⟩ .f32) (Win : FVec Ideal ⟨2, ![128, 64]⟩ .f32) (bin : FVec Ideal ⟨1, ![64]⟩ .f32)
    (r : Fin 100000) (j : Fin 64) : EReal :=
  (∑ k : Fin 64, x (ix2 r k) * Win (ix2 (top k) j)) + bin (ix1 j)

/-- Target side of the pre-activation, node `r`, feature `j`: `Σ_k x[r,k] · W_in[64+k,j]`, plus the zero word the
    kernel program's bias row carries there. -/
def whTgt (x : FVec Ideal ⟨2, ![100000, 64]⟩ .f32) (Win : FVec Ideal ⟨2, ![128, 64]⟩ .f32) (r : Fin 100000) (j : Fin 64) : EReal :=
  (∑ k : Fin 64, x (ix2 r k) * Win (ix2 (bot k) j)) + Ideal.ofBits .f32 0x00000000#32

/-- The aggregated message of node `r`, feature `j`: `Σ_k x[r,k] · W_out[k,j] + b_out[j]`. -/
def msg (x : FVec Ideal ⟨2, ![100000, 64]⟩ .f32) (Wout : FVec Ideal ⟨2, ![64, 64]⟩ .f32) (bout : FVec Ideal ⟨1, ![64]⟩ .f32)
    (r : Fin 100000) (j : Fin 64) : EReal :=
  (∑ k : Fin 64, x (ix2 r k) * Wout (ix2 k j)) + bout (ix1 j)

end Cert.Spec

end
-- ==== Proof.ProjValue.lean ====
/-
  What region 0 leaves in its output array, at the ideal instance: the ten row blocks the grid points write back tile
  the array, and each is the matching rows of `x · w + b`.

  * The body's one payload at an entry (p, q) of its block: the product of the two loaded blocks into the zero
    accumulator is the sum over the contracted coordinate, the format changes and same-shape casts are the identity,
    and the broadcast bias row contributes its entry in column q.
  * The blocks: point t's block of `x` is rows 10000 t … 10000 t + 9999, the weights' and the bias's blocks are their
    whole arrays, and the output's block sits at the same rows as `x`'s.
  * So what point t writes back is block t of `x · w + b`; row r is covered by point r / 10000; hence the whole array.
-/
import proofs.«425531_j44890998177866_3_alg».proof.Proof.KernelIdeal.Proj
import proofs.«425531_j44890998177866_3_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The payload at an entry -/

/-- The zero offsets, however spelt. -/
theorem proj_hz : (![0, 0] : Fin 2 → Nat) = fun _ => 0 := funext fun a => by fin_cases a <;> rfl

/-- The left operand of the product is read at the output's row … -/
theorem lhs_proj_0 (i : S10000x192.Idx) (q : dot_S10000x64_S64x192_S10000x192_1_0_0_1_n_n.contr.Idx) :
    (dot_S10000x64_S64x192_S10000x192_1_0_0_1_n_n.lhsIdx i q 0).val = (i 0).val := by
  unfold DotDims.lhsIdx
  rw [dif_neg (show ¬(0 : Fin S10000x64.rank) ∈ dot_S10000x64_S64x192_S10000x192_1_0_0_1_n_n.lhsBatch by decide), dif_pos (show (0 : Fin S10000x64.rank) ∈ dot_S10000x64_S64x192_S10000x192_1_0_0_1_n_n.lhsNonContracting by decide)]
  rfl
/-- … and at the contracted coordinate; -/
theorem lhs_proj_1 (i : S10000x192.Idx) (q : dot_S10000x64_S64x192_S10000x192_1_0_0_1_n_n.contr.Idx) :
    (dot_S10000x64_S64x192_S10000x192_1_0_0_1_n_n.lhsIdx i q 1).val = (q ⟨0, by decide⟩).val :=
  dot_S10000x64_S64x192_S10000x192_1_0_0_1_n_n.lhsIdx_val_of_single rfl i q
/-- the right operand at the contracted coordinate … -/
theorem rhs_proj_0 (i : S10000x192.Idx) (q : dot_S10000x64_S64x192_S10000x192_1_0_0_1_n_n.contr.Idx) :
    (dot_S10000x64_S64x192_S10000x192_1_0_0_1_n_n.rhsIdx i q 0).val = (q ⟨0, by decide⟩).val :=
  dot_S10000x64_S64x192_S10000x192_1_0_0_1_n_n.rhsIdx_val_of_single rfl i q
/-- … and at the output's column. -/
theorem rhs_proj_1 (i : S10000x192.Idx) (q : dot_S10000x64_S64x192_S10000x192_1_0_0_1_n_n.contr.Idx) :
    (dot_S10000x64_S64x192_S10000x192_1_0_0_1_n_n.rhsIdx i q 1).val = (i 1).val := by
  unfold DotDims.rhsIdx
  rw [dif_neg (show ¬(1 : Fin S64x192.rank) ∈ dot_S10000x64_S64x192_S10000x192_1_0_0_1_n_n.rhsBatch by decide), dif_pos (show (1 : Fin S64x192.rank) ∈ dot_S10000x64_S64x192_S10000x192_1_0_0_1_n_n.rhsNonContracting by decide)]
  rfl

/-- The product of a 10000 × 64 block by a 64 × 192 block into the zero accumulator, at the entry (p, q): the sum over
    the contracted coordinate k of A(p, k) · B(k, q). -/
theorem proj_matmul_apply {φ₁ φ₂ : FTy} (A : FVec Ideal S10000x64 φ₁) (B : FVec Ideal S64x192 φ₂) (p : Fin 10000) (q : Fin 192) :
    matmul (F := Ideal) dot_S10000x64_S64x192_S10000x192_1_0_0_1_n_n none A B (constant S10000x192 .f32 0x00000000#32) (ix2 p q)
      = ∑ k : Fin 64, A (ix2 p k) * B (ix2 k q) := by
  show FloatOps.matmul _ none A B _ (ix2 p q) = _
  rw [Ideal.matmul_constant_zero_apply, ← Equiv.sum_comp (contrEquiv1 dot_S10000x64_S64x192_S10000x192_1_0_0_1_n_n 64 rfl rfl).symm]
  refine Finset.sum_congr rfl fun k _ => ?_
  have hk := contrEquiv1_symm_val dot_S10000x64_S64x192_S10000x192_1_0_0_1_n_n 64 rfl rfl k
  have el : dot_S10000x64_S64x192_S10000x192_1_0_0_1_n_n.lhsIdx (ix2 p q) ((contrEquiv1 dot_S10000x64_S64x192_S10000x192_1_0_0_1_n_n 64 rfl rfl).symm k) = ix2 p k := funext fun a => Fin.ext (by
    match a with
    | ⟨0, _⟩ => exact lhs_proj_0 _ _
    | ⟨1, _⟩ => exact (lhs_proj_1 _ _).trans hk)
  have er : dot_S10000x64_S64x192_S10000x192_1_0_0_1_n_n.rhsIdx (ix2 p q) ((contrEquiv1 dot_S10000x64_S64x192_S10000x192_1_0_0_1_n_n 64 rfl rfl).symm k) = ix2 k q := funext fun a => Fin.ext (by
    match a with
    | ⟨0, _⟩ => exact (rhs_proj_0 _ _).trans hk
    | ⟨1, _⟩ => exact rhs_proj_1 _ _)
  rw [el, er]

/-- The bias row broadcast down the 10000 rows, at the entry (p, q): the row's entry in column q. -/
theorem proj_bias_apply (b : FVec Ideal S1x192 .f32) (p : Fin 10000) (q : Fin 192) :
    broadcastTo S10000x192 b broadcasts_S1x192_S10000x192 (ix2 p q) = b (ix2 0 q) := by
  refine broadcastTo_apply b broadcasts_S1x192_S10000x192 (ix2 p q) (ix2 0 q) fun a => ?_
  match a with
  | ⟨0, _⟩ => rfl
  | ⟨1, _⟩ => rfl

/-- WHAT THE BODY LEAVES in the output block, at the entry (p, q): row p of the first block times column q of the
    second, plus the bias row's entry in column q. -/
theorem out0_3_apply (x0 : FVec Ideal S10000x64 .f32) (x1 : FVec Ideal S64x192 .f32) (x2 : FVec Ideal S1x192 .f32)
    (p : Fin 10000) (q : Fin 192) :
    out0_3 (F := Ideal) x0 x1 x2 (ix2 p q) = (∑ k : Fin 64, x0 (ix2 p k) * x1 (ix2 k q)) + x2 (ix2 0 q) := by
  unfold out0_3
  rw [View.canon_unit_zero proj_hz]
  simp only [View.ld_unit_zero (S := S10000x64) proj_hz, View.ld_unit_zero (S := S64x192) proj_hz, View.ld_unit_zero (S := S1x192) proj_hz]
  unfold k0_pay1
  rw [addf_apply, proj_matmul_apply, proj_bias_apply]
  simp only [shapeCast_self, truncf_apply]

/-! ## The blocks -/

variable (V : (c : Dev nD) → (b : Ref sig .tc) → Buf (Elt Ideal) ((c : Thread nD τ).loc b))

/-- The printed index maps, decided once over the grid: `x`'s block and the output's block move down the rows with the
    point, one block per point; the weights' and the bias's blocks never move. -/
theorem proj_idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- Point `t`'s block of `x` is rows `10000 t … 10000 t + 9999` of the array. -/
theorem proj_xblk_apply (c : Dev nD) (t : Fin cfg0.N) (y : S10000x64.Idx) (k : S100000x64.Idx)
    (hk0 : (k 0).val = 10000 * t.val + (y 0).val) (hk1 : (k 1).val = (y 1).val) :
    (iblk0 V c 0 t : FVec Ideal S10000x64 .f32) y = (V c main_arg0 : S100000x64.Idx → EReal) k := by
  obtain ⟨e0, e1, -⟩ := proj_idx_facts t
  unfold iblk0
  rw [View.read_apply]
  show V c main_arg0 (((cfg0.win 0).blk t).view.emb y) = V c main_arg0 k
  refine congrArg (V c main_arg0) (funext fun a => Fin.ext ?_)
  match a with
  | ⟨0, _⟩ => show win0_0.index t (0 : Fin 2) * 10000 + 1 * (y 0).val = (k 0).val; rw [e0, hk0]; omega
  | ⟨1, _⟩ => show win0_0.index t (1 : Fin 2) * 64 + 1 * (y 1).val = (k 1).val; rw [e1, hk1]; omega

/-- The weights' block at any point is the whole array. -/
theorem proj_wblk_eq (c : Dev nD) (t : Fin cfg0.N) :
    (iblk0 V c 1 t : FVec Ideal S64x192 .f32) = (V c main_v2 : S64x192.Idx → EReal) := by
  obtain ⟨-, -, e0, e1, -⟩ := proj_idx_facts t
  funext y
  unfold iblk0
  rw [View.read_apply]
  show V c main_v2 (((cfg0.win 1).blk t).view.emb y) = V c main_v2 y
  refine congrArg (V c main_v2) (funext fun a => Fin.ext ?_)
  match a with
  | ⟨0, _⟩ => show win0_1.index t (0 : Fin 2) * 64 + 1 * (y 0).val = (y 0).val; rw [e0]; omega
  | ⟨1, _⟩ => show win0_1.index t (1 : Fin 2) * 192 + 1 * (y 1).val = (y 1).val; rw [e1]; omega

/-- The bias's block at any point is the whole row. -/
theorem proj_bblk_eq (c : Dev nD) (t : Fin cfg0.N) :
    (iblk0 V c 2 t : FVec Ideal S1x192 .f32) = (V c main_v5 : S1x192.Idx → EReal) := by
  obtain ⟨-, -, -, -, e0, e1, -⟩ := proj_idx_facts t
  funext y
  unfold iblk0
  rw [View.read_apply]
  show V c main_v5 (((cfg0.win 2).blk t).view.emb y) = V c main_v5 y
  refine congrArg (V c main_v5) (funext fun a => Fin.ext ?_)
  match a with
  | ⟨0, _⟩ => show win0_2.index t (0 : Fin 2) * 1 + 1 * (y 0).val = (y 0).val; rw [e0]; omega
  | ⟨1, _⟩ => show win0_2.index t (1 : Fin 2) * 192 + 1 * (y 1).val = (y 1).val; rw [e1]; omega

/-! ## What a point writes back -/

/-- Over blocks and arrays of the literal types: if the first block is rows `10000 n …` of `X`, the other two are `W` and
    `B`, and the entry `i` of the array is the entry `j` of the block moved down `10000 n` rows, then what the body leaves at
    `j` is the node projection of `X`, `W`, `B` at `i`. -/
theorem blk_proj_eq (x0 : FVec Ideal S10000x64 .f32) (x1 : FVec Ideal S64x192 .f32) (x2 : FVec Ideal S1x192 .f32)
    (X : FVec Ideal S100000x64 .f32) (W : FVec Ideal S64x192 .f32) (B : FVec Ideal S1x192 .f32) (n : Nat)
    (h0 : ∀ (y : S10000x64.Idx) (k : S100000x64.Idx), (k 0).val = 10000 * n + (y 0).val → (k 1).val = (y 1).val → x0 y = X k)
    (h1 : x1 = W) (h2 : x2 = B) (j : S10000x192.Idx) (i : S100000x192.Idx)
    (hi0 : (i 0).val = 10000 * n + (j 0).val) (hi1 : (i 1).val = (j 1).val) :
    out0_3 (F := Ideal) x0 x1 x2 j = Cert.Spec.proj X W B i := by
  obtain ⟨p, q, rfl⟩ : ∃ (p : Fin 10000) (q : Fin 192), j = ix2 p q := ⟨j 0, j 1, eq_ix2 j⟩
  rw [out0_3_apply, h1, h2]
  unfold Cert.Spec.proj Cert.Spec.projAt
  have hq : i 1 = q := Fin.ext hi1
  rw [hq]
  refine congrArg (· + B (ix2 0 q)) (Finset.sum_congr rfl fun k _ => ?_)
  rw [h0 (ix2 p k) (ix2 (i 0) k) hi0 rfl]

/-- WHAT POINT `t` WRITES BACK is block `t` of the node projection of the three arrays as the region finds them. -/
theorem proj_flushed_eq (c : Dev nD) (t : Fin cfg0.N) :
    (dat0 (F := Ideal) V c).flushed 3 t
      = ((cfg0.win 3).blk t).view.read (Elt Ideal) (Cert.Spec.proj (V c main_arg0) (V c main_v2) (V c main_v5)) := by
  show (cfg0.win 3).cut (grid0.coords t) ((dat0 (F := Ideal) V c).after 3 t) = _
  rw [after0_3]
  obtain ⟨-, -, -, -, -, -, e0, e1⟩ := proj_idx_facts t
  funext j
  show out0_3 (F := Ideal) (iblk0 V c 0 t) (iblk0 V c 1 t) (iblk0 V c 2 t) j
    = Cert.Spec.proj (V c main_arg0) (V c main_v2) (V c main_v5) (((cfg0.win 3).blk t).view.emb j)
  refine blk_proj_eq (iblk0 V c 0 t) (iblk0 V c 1 t) (iblk0 V c 2 t) (V c main_arg0) (V c main_v2) (V c main_v5) t.val
    (fun y k hk0 hk1 => proj_xblk_apply V c t y k hk0 hk1) (proj_wblk_eq V c t) (proj_bblk_eq V c t) j (((cfg0.win 3).blk t).view.emb j) ?_ ?_
  · show win0_3.index t (0 : Fin 2) * 10000 + 1 * (j 0).val = 10000 * t.val + (j 0).val
    rw [e0]; omega
  · show win0_3.index t (1 : Fin 2) * 192 + 1 * (j 1).val = (j 1).val
    rw [e1]; omega

/-! ## The ten blocks tile the array -/

/-- An entry of the array is in point `t`'s block iff each coordinate is in the block's range on its axis. -/
theorem proj_mem_blk (t : Fin cfg0.N) (i : S100000x192.Idx) :
    i ∈ ((cfg0.win 3).blk t).view.set ↔ ∀ a : Fin 2, win0_3.index t a * S10000x192.size a ≤ (i a).val ∧ (i a).val < win0_3.index t a * S10000x192.size a + S10000x192.size a := by
  show i ∈ ((View.whole main_v6).slice (win0_3.rect t)).set ↔ _
  rw [View.set_slice_whole, Rect.mem_set_unit]
  exact Iff.rfl

/-- Row `r` is in the block of point `r / 10000`, which writes its block back. -/
theorem proj_cover (i : S100000x192.Idx) :
    ∃ t : Fin cfg0.N, (cfg0.win 3).flush t = true ∧ i ∈ ((cfg0.win 3).blk t).view.set := by
  have hi0 : (i 0).val < 100000 := (i 0).isLt
  have hi1 : (i 1).val < 192 := (i 1).isLt
  have hN : grid0.N = 10 := N_0
  let t : Fin cfg0.N := ⟨(i 0).val / 10000, by show (i 0).val / 10000 < grid0.N; rw [hN]; omega⟩
  have ht : t.val = (i 0).val / 10000 := rfl
  obtain ⟨-, -, -, -, -, -, e0, e1⟩ := proj_idx_facts t
  refine ⟨t, flush0_3 t, ?_⟩
  rw [proj_mem_blk]
  intro a
  match a with
  | ⟨0, _⟩ => show win0_3.index t (0 : Fin 2) * 10000 ≤ (i 0).val ∧ (i 0).val < win0_3.index t (0 : Fin 2) * 10000 + 10000; rw [e0, ht]; omega
  | ⟨1, _⟩ => show win0_3.index t (1 : Fin 2) * 192 ≤ (i 1).val ∧ (i 1).val < win0_3.index t (1 : Fin 2) * 192 + 192; rw [e1]; omega

/-! ## The array -/

/-- After region 0 its output array is the node projection of the three arrays it was entered with. -/
theorem proj_value (c : Dev nD) :
    ((dat0 (F := Ideal) V c).arrAt 3 cfg0.N : S100000x192.Idx → EReal)
      = Cert.Spec.proj (V c main_arg0) (V c main_v2) (V c main_v5) :=
  (dat0 (F := Ideal) V c).arrAt_eq_of_cover 3 (Cert.Spec.proj (V c main_arg0) (V c main_v2) (V c main_v5))
    (fun t _ => proj_flushed_eq V c t) proj_cover

end Cert.KernelIdeal.Hand

end
-- ==== Proof.EdgeValue.lean ====
/-
  What region 1 leaves in its output array, at the ideal instance: the 160 row blocks the grid points write back tile
  the array, and each is the matching rows of the per-edge attention weight.

  * The body's payload at a row: the same-shape casts are identities, the lane sum over the 64 columns is a `Fin 64`-indexed
    sum, the one-column cast reads the sum at its row, the broadcast attention row and bias read their one row, so row `p`
    of the stored block is `exp (Σ_j leaky (x0[p,j] + x1[p,j]) · x2[0,j] + x3[0,0])`.
  * The blocks: at point `t` the two gathered arrays' blocks are rows `10000 t … 10000 t + 9999`, the attention row's and
    bias's blocks are the whole arrays, and the output block is the same rows of the result.
  * The cover: row `r` of the result lies in the block of point `r / 10000`.
-/
import proofs.«425531_j44890998177866_3_alg».proof.Proof.KernelIdeal.Edge
import proofs.«425531_j44890998177866_3_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL Idealize.SL.Sem
open Idealize.ShloMosaic.Pipeline (Dat)

/-! ## The body's payload at a row -/

/-- A vector cast to a one-column matrix reads, at row `i`, the vector at `i`. -/
theorem edge_shapeCast_col_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- Row `p` of the body's payload: the exponential of the lane sum of the rectified sums against the attention row, plus
    the bias. -/
theorem pay1_apply (x0 x1 : Vec Ideal S10000x64 .f32) (x2 : Vec Ideal S1x64 .f32) (x3 : Vec Ideal S1x1 .f32) (p : Fin 10000) :
    k1_pay1 (F := Ideal) x0 x1 x2 x3 (ix2 p 0)
      = Ideal.exp ((∑ j : Fin 64, Cert.Spec.leaky (x0 (ix2 p j) + x1 (ix2 p j)) * x2 (ix2 0 j)) + x3 (ix2 0 0)) := by
  unfold k1_pay1
  dsimp only
  simp only [shapeCast_self]
  refine congrArg Ideal.exp ?_
  refine (addf_apply _ _ _).trans ?_
  refine congrArg₂ (· + ·) ?_ ?_
  · refine (edge_shapeCast_col_apply _ shapeCasts_S10000_S10000x1 p 0).trans ?_
    refine (Ideal.multiReduction_add_single _ _ reduces_S10000x64_S10000 _ _ (ix1 p)).trans ?_
    show ∑ k : Fin 64, _ = _
    refine Finset.sum_congr rfl fun j _ => ?_
    have hl : reduces_S10000x64_S10000.lift (ix1 p) j = ix2 p j := by
      funext a; apply Fin.ext
      match a with
      | ⟨0, _⟩ => rfl
      | ⟨1, _⟩ => rfl
    rw [hl]
    refine (mulf_apply _ _ _).trans ?_
    refine congrArg₂ (· * ·) ?_ (broadcastTo_1b_ab_apply x2 broadcasts_S1x64_S10000x64 p j)
    rfl
  · exact broadcastTo_1b_ab_apply x3 broadcasts_S1x1_S10000x1 p 0

/-- The zero offsets, however spelt. -/
theorem edge_hz : (![0, 0] : Fin 2 → Nat) = fun _ => 0 := funext fun a => by fin_cases a <;> rfl

/-- Row `p` of what the body leaves in the output block, from the four input blocks. -/
theorem out1_4_apply (x0 x1 : Vec Ideal S10000x64 .f32) (x2 : Vec Ideal S1x64 .f32) (x3 : Vec Ideal S1x1 .f32) (p : Fin 10000) :
    out1_4 (F := Ideal) x0 x1 x2 x3 (ix2 p 0)
      = Ideal.exp ((∑ j : Fin 64, Cert.Spec.leaky (x0 (ix2 p j) + x1 (ix2 p j)) * x2 (ix2 0 j)) + x3 (ix2 0 0)) := by
  unfold out1_4
  rw [View.canon_unit_zero edge_hz]
  simp only [View.ld_unit_zero (S := S10000x64) edge_hz, View.ld_unit_zero (S := S1x64) edge_hz, View.ld_unit_zero (S := S1x1) edge_hz]
  exact pay1_apply x0 x1 x2 x3 p

/-- So where the four blocks are the matching rows of four arrays, row `p` of the output block is the per-edge weight of row `e`. -/
theorem out1_4_row (x0 x1 : Vec Ideal S10000x64 .f32) (x2 : Vec Ideal S1x64 .f32) (x3 : Vec Ideal S1x1 .f32)
    (a b : FVec Ideal ⟨2, ![1600000, 64]⟩ .f32) (w : FVec Ideal ⟨2, ![1, 64]⟩ .f32) (β : FVec Ideal ⟨2, ![1, 1]⟩ .f32)
    (p : Fin 10000) (e : Fin 1600000)
    (h0 : ∀ q : Fin 64, x0 (ix2 p q) = a (ix2 e q)) (h1 : ∀ q : Fin 64, x1 (ix2 p q) = b (ix2 e q))
    (h2 : ∀ q : Fin 64, x2 (ix2 0 q) = w (ix2 0 q)) (h3 : x3 (ix2 0 0) = β (ix2 0 0)) :
    out1_4 (F := Ideal) x0 x1 x2 x3 (ix2 p 0) = Cert.Spec.edgeAt a b w β e := by
  rw [out1_4_apply]
  unfold Cert.Spec.edgeAt
  rw [h3]
  refine congrArg Ideal.exp (congrArg₂ (· + ·) (Finset.sum_congr rfl fun q _ => ?_) rfl)
  rw [h0 q, h1 q, h2 q]

/-! ## The windows' blocks as rows of their arrays -/

/-- The printed index maps over the grid: the two gathered arrays and the result move one block of rows per point, the
    attention row and bias stay at their one block. -/
theorem idx_facts1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

variable (V : (c : Dev nD) → (b : Ref sig .tc) → Buf (Elt Ideal) ((c : Thread nD τ).loc b))

/-- Window 0's block at point `t` is rows `10000 t …` of the first gathered array. -/
theorem iblk1_0_apply (c : Dev nD) (t : Fin cfg1.N) (p : Fin 10000) (q : Fin 64) (e : Fin 1600000) (he : e.val = 10000 * t.val + p.val) :
    (iblk1 V c 0 t : Vec Ideal S10000x64 .f32) (ix2 p q) = (V c main_v10 : S1600000x64.Idx → EReal) (ix2 e q) := by
  obtain ⟨e0, e1, -⟩ := idx_facts1 t
  unfold iblk1
  rw [View.read_apply]
  show V c main_v10 _ = V c main_v10 _
  congr 1
  funext a
  apply Fin.ext
  match a with
  | ⟨0, _⟩ => show win1_0.index t (0 : Fin 2) * 10000 + 1 * p.val = e.val; rw [e0, he]; omega
  | ⟨1, _⟩ => show win1_0.index t (1 : Fin 2) * 64 + 1 * q.val = q.val; rw [e1]; omega

/-- Window 1's block at point `t` is rows `10000 t …` of the second gathered array. -/
theorem iblk1_1_apply (c : Dev nD) (t : Fin cfg1.N) (p : Fin 10000) (q : Fin 64) (e : Fin 1600000) (he : e.val = 10000 * t.val + p.val) :
    (iblk1 V c 1 t : Vec Ideal S10000x64 .f32) (ix2 p q) = (V c main_v11 : S1600000x64.Idx → EReal) (ix2 e q) := by
  obtain ⟨-, -, e0, e1, -⟩ := idx_facts1 t
  unfold iblk1
  rw [View.read_apply]
  show V c main_v11 _ = V c main_v11 _
  congr 1
  funext a
  apply Fin.ext
  match a with
  | ⟨0, _⟩ => show win1_1.index t (0 : Fin 2) * 10000 + 1 * p.val = e.val; rw [e0, he]; omega
  | ⟨1, _⟩ => show win1_1.index t (1 : Fin 2) * 64 + 1 * q.val = q.val; rw [e1]; omega

/-- Window 2's one block is the attention row, at every point. -/
theorem iblk1_2_apply (c : Dev nD) (t : Fin cfg1.N) (q : Fin 64) :
    (iblk1 V c 2 t : Vec Ideal S1x64 .f32) (ix2 0 q) = (V c main_v13 : S1x64.Idx → EReal) (ix2 0 q) := by
  obtain ⟨-, -, -, -, e0, e1, -⟩ := idx_facts1 t
  unfold iblk1
  rw [View.read_apply]
  show V c main_v13 _ = V c main_v13 _
  congr 1
  funext a
  apply Fin.ext
  match a with
  | ⟨0, _⟩ => show win1_2.index t (0 : Fin 2) * 1 + 1 * ((0 : Fin 1) : Nat) = ((0 : Fin 1) : Nat); rw [e0]; rfl
  | ⟨1, _⟩ => show win1_2.index t (1 : Fin 2) * 64 + 1 * q.val = q.val; rw [e1]; omega

/-- Window 3's one block is the attention bias, at every point. -/
theorem iblk1_3_apply (c : Dev nD) (t : Fin cfg1.N) :
    (iblk1 V c 3 t : Vec Ideal S1x1 .f32) (ix2 0 0) = (V c main_v14 : S1x1.Idx → EReal) (ix2 0 0) := by
  obtain ⟨-, -, -, -, -, -, e0, e1, -⟩ := idx_facts1 t
  unfold iblk1
  rw [View.read_apply]
  show V c main_v14 _ = V c main_v14 _
  congr 1
  funext a
  apply Fin.ext
  match a with
  | ⟨0, _⟩ => show win1_3.index t (0 : Fin 2) * 1 + 1 * ((0 : Fin 1) : Nat) = ((0 : Fin 1) : Nat); rw [e0]; rfl
  | ⟨1, _⟩ => show win1_3.index t (1 : Fin 2) * 1 + 1 * ((0 : Fin 1) : Nat) = ((0 : Fin 1) : Nat); rw [e1]; rfl

/-! ## From the blocks to the array -/

/-- What point `t` writes back is block `t` of the per-edge attention weight of the four arrays as the region finds them. -/
theorem flushed1_4_eq (c : Dev nD) (t : Fin cfg1.N) :
    (dat1 (F := Ideal) V c).flushed 4 t
      = ((cfg1.win 4).blk t).view.read (Elt Ideal) (Cert.Spec.edge (V c main_v10) (V c main_v11) (V c main_v13) (V c main_v14)) := by
  show (cfg1.win 4).cut (grid1.coords t) ((dat1 V c).after 4 t) = _
  rw [after1_4]
  obtain ⟨-, -, -, -, -, -, -, -, e0, e1⟩ := idx_facts1 t
  funext j
  have hj0 : (j 0).val < 10000 := (j 0).isLt
  have hj1 : (j 1).val < 1 := (j 1).isLt
  have hx : (cfg1.win 4).xinj (grid1.coords t) j = (ix2 (⟨(j 0).val, hj0⟩ : Fin 10000) (0 : Fin 1) : S10000x1.Idx) := by
    funext a; apply Fin.ext
    match a with
    | ⟨0, _⟩ => rfl
    | ⟨1, _⟩ => show (j 1).val = 0; omega
  have he : ((((cfg1.win 4).blk t).view.emb j) 0).val = 10000 * t.val + (j 0).val := by
    show win1_4.index t (0 : Fin 2) * 10000 + 1 * (j 0).val = _
    rw [e0]; omega
  show out1_4 (iblk1 V c 0 t) (iblk1 V c 1 t) (iblk1 V c 2 t) (iblk1 V c 3 t) ((cfg1.win 4).xinj (grid1.coords t) j)
      = Cert.Spec.edgeAt (V c main_v10) (V c main_v11) (V c main_v13) (V c main_v14) ((((cfg1.win 4).blk t).view.emb j) 0)
  rw [hx]
  exact out1_4_row (iblk1 V c 0 t) (iblk1 V c 1 t) (iblk1 V c 2 t) (iblk1 V c 3 t)
    (V c main_v10) (V c main_v11) (V c main_v13) (V c main_v14) ⟨(j 0).val, hj0⟩ ((((cfg1.win 4).blk t).view.emb j) 0)
    (fun q => iblk1_0_apply V c t ⟨(j 0).val, hj0⟩ q ((((cfg1.win 4).blk t).view.emb j) 0) he)
    (fun q => iblk1_1_apply V c t ⟨(j 0).val, hj0⟩ q ((((cfg1.win 4).blk t).view.emb j) 0) he)
    (fun q => iblk1_2_apply V c t q) (iblk1_3_apply V c t)

/-- A row of the result is in point `t`'s block iff each coordinate is in the block's range on its axis. -/
theorem mem_blk1_4 (t : Fin cfg1.N) (i : S1600000x1.Idx) :
    i ∈ ((cfg1.win 4).blk t).view.set ↔ ∀ a : Fin 2, win1_4.index t a * S10000x1.size a ≤ (i a).val ∧ (i a).val < win1_4.index t a * S10000x1.size a + S10000x1.size a := by
  show i ∈ ((View.whole main_v15).slice (win1_4.rect t)).set ↔ _
  rw [View.set_slice_whole, Rect.mem_set_unit]
  exact Iff.rfl

/-- Every row of the result is in some point's block: row `r` in that of point `r / 10000`. -/
theorem covered1_4 (i : S1600000x1.Idx) : ∃ t : Fin cfg1.N, (cfg1.win 4).flush t = true ∧ i ∈ ((cfg1.win 4).blk t).view.set := by
  have hi0 : (i 0).val < 1600000 := (i 0).isLt
  have hi1 : (i 1).val < 1 := (i 1).isLt
  have hN : grid1.N = 160 := N_1
  have hlt : (i 0).val / 10000 < cfg1.N := by show _ < grid1.N; rw [hN]; omega
  obtain ⟨-, -, -, -, -, -, -, -, e0, e1⟩ := idx_facts1 ⟨(i 0).val / 10000, hlt⟩
  refine ⟨⟨(i 0).val / 10000, hlt⟩, flush1_4 _, ?_⟩
  rw [mem_blk1_4]
  intro a
  match a with
  | ⟨0, _⟩ =>
    show win1_4.index ⟨(i 0).val / 10000, hlt⟩ (0 : Fin 2) * 10000 ≤ (i 0).val ∧ (i 0).val < win1_4.index ⟨(i 0).val / 10000, hlt⟩ (0 : Fin 2) * 10000 + 10000
    rw [e0]; show (i 0).val / 10000 * 10000 ≤ (i 0).val ∧ (i 0).val < (i 0).val / 10000 * 10000 + 10000; omega
  | ⟨1, _⟩ =>
    show win1_4.index ⟨(i 0).val / 10000, hlt⟩ (1 : Fin 2) * 1 ≤ (i 1).val ∧ (i 1).val < win1_4.index ⟨(i 0).val / 10000, hlt⟩ (1 : Fin 2) * 1 + 1
    rw [e1]; omega

/-- After region 1 its output array is the per-edge attention weight of the four arrays it was entered with. -/
theorem edge_value (c : Dev nD) :
    ((dat1 (F := Ideal) V c).arrAt 4 cfg1.N : S1600000x1.Idx → EReal)
      = Cert.Spec.edge (V c main_v10) (V c main_v11) (V c main_v13) (V c main_v14) :=
  (dat1 (F := Ideal) V c).arrAt_eq_of_cover 4 (Cert.Spec.edge (V c main_v10) (V c main_v11) (V c main_v13) (V c main_v14))
    (fun t _ => flushed1_4_eq V c t) covered1_4

end Cert.KernelIdeal.Hand

end
-- ==== Proof.KValue.lean ====
/-
  The kernel program's result as one function of its arguments, at the ideal instance: the run's last valuation at the
  result buffer, unfolded stretch by stretch.  Region 0 leaves the node projection; its three column blocks are taken
  at the source and target indices; region 1 leaves the per-edge attention weight of the first two; the tail
  normalizes by the per-target sums, weights the third, sums into the target nodes and applies the rectifier.
-/
import proofs.«425531_j44890998177866_3_alg».proof.Proof.KernelIdeal.Run
import proofs.«425531_j44890998177866_3_alg».proof.Proof.KHost
import proofs.«425531_j44890998177866_3_alg».proof.Proof.ProjValue
import proofs.«425531_j44890998177866_3_alg».proof.Proof.EdgeValue

set_option maxRecDepth 16384

noncomputable section

namespace Cert.KernelIdeal.Hand

open Cert.KernelIdeal Cert.KernelIdeal.Gen
open Idealize.ShloMosaic Idealize.ShloMosaic.TcCoe
open Idealize.SL Idealize.SL.Sem

variable (m : (ℓ : Loc nD τ sig) → Buf (Elt Ideal) ℓ)

/-- The arguments as launched, on core `c`. -/
abbrev a0 (c : Dev nD) : FVec Ideal S100000x64 .f32 := m ((c.tc : Thread nD τ).loc main_arg0)
abbrev a1 (c : Dev nD) : IVec S1600000 32 := m ((c.tc : Thread nD τ).loc main_arg1)
abbrev a2 (c : Dev nD) : IVec S1600000 32 := m ((c.tc : Thread nD τ).loc main_arg2)
abbrev a3 (c : Dev nD) : FVec Ideal S128x64 .f32 := m ((c.tc : Thread nD τ).loc main_arg3)
abbrev a4 (c : Dev nD) : FVec Ideal S64 .f32 := m ((c.tc : Thread nD τ).loc main_arg4)
abbrev a5 (c : Dev nD) : FVec Ideal S64x1 .f32 := m ((c.tc : Thread nD τ).loc main_arg5)
abbrev a6 (c : Dev nD) : FVec Ideal S1 .f32 := m ((c.tc : Thread nD τ).loc main_arg6)
abbrev a7 (c : Dev nD) : FVec Ideal S64x64 .f32 := m ((c.tc : Thread nD τ).loc main_arg7)
abbrev a8 (c : Dev nD) : FVec Ideal S64 .f32 := m ((c.tc : Thread nD τ).loc main_arg8)

/-- The node projection, from the arguments. -/
abbrev Pk (c : Dev nD) : FVec Ideal S100000x192 .f32 :=
  Cert.Spec.proj (a0 m c) (wcat (a3 m c) (a7 m c)) (biasRow (a4 m c) (a8 m c))

/-- Region 0 leaves the node projection in its output array. -/
theorem U2_v6 (c : Dev nD) : (U2 m c main_v6 : FVec Ideal S100000x192 .f32) = Pk m c := by
  have h := (Pipeline.withArrays_arr spec0 launch0.win.arr_inj c (V1 m c) (fun w => (dat0 (Vr1 m) c).arrAt w cfg0.N) 3)
  have hp := proj_value (Vr1 m) c
  have e2 : (Vr1 m c main_v2 : FVec Ideal S64x192 .f32) = wcat (a3 m c) (a7 m c) := s0_v2 (V0 m c)
  have e5 : (Vr1 m c main_v5 : FVec Ideal S1x192 .f32) = biasRow (a4 m c) (a8 m c) := s0_v5 (V0 m c)
  have e0 : (Vr1 m c main_arg0 : FVec Ideal S100000x64 .f32) = a0 m c := V1_of m c main_arg0 (by decide)
  rw [e2, e5, e0] at hp
  exact h.trans hp

/-! ## The buffers region 1 is entered with -/

section
variable (o : Outs (F := Ideal))

/-- Whatever else the unknowns hold, if region 0's output is the chosen one the projection is what later items read. -/
theorem V2_v6 (c : Dev nD) (ho : o 2 main_v6 c = U2 m c main_v6) :
    (V2 m o c main_v6 : FVec Ideal S100000x192 .f32) = Pk m c := by
  show Function.update (V1 m c) (Proc.devRef .tc main_v6) (o 2 main_v6 c) (Proc.devRef .tc main_v6) = _
  rw [Function.update_self, ho]; exact U2_v6 m c

/-- An argument's buffer is as launched at every boundary: read down to the launch or up to the end, whichever is shorter. -/
theorem V3_arg1 (c : Dev nD) : (V3 m o c main_arg1 : IVec S1600000 32) = a1 m c :=
  (V3_of m o c main_arg1 (by decide)).trans ((V2_of m o c main_arg1 (by decide)).trans (V1_of m c main_arg1 (by decide)))
theorem V4_arg2 (c : Dev nD) : (V4 m o c main_arg2 : IVec S1600000 32) = a2 m c :=
  (V4_of m o c main_arg2 (by decide)).trans ((V3_of m o c main_arg2 (by decide)).trans
    ((V2_of m o c main_arg2 (by decide)).trans (V1_of m c main_arg2 (by decide))))
theorem V5_arg2 (c : Dev nD) : (V5 m o c main_arg2 : IVec S1600000 32) = a2 m c :=
  (V5_of m o c main_arg2 (by decide)).trans (V4_arg2 m o c)
theorem V6_arg5 (c : Dev nD) : (V6 m o c main_arg5 : FVec Ideal S64x1 .f32) = a5 m c :=
  (V6_of m o c main_arg5 (by decide)).trans ((V5_of m o c main_arg5 (by decide)).trans ((V4_of m o c main_arg5 (by decide)).trans
    ((V3_of m o c main_arg5 (by decide)).trans ((V2_of m o c main_arg5 (by decide)).trans (V1_of m c main_arg5 (by decide))))))
theorem V6_arg6 (c : Dev nD) : (V6 m o c main_arg6 : FVec Ideal S1 .f32) = a6 m c :=
  (V6_of m o c main_arg6 (by decide)).trans ((V5_of m o c main_arg6 (by decide)).trans ((V4_of m o c main_arg6 (by decide)).trans
    ((V3_of m o c main_arg6 (by decide)).trans ((V2_of m o c main_arg6 (by decide)).trans (V1_of m c main_arg6 (by decide))))))

/-- The source-side rows. -/
abbrev Gs (c : Dev nD) : FVec Ideal S1600000x64 .f32 :=
  takeRows (extractStridedSlice S100000x64 ![0, 0] (Pk m c) slices_S100000x192_S100000x64_0_0) (a1 m c)
/-- The target-side rows for the logits. -/
abbrev Gt1 (c : Dev nD) : FVec Ideal S1600000x64 .f32 :=
  takeRows (extractStridedSlice S100000x64 ![0, 64] (Pk m c) slices_S100000x192_S100000x64_0_64) (a2 m c)
/-- The target-side rows for the aggregation. -/
abbrev Gt2 (c : Dev nD) : FVec Ideal S1600000x64 .f32 :=
  takeRows (extractStridedSlice S100000x64 ![0, 128] (Pk m c) slices_S100000x192_S100000x64_0_128) (a2 m c)

theorem V7_v10 (c : Dev nD) (ho : o 2 main_v6 c = U2 m c main_v6) :
    (V7 m o c main_v10 : FVec Ideal S1600000x64 .f32) = Gs m c := by
  have h1 : V7 m o c main_v10 = V4 m o c main_v10 :=
    (V7_of m o c main_v10 (by decide)).trans ((V6_of m o c main_v10 (by decide)).trans (V5_of m o c main_v10 (by decide)))
  have h2 := s11_v10 (V3 m o c)
  have h3 : (V3 m o c main_v7 : FVec Ideal S100000x64 .f32) = _ := s1_v7 (V2 m o c)
  rw [h3, V3_arg1 m o c, V2_v6 m o c ho] at h2
  exact h1.trans h2

theorem V7_v11 (c : Dev nD) (ho : o 2 main_v6 c = U2 m c main_v6) :
    (V7 m o c main_v11 : FVec Ideal S1600000x64 .f32) = Gt1 m c := by
  have h1 : V7 m o c main_v11 = V5 m o c main_v11 :=
    (V7_of m o c main_v11 (by decide)).trans (V6_of m o c main_v11 (by decide))
  have h2 := s12_v11 (V4 m o c)
  have h3 : (V4 m o c main_v8 : FVec Ideal S100000x64 .f32) = _ := (V4_of m o c main_v8 (by decide)).trans (s1_v8 (V2 m o c))
  rw [h3, V4_arg2 m o c, V2_v6 m o c ho] at h2
  exact h1.trans h2

theorem V7_v12 (c : Dev nD) (ho : o 2 main_v6 c = U2 m c main_v6) :
    (V7 m o c main_v12 : FVec Ideal S1600000x64 .f32) = Gt2 m c := by
  have h1 : V7 m o c main_v12 = V6 m o c main_v12 := V7_of m o c main_v12 (by decide)
  have h2 := s13_v12 (V5 m o c)
  have h3 : (V5 m o c main_v9 : FVec Ideal S100000x64 .f32) = _ :=
    (V5_of m o c main_v9 (by decide)).trans ((V4_of m o c main_v9 (by decide)).trans (s1_v9 (V2 m o c)))
  rw [h3, V5_arg2 m o c, V2_v6 m o c ho] at h2
  exact h1.trans h2

theorem V7_v13 (c : Dev nD) : (V7 m o c main_v13 : FVec Ideal S1x64 .f32) = shapeCast S1x64 (a5 m c) shapeCasts_S64x1_S1x64 := by
  have h2 := s14_v13 (V6 m o c)
  rw [V6_arg5 m o c] at h2
  exact h2

theorem V7_v14 (c : Dev nD) : (V7 m o c main_v14 : FVec Ideal S1x1 .f32) = shapeCast S1x1 (a6 m c) shapeCasts_S1_S1x1 := by
  have h2 := s14_v14 (V6 m o c)
  rw [V6_arg6 m o c] at h2
  exact h2

end

/-! ## What region 1 leaves -/

/-- The per-edge attention weight, from the arguments. -/
abbrev Ex (c : Dev nD) : FVec Ideal S1600000x1 .f32 :=
  Cert.Spec.edge (Gs m c) (Gt1 m c) (shapeCast S1x64 (a5 m c) shapeCasts_S64x1_S1x64) (shapeCast S1x1 (a6 m c) shapeCasts_S1_S1x1)

theorem U8_v15 (c : Dev nD) : (U8 m c main_v15 : FVec Ideal S1600000x1 .f32) = Ex m c := by
  have h := (Pipeline.withArrays_arr spec1 launch1.win.arr_inj c (V7 m (outsA m) c) (fun w => (dat1 (Vr7 m) c).arrAt w cfg1.N) 4)
  have hp := edge_value (Vr7 m) c
  have e10 : (Vr7 m c main_v10 : FVec Ideal S1600000x64 .f32) = Gs m c := V7_v10 m (outsA m) c rfl
  have e11 : (Vr7 m c main_v11 : FVec Ideal S1600000x64 .f32) = Gt1 m c := V7_v11 m (outsA m) c rfl
  have e13 : (Vr7 m c main_v13 : FVec Ideal S1x64 .f32) = _ := V7_v13 m (outsA m) c
  have e14 : (Vr7 m c main_v14 : FVec Ideal S1x1 .f32) = _ := V7_v14 m (outsA m) c
  rw [e10, e11, e13, e14] at hp
  exact h.trans hp

/-! ## The tail -/

/-- Each edge's softmax denominator. -/
abbrev Den (c : Dev nD) : FVec Ideal S1600000x1 .f32 := takeCol (denomArr (a2 m c) (Ex m c)) (a2 m c)
/-- The aggregated node features before the rectifier. -/
abbrev Agg (c : Dev nD) : FVec Ideal S100000x64 .f32 := aggArr (a2 m c) (Ex m c) (Den m c) (Gt2 m c)

theorem V8_v15 (c : Dev nD) : (V8 m (outs m) c main_v15 : FVec Ideal S1600000x1 .f32) = Ex m c := by
  show Function.update (V7 m (outs m) c) (Proc.devRef .tc main_v15) (outs m 8 main_v15 c) (Proc.devRef .tc main_v15) = _
  rw [Function.update_self, outs_eight]; exact U8_v15 m c

theorem V10_arg2 (c : Dev nD) : (V10 m (outs m) c main_arg2 : IVec S1600000 32) = a2 m c :=
  ((V12_of m (outs m) c main_arg2 (by decide)).trans (V11_of m (outs m) c main_arg2 (by decide))).symm.trans
    (V12_main_arg2 m (outs m) c)
theorem V9_arg2 (c : Dev nD) : (V9 m (outs m) c main_arg2 : IVec S1600000 32) = a2 m c :=
  (V10_of m (outs m) c main_arg2 (by decide)).symm.trans (V10_arg2 m c)
theorem V8_arg2 (c : Dev nD) : (V8 m (outs m) c main_arg2 : IVec S1600000 32) = a2 m c :=
  (V9_of m (outs m) c main_arg2 (by decide)).symm.trans (V9_arg2 m c)

theorem V8_v12 (c : Dev nD) : (V8 m (outs m) c main_v12 : FVec Ideal S1600000x64 .f32) = Gt2 m c :=
  (V8_of m (outs m) c main_v12 (by decide)).trans (V7_v12 m (outs m) c (outs_two m main_v6 c))

theorem V9_v20 (c : Dev nD) : (V9 m (outs m) c main_v20 : FVec Ideal S100000x1 .f32) = denomArr (a2 m c) (Ex m c) := by
  have h := s2_v20 (V8 m (outs m) c)
  rw [V8_arg2 m c, V8_v15 m c] at h
  exact h

theorem V10_v21 (c : Dev nD) : (V10 m (outs m) c main_v21 : FVec Ideal S1600000x1 .f32) = Den m c := by
  have h := s21_v21 (V9 m (outs m) c)
  rw [V9_v20 m c, V9_arg2 m c] at h
  exact h

theorem V10_v15 (c : Dev nD) : (V10 m (outs m) c main_v15 : FVec Ideal S1600000x1 .f32) = Ex m c :=
  (V10_of m (outs m) c main_v15 (by decide)).trans ((V9_of m (outs m) c main_v15 (by decide)).trans (V8_v15 m c))

theorem V10_v12 (c : Dev nD) : (V10 m (outs m) c main_v12 : FVec Ideal S1600000x64 .f32) = Gt2 m c :=
  (V10_of m (outs m) c main_v12 (by decide)).trans ((V9_of m (outs m) c main_v12 (by decide)).trans (V8_v12 m c))

/-- THE KERNEL PROGRAM'S RESULT: the rectifier of the aggregated node features. -/
theorem kernel_value (c : Dev nD) :
    (V12 m (outs m) c main_v32 : FVec Ideal S100000x64 .f32)
      = select (cmpf .oge (Agg m c) (broadcastInDim S100000x64 ![] bcast_S_S100000x64 (constant S_ .f32 0x00000000#32)))
          (Agg m c) (mulf (broadcastInDim S100000x64 ![] bcast_S_S100000x64 (constant S_ .f32 0x3C23D70A#32)) (Agg m c)) := by
  have h := s23_v32 (V11 m (outs m) c)
  have h27 : (V11 m (outs m) c main_v27 : FVec Ideal S100000x64 .f32) = _ := s22_v27 (V10 m (outs m) c)
  have h29 : (V11 m (outs m) c main_v29 : IVec S100000x64 1) = _ := s22_v29 (V10 m (outs m) c)
  have h31 : (V11 m (outs m) c main_v31 : FVec Ideal S100000x64 .f32) = _ := s22_v31 (V10 m (outs m) c)
  rw [V10_arg2 m c, V10_v15 m c, V10_v21 m c, V10_v12 m c] at h27 h29 h31
  rw [h27, h29, h31] at h
  exact h

end Cert.KernelIdeal.Hand

end
-- ==== Proof.LibRowGather.lean ====
/-
  A row gather read at an index.  An operand of `N` rows and `C` columns is gathered by an `E × 1` column of start
  indices: result row `e` is the operand's row named by the `e`-th start index, read as a signed integer and clamped
  into `[0, N − 1]`; the column coordinate passes through unchanged.  With it: an and-reduction of one-bit words that
  are all `1` is `1`, and the two signed comparisons with zero of a word that is not negative.
-/
import Idealize.ShloMosaic.Lib.ValueIdx
import Idealize.ShloMosaic.Lib.ReduceAll
import Idealize.ShloMosaic.Lib.Affine

noncomputable section

namespace Cert.Lib.RowGather

open Idealize.ShloMosaic Idealize.ShloMosaic.ValueIdx

/-! ## The and-reduction of all-ones -/

/-- A left fold by `and` from `1` over one-bit words that are all `1` is `1`. -/
theorem foldl_andi_of_all_one {ι : Type} (f : ι → BitVec 1) (hf : ∀ n, f n = 1#1) :
    ∀ l : List ι, l.foldl (fun r n => IntOp.andi r (f n)) 1#1 = 1#1
  | [] => rfl
  | a :: l => by
    rw [List.foldl_cons, hf a, (IntOp.andi_eq_one (c := 1#1) (d := 1#1)).2 ⟨rfl, rfl⟩]
    exact foldl_andi_of_all_one f hf l

/-- A reduction by `and`, started at `1`, of an array of one-bit words that are all `1` is `1` at every index. -/
theorem reduce_andi_of_all_one {s t u : Shape} {axes : List (Fin s.rank)} (x : s.Idx → BitVec 1) (init : u.Idx → BitVec 1)
    (h : s.ReducesTo axes t) (hu : 0 < u.numel) (hinit : init (Shape.Idx.first hu) = 1#1) (hx : ∀ i, x i = 1#1)
    (j : t.Idx) : Host.reduce IntOp.andi x init h hu j = 1#1 := by
  rw [Host.reduce_eq_foldl, hinit]
  exact foldl_andi_of_all_one x hx _

/-! ## The row gather at an index -/

section Gather
variable {α : Type} {N C E w : Nat}

/-- On the row axis the operand index is the start index of result row `e`, read signed and clamped. -/
theorem operandIdx_row (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (idx : IVec ⟨2, ![E, 1]⟩ w) (e : Fin E) (q : Fin C) :
    (d.operandIdx (ix2 e q) idx 0).val = min (idx (ix2 e 0)).toInt.toNat (N - 1) := by
  have hsl : d.sliceSizes 0 = 1 := d.slice_collapsed 0 (by rw [hcoll]; exact List.mem_singleton.mpr rfl)
  obtain ⟨od, cd, ob, sb, sim, ivd, ss, wf⟩ := d
  dsimp only at hoff hcoll hob hsim hivd hsl
  subst hoff hcoll hob hsim hivd
  show GatherDims.start _ (ix2 e q) idx 0 + GatherDims.batchCoord _ (ix2 e q) 0 + GatherDims.offCoord _ (ix2 e q) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min (idx _).toInt.toNat (N - ss 0) = _
  rw [hsl]
  congr 3
  congr 1
  funext b
  refine Fin.ext ?_
  match b with
  | ⟨0, _⟩ => rfl
  | ⟨1, _⟩ => rfl

/-- On the column axis the operand index is the result's column coordinate. -/
theorem operandIdx_col (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0])
    (idx : IVec ⟨2, ![E, 1]⟩ w) (e : Fin E) (q : Fin C) :
    (d.operandIdx (ix2 e q) idx 1).val = q.val := by
  obtain ⟨od, cd, ob, sb, sim, ivd, ss, wf⟩ := d
  dsimp only at hoff hcoll hob hsim
  subst hoff hcoll hob hsim
  show GatherDims.start _ (ix2 e q) idx 1 + GatherDims.batchCoord _ (ix2 e q) 1 + GatherDims.offCoord _ (ix2 e q) 1 = _
  rw [GatherDims.batchCoord_eq_zero _ _ _ List.not_mem_nil]
  unfold GatherDims.start
  rw [dif_neg (fun h => absurd (List.mem_singleton.mp h) (show ¬ (1 : Fin 2) = 0 by decide))]
  simp only [Nat.add_zero, Nat.zero_add]
  unfold GatherDims.offCoord
  rw [dif_pos ((GatherDims.mem_sKept _ 1).2 ⟨fun h => absurd (List.mem_singleton.mp h) (show ¬ (1 : Fin 2) = 0 by decide), List.not_mem_nil⟩)]
  rfl

/-- THE ROW GATHER READ AT `(e, q)`: the operand at the row the `e`-th start index names (read signed, clamped into
    `[0, N − 1]`), column `q`. -/
theorem gather_rows_apply (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) :
    Host.gather d x idx (ix2 e q) = x (ix2 ⟨min (idx (ix2 e 0)).toInt.toNat (N - 1), by omega⟩ q) := by
  unfold Host.gather
  congr 1
  funext a
  refine Fin.ext ?_
  match a with
  | ⟨0, _⟩ => exact operandIdx_row d hoff hcoll hob hsim hivd idx e q
  | ⟨1, _⟩ => exact operandIdx_col d hoff hcoll hob hsim idx e q

/-- The same when the start index of row `e` is known to name row `r`: the clamp does nothing. -/
theorem gather_rows_apply_of_eq (hN : 0 < N) (d : GatherDims ⟨2, ![N, C]⟩ ⟨2, ![E, 1]⟩ ⟨2, ![E, C]⟩)
    (hoff : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![E, 1]⟩ w) (e : Fin E) (q : Fin C) (r : Fin N)
    (hr : (idx (ix2 e 0)).toInt = (r.val : Int)) :
    Host.gather d x idx (ix2 e q) = x (ix2 r q) := by
  rw [gather_rows_apply hN d hoff hcoll hob hsim hivd x idx e q]
  refine congrArg x (congrArg (fun a => ix2 a q) (Fin.ext ?_))
  show min (idx (ix2 e 0)).toInt.toNat (N - 1) = r.val
  rw [hr, Int.toNat_natCast]
  have := r.isLt
  omega

end Gather

/-! ## The words of an index that is not negative -/

section Words
variable {v : BitVec 32}

/-- A word that is not negative is not below zero … -/
theorem slt_zero_of_nonneg (h : 0 ≤ v.toInt) : IntOp.cmpi .slt v 0#32 = 0#1 :=
  eq_zero_of_ne_one fun h1 => by
    have h2 := IntOp.cmpi_slt.1 h1
    have h0 : (0#32 : BitVec 32).toInt = 0 := by decide
    omega

/-- … and is at least zero. -/
theorem sge_zero_of_nonneg (h : 0 ≤ v.toInt) : IntOp.cmpi .sge v 0#32 = 1#1 :=
  IntOp.cmpi_sge.2 (by
    have h0 : (0#32 : BitVec 32).toInt = 0 := by decide
    omega)

end Words

end Cert.Lib.RowGather

end
-- ==== Proof.TakeRead.lean ====
/-
  Reading a `take` at an index when every index names a row: the wrap of negatives does nothing, the range test
  passes on every row, the gather's clamp does nothing, so row `e` of the result is row `I[e]` of the operand.  The
  same for the reference program's plain gathers of the wrapped index column.
-/
import proofs.«425531_j44890998177866_3_alg».proof.Proof.KTake
import proofs.«425531_j44890998177866_3_alg».proof.Proof.Spec
import proofs.«425531_j44890998177866_3_alg».proof.Proof.LibRowGather
import proofs.«425531_j44890998177866_3_alg».proof.Proof.Gen.ReferenceIdeal.Read
import Idealize.ShloMosaic.Lib.ValueIdx
import Idealize.ShloMosaic.Lib.ReduceAll
import Idealize.ShloMosaic.Lib.Affine

set_option maxRecDepth 16384

noncomputable section

namespace Cert.KernelIdeal.Hand

open Cert.KernelIdeal Cert.KernelIdeal.Gen
open Idealize.ShloMosaic Idealize.ShloMosaic.ValueIdx Cert.Lib.RowGather

variable {F : FTy → Type} [FloatOps F]

/-- Row `e` of the wrapped index column is `I[e]` itself when `I[e]` is not negative. -/
theorem wrapCol_apply (I : IVec S1600000 32) (e : Fin 1600000) (h0 : 0 ≤ (I (ix1 e)).toInt) :
    wrapCol I (ix2 e 0) = I (ix1 e) := by
  unfold wrapCol
  rw [broadcastInDim_apply _ bcast_S1600000_S1600000x1_0 _ (ix2 e 0) (ix1 e) (fun a => match a with
    | ⟨0, _⟩ => by show e.val = if (1600000 : Nat) = 1 then 0 else e.val; rw [if_neg (by decide)])]
  rw [select_apply]
  show Scalar.select (IntOp.cmpi .slt (I (ix1 e)) 0#32) _ _ = _
  rw [slt_zero_of_nonneg h0, select_zero]

/-- The range test passes on every row of the wrapped column of in-range indices. -/
theorem inRange_wrapCol (I : IVec S1600000 32) (hI : Cert.Spec.InRows I) (j : S1600000.Idx) :
    inRange (wrapCol I) j = 1#1 := by
  unfold inRange
  refine reduce_andi_of_all_one _ _ _ _ rfl (fun i => ?_) j
  obtain ⟨p, q, rfl⟩ : ∃ (p : Fin 1600000) (q : Fin 1), i = ix2 p q := ⟨i 0, i 1, eq_ix2 i⟩
  obtain rfl : q = 0 := Subsingleton.elim _ _
  show IntOp.andi (IntOp.cmpi .sge (wrapCol I (ix2 p 0)) 0#32) (IntOp.cmpi .sle (wrapCol I (ix2 p 0)) 99999#32) = 1#1
  rw [wrapCol_apply I p (hI p).1]
  refine IntOp.andi_eq_one.2 ⟨sge_zero_of_nonneg (hI p).1, IntOp.cmpi_sle.2 ?_⟩
  have h9 : (99999#32 : BitVec 32).toInt = 99999 := by decide
  have := (hI p).2
  omega

/-- The start index of row `e` in the wrapped column names the row `rowOf I e`. -/
theorem wrapCol_toInt (I : IVec S1600000 32) (hI : Cert.Spec.InRows I) (e : Fin 1600000) :
    (wrapCol I (ix2 e 0)).toInt = ((Cert.Spec.rowOf I hI e).val : Int) := by
  rw [wrapCol_apply I e (hI e).1]
  exact (Int.toNat_of_nonneg (hI e).1).symm

/-- Row `e`, column `q` of a `take` of rows at in-range indices is row `I[e]`, column `q` of the operand. -/
theorem takeRows_apply (x : FVec F S100000x64 .f32) (I : IVec S1600000 32) (hI : Cert.Spec.InRows I)
    (e : Fin 1600000) (q : Fin 64) :
    takeRows x I (ix2 e q) = x (ix2 (Cert.Spec.rowOf I hI e) q) := by
  unfold takeRows
  rw [select_apply,
    broadcastInDim_apply _ bcast_S1600000_S1600000x64_0 _ (ix2 e q) (ix1 e) (fun a => match a with
      | ⟨0, _⟩ => by show e.val = if (1600000 : Nat) = 1 then 0 else e.val; rw [if_neg (by decide)]),
    inRange_wrapCol I hI, select_one]
  exact gather_rows_apply_of_eq (by decide) _ rfl rfl rfl rfl rfl x (wrapCol I) e q _ (wrapCol_toInt I hI e)

/-- Entry `e` of a `take` of entries at in-range indices is entry `I[e]` of the operand. -/
theorem takeCol_apply (x : FVec F S100000x1 .f32) (I : IVec S1600000 32) (hI : Cert.Spec.InRows I)
    (e : Fin 1600000) :
    takeCol x I (ix2 e 0) = x (ix2 (Cert.Spec.rowOf I hI e) 0) := by
  unfold takeCol
  rw [select_apply,
    broadcastInDim_apply _ bcast_S1600000_S1600000x1_0 _ (ix2 e 0) (ix1 e) (fun a => match a with
      | ⟨0, _⟩ => by show e.val = if (1600000 : Nat) = 1 then 0 else e.val; rw [if_neg (by decide)]),
    inRange_wrapCol I hI, select_one]
  exact gather_rows_apply_of_eq (by decide) _ rfl rfl rfl rfl rfl x (wrapCol I) e 0 _ (wrapCol_toInt I hI e)

end Cert.KernelIdeal.Hand

namespace Cert.ReferenceIdeal.RefSide

open Cert.ReferenceIdeal Cert.ReferenceIdeal.Gen Cert.ReferenceIdeal.Read
open Idealize.ShloMosaic Idealize.ShloMosaic.ValueIdx Cert.Lib.RowGather

variable {F : FTy → Type} [FloatOps F]

/-- Row `e` of the reference's wrapped source-index column names the row `rowOf x1 e`. -/
theorem v5_toInt (x1 : IVec S1600000 32) (hI : Cert.Spec.InRows x1) (e : Fin 1600000) :
    (val_main_v5 (F := F) x1 (ix2 e 0)).toInt = ((Cert.Spec.rowOf x1 hI e).val : Int) := by
  have hidx : idx_main_v5 (ix2 e (0 : Fin 1)) = ix1 e := funext fun a => match a with | ⟨0, _⟩ => rfl
  rw [val_main_v5_apply, hidx, val_main_v4_apply, val_main_v1_apply, val_main_v0_apply, val_main_c_apply,
    slt_zero_of_nonneg (hI e).1, select_zero]
  exact (Int.toNat_of_nonneg (hI e).1).symm

/-- Row `e` of the reference's wrapped target-index column (its first copy) names the row `rowOf x2 e`. -/
theorem v12_toInt (x2 : IVec S1600000 32) (hI : Cert.Spec.InRows x2) (e : Fin 1600000) :
    (val_main_v12 (F := F) x2 (ix2 e 0)).toInt = ((Cert.Spec.rowOf x2 hI e).val : Int) := by
  have hidx : idx_main_v12 (ix2 e (0 : Fin 1)) = ix1 e := funext fun a => match a with | ⟨0, _⟩ => rfl
  rw [val_main_v12_apply, hidx, val_main_v11_apply, val_main_v8_apply, val_main_v7_apply, val_main_c_1_apply,
    slt_zero_of_nonneg (hI e).1, select_zero]
  exact (Int.toNat_of_nonneg (hI e).1).symm

/-- Row `e` of the reference's wrapped target-index column (its second copy) names the row `rowOf x2 e`. -/
theorem v42_toInt (x2 : IVec S1600000 32) (hI : Cert.Spec.InRows x2) (e : Fin 1600000) :
    (val_main_v42 (F := F) x2 (ix2 e 0)).toInt = ((Cert.Spec.rowOf x2 hI e).val : Int) := by
  have hidx : idx_main_v42 (ix2 e (0 : Fin 1)) = ix1 e := funext fun a => match a with | ⟨0, _⟩ => rfl
  rw [val_main_v42_apply, hidx, val_main_v41_apply, val_main_v38_apply, val_main_v37_apply, val_main_c_6_apply,
    slt_zero_of_nonneg (hI e).1, select_zero]
  exact (Int.toNat_of_nonneg (hI e).1).symm

/-- The reference's gather of `x` by the source indices, read at row `e`, column `k`. -/
theorem v6_apply (x0 : FVec F S100000x64 .f32) (x1 : IVec S1600000 32) (hI : Cert.Spec.InRows x1)
    (e : Fin 1600000) (k : Fin 64) :
    val_main_v6 (F := F) x0 x1 (ix2 e k) = x0 (ix2 (Cert.Spec.rowOf x1 hI e) k) := by
  unfold val_main_v6
  exact gather_rows_apply_of_eq (by decide) _ rfl rfl rfl rfl rfl x0 (val_main_v5 (F := F) x1) e k _ (v5_toInt x1 hI e)

/-- The reference's gather of `x` by the target indices, read at row `e`, column `k`. -/
theorem v13_apply (x0 : FVec F S100000x64 .f32) (x2 : IVec S1600000 32) (hI : Cert.Spec.InRows x2)
    (e : Fin 1600000) (k : Fin 64) :
    val_main_v13 (F := F) x0 x2 (ix2 e k) = x0 (ix2 (Cert.Spec.rowOf x2 hI e) k) := by
  unfold val_main_v13
  exact gather_rows_apply_of_eq (by decide) _ rfl rfl rfl rfl rfl x0 (val_main_v12 (F := F) x2) e k _ (v12_toInt x2 hI e)

/-- The reference's gather of the per-node denominators by the target indices, read at row `e`. -/
theorem v43_apply (x0 : FVec F S100000x64 .f32) (x1 x2 : IVec S1600000 32) (x3 : FVec F S128x64 .f32) (x4 : FVec F S64 .f32)
    (x5 : FVec F S64x1 .f32) (x6 : FVec F S1 .f32) (hI : Cert.Spec.InRows x2) (e : Fin 1600000) :
    val_main_v43 (F := F) x0 x1 x2 x3 x4 x5 x6 (ix2 e 0)
      = val_main_v36 (F := F) x0 x1 x2 x3 x4 x5 x6 (ix2 (Cert.Spec.rowOf x2 hI e) 0) := by
  unfold val_main_v43
  generalize val_main_v36 (F := F) x0 x1 x2 x3 x4 x5 x6 = y
  exact gather_rows_apply_of_eq (by decide) _ rfl rfl rfl rfl rfl y (val_main_v42 (F := F) x2) e 0 _ (v42_toInt x2 hI e)

end Cert.ReferenceIdeal.RefSide

end
-- ==== Proof.KRead.lean ====
/-
  The kernel program's three gathered arrays read at an entry, when every index names a row.  Each is a column block
  of the node projection `x · [W_in top | W_in bottom | W_out] + [b_in | 0 | b_out]` taken at an index array, so its
  row `e` is the projection's row `I[e]` in that block: a sum over the 64 input features with the block's weights,
  plus the block's bias segment.  Also the attention vector and bias after their reshapes.
-/
import proofs.«425531_j44890998177866_3_alg».proof.Proof.KHost
import proofs.«425531_j44890998177866_3_alg».proof.Proof.TakeRead
import proofs.«425531_j44890998177866_3_alg».proof.Proof.Spec
import Idealize.ShloMosaic.Lib.Pipeline.Value
import Idealize.ShloMosaic.Lib.ValueIdx
import Idealize.ShloMosaic.Lib.ValueLayout

set_option maxRecDepth 16384

noncomputable section

namespace Cert.KernelIdeal.Hand

open Cert.KernelIdeal Cert.KernelIdeal.Gen
open Idealize.ShloMosaic Idealize.ShloMosaic.ValueIdx

variable (x : FVec Ideal S100000x64 .f32) (Win : FVec Ideal S128x64 .f32) (bin : FVec Ideal S64 .f32)
  (Wout : FVec Ideal S64x64 .f32) (bout : FVec Ideal S64 .f32)

/-- The node projection as the kernel program computes it. -/
abbrev projK : FVec Ideal S100000x192 .f32 := Cert.Spec.proj x (wcat Win Wout) (biasRow bin bout)

/-! ## The three 64-column blocks of a 192-column row -/

/-- Column `j` of the first block (the source side), -/
def srcCol (j : Fin 64) : Fin 192 := ⟨j.val, by omega⟩
/-- of the second block (the target side for the logits), -/
def tgtCol (j : Fin 64) : Fin 192 := ⟨64 + j.val, by omega⟩
/-- of the third block (the messages). -/
def msgCol (j : Fin 64) : Fin 192 := ⟨128 + j.val, by omega⟩

/-! ## The weights side by side, read at an entry of each block -/

/-- In the first block the weight is the upper half of the input weight. -/
theorem wcat_srcCol (k j : Fin 64) : wcat Win Wout (ix2 k (srcCol j)) = Win (ix2 (Cert.Spec.top k) j) := by
  unfold wcat
  refine (concatenate_apply_piece (t := S64x192) 1 _ _ (ix2 k (srcCol j))
    0 (by show (0 : Nat) < 3; omega) S64x64 _ rfl rfl 0 rfl (ix2 k j) (fun b hb => ?_) ?_).trans ?_
  · match b with
    | ⟨0, _⟩ => rfl
    | ⟨1, _⟩ => exact absurd rfl hb
  · show 0 + j.val = j.val; omega
  · exact slice2_axis0_apply 0 Win slices_S128x64_S64x64_0_0 k j (Cert.Spec.top k) (Nat.zero_add _).symm

/-- In the second block it is the lower half of the input weight. -/
theorem wcat_tgtCol (k j : Fin 64) : wcat Win Wout (ix2 k (tgtCol j)) = Win (ix2 (Cert.Spec.bot k) j) := by
  unfold wcat
  refine (concatenate_apply_piece (t := S64x192) 1 _ _ (ix2 k (tgtCol j))
    1 (by show (1 : Nat) < 3; omega) S64x64 _ rfl rfl 64 rfl (ix2 k j) (fun b hb => ?_) ?_).trans ?_
  · match b with
    | ⟨0, _⟩ => rfl
    | ⟨1, _⟩ => exact absurd rfl hb
  · rfl
  · exact slice2_axis0_apply 64 Win slices_S128x64_S64x64_64_0 k j (Cert.Spec.bot k) rfl

/-- In the third block it is the output weight. -/
theorem wcat_msgCol (k j : Fin 64) : wcat Win Wout (ix2 k (msgCol j)) = Wout (ix2 k j) := by
  unfold wcat
  refine concatenate_apply_piece (t := S64x192) 1 _ _ (ix2 k (msgCol j))
    2 (by show (2 : Nat) < 3; omega) S64x64 _ rfl rfl 128 rfl (ix2 k j) (fun b hb => ?_) ?_
  · match b with
    | ⟨0, _⟩ => rfl
    | ⟨1, _⟩ => exact absurd rfl hb
  · rfl

/-! ## The bias segments end to end, read at an entry of each segment -/

/-- The first segment is the input bias. -/
theorem bcat_srcCol (j : Fin 64) : bcat bin bout (ix1 (srcCol j)) = bin (ix1 j) := by
  unfold bcat
  refine concatenate_apply_piece (t := S192) 0 _ _ (ix1 (srcCol j))
    0 (by show (0 : Nat) < 3; omega) S64 _ rfl rfl 0 rfl (ix1 j) (fun b hb => ?_) ?_
  · match b with
    | ⟨0, _⟩ => exact absurd rfl hb
  · show 0 + j.val = j.val; omega

/-- The second segment is the zero word at every entry. -/
theorem bcat_tgtCol (j : Fin 64) : bcat bin bout (ix1 (tgtCol j)) = Ideal.ofBits .f32 0x00000000#32 := by
  unfold bcat
  refine (concatenate_apply_piece (t := S192) 0 _ _ (ix1 (tgtCol j))
    1 (by show (1 : Nat) < 3; omega) S64 _ rfl rfl 64 rfl (ix1 j) (fun b hb => ?_) ?_).trans rfl
  · match b with
    | ⟨0, _⟩ => exact absurd rfl hb
  · rfl

/-- The third segment is the output bias. -/
theorem bcat_msgCol (j : Fin 64) : bcat bin bout (ix1 (msgCol j)) = bout (ix1 j) := by
  unfold bcat
  refine concatenate_apply_piece (t := S192) 0 _ _ (ix1 (msgCol j))
    2 (by show (2 : Nat) < 3; omega) S64 _ rfl rfl 128 rfl (ix1 j) (fun b hb => ?_) ?_
  · match b with
    | ⟨0, _⟩ => exact absurd rfl hb
  · rfl

/-- The bias row's entry in column `q` is the end-to-end bias's entry `q`. -/
theorem biasRow_apply (q : Fin 192) : biasRow bin bout (ix2 0 q) = bcat bin bout (ix1 q) := by
  unfold biasRow
  exact shapeCast_a_1a_apply (bcat bin bout) shapeCasts_S192_S1x192 0 q

/-! ## The projection and its column blocks at an entry -/

/-- Row `r`, column `q` of the node projection as the kernel program computes it. -/
theorem projK_apply (r : Fin 100000) (q : Fin 192) :
    projK x Win bin Wout bout (ix2 r q)
      = (∑ k : Fin 64, x (ix2 r k) * wcat Win Wout (ix2 k q)) + biasRow bin bout (ix2 0 q) := rfl

/-- The source-side rows. -/
theorem gsrc_apply (I : IVec S1600000 32) (hI : Cert.Spec.InRows I) (e : Fin 1600000) (j : Fin 64) :
    takeRows (extractStridedSlice S100000x64 ![0, 0] (projK x Win bin Wout bout) slices_S100000x192_S100000x64_0_0) I (ix2 e j)
      = Cert.Spec.whSrc x Win bin (Cert.Spec.rowOf I hI e) j := by
  rw [takeRows_apply _ I hI e j,
    slice2_axis1_apply 0 (projK x Win bin Wout bout) slices_S100000x192_S100000x64_0_0 (Cert.Spec.rowOf I hI e) j (srcCol j)
      (Nat.zero_add _).symm,
    projK_apply, biasRow_apply, bcat_srcCol]
  unfold Cert.Spec.whSrc
  exact congrArg (· + bin (ix1 j)) (Finset.sum_congr rfl fun k _ => by rw [wcat_srcCol])

/-- The target-side rows for the logits. -/
theorem gtgt1_apply (I : IVec S1600000 32) (hI : Cert.Spec.InRows I) (e : Fin 1600000) (j : Fin 64) :
    takeRows (extractStridedSlice S100000x64 ![0, 64] (projK x Win bin Wout bout) slices_S100000x192_S100000x64_0_64) I (ix2 e j)
      = Cert.Spec.whTgt x Win (Cert.Spec.rowOf I hI e) j := by
  rw [takeRows_apply _ I hI e j,
    slice2_axis1_apply 64 (projK x Win bin Wout bout) slices_S100000x192_S100000x64_0_64 (Cert.Spec.rowOf I hI e) j (tgtCol j) rfl,
    projK_apply, biasRow_apply, bcat_tgtCol]
  unfold Cert.Spec.whTgt
  exact congrArg (· + Ideal.ofBits .f32 0x00000000#32) (Finset.sum_congr rfl fun k _ => by rw [wcat_tgtCol])

/-- The target-side rows for the aggregation. -/
theorem gtgt2_apply (I : IVec S1600000 32) (hI : Cert.Spec.InRows I) (e : Fin 1600000) (j : Fin 64) :
    takeRows (extractStridedSlice S100000x64 ![0, 128] (projK x Win bin Wout bout) slices_S100000x192_S100000x64_0_128) I (ix2 e j)
      = Cert.Spec.msg x Wout bout (Cert.Spec.rowOf I hI e) j := by
  rw [takeRows_apply _ I hI e j,
    slice2_axis1_apply 128 (projK x Win bin Wout bout) slices_S100000x192_S100000x64_0_128 (Cert.Spec.rowOf I hI e) j (msgCol j) rfl,
    projK_apply, biasRow_apply, bcat_msgCol]
  unfold Cert.Spec.msg
  exact congrArg (· + bout (ix1 j)) (Finset.sum_congr rfl fun k _ => by rw [wcat_msgCol])

/-- The attention vector as a row: entry `(0, j)` is the vector's entry `(j, 0)`. -/
theorem awRow_apply (aw : FVec Ideal S64x1 .f32) (j : Fin 64) :
    shapeCast S1x64 aw shapeCasts_S64x1_S1x64 (ix2 0 j) = aw (ix2 j 0) :=
  shapeCast_apply aw shapeCasts_S64x1_S1x64 (ix2 0 j) (ix2 j 0) (by
    rw [Shape.rowMajor_val_two, Shape.rowMajor_val_two]
    show j.val * 1 + 0 = 0 * 64 + j.val
    omega)

/-- The attention bias as a 1 × 1 block. -/
theorem abBlk_apply (ab : FVec Ideal S1 .f32) :
    shapeCast S1x1 ab shapeCasts_S1_S1x1 (ix2 0 0) = ab (ix1 0) :=
  shapeCast_a_1a_apply ab shapeCasts_S1_S1x1 0 0

end Cert.KernelIdeal.Hand

end
-- ==== Proof.RRead.lean ====
/-
  The reference program's pre-activation, message and attention weight read at an entry, when every index names a
  row: the gathers read rows of `x`, each `dot_general` is a sum over the 64 contracted features, the slices of the
  input weight are its upper and lower halves.
-/
import proofs.«425531_j44890998177866_3_alg».proof.Proof.TakeRead
import proofs.«425531_j44890998177866_3_alg».proof.Proof.Spec
import proofs.«425531_j44890998177866_3_alg».proof.Proof.Gen.ReferenceIdeal.Read
import Idealize.ShloMosaic.Lib.Pipeline.Value
import Idealize.ShloMosaic.Lib.ValueIdx
import Idealize.ShloMosaic.Lib.ValueLayout

set_option maxRecDepth 16384

noncomputable section

namespace Cert.ReferenceIdeal.RefSide

open Cert.ReferenceIdeal Cert.ReferenceIdeal.Gen Cert.ReferenceIdeal.Read
open Idealize.ShloMosaic Idealize.ShloMosaic.ValueIdx

/-! ## The computed index maps at an entry given by its coordinates -/

/-- The first product's left operand is read at row `e`, contracted feature `k`. -/
theorem lidx15_ix (e : Fin 1600000) (j k : Fin 64) : lidx_main_v15 (ix2 e j) k = ix2 e k :=
  funext fun a => Fin.ext (by match a with | ⟨0, _⟩ => rfl | ⟨1, _⟩ => rfl)
/-- … its right operand at row `k`, column `j`. -/
theorem ridx15_ix (e : Fin 1600000) (j k : Fin 64) : ridx_main_v15 (ix2 e j) k = ix2 k j :=
  funext fun a => Fin.ext (by match a with | ⟨0, _⟩ => rfl | ⟨1, _⟩ => rfl)
/-- The second product likewise. -/
theorem lidx17_ix (e : Fin 1600000) (j k : Fin 64) : lidx_main_v17 (ix2 e j) k = ix2 e k :=
  funext fun a => Fin.ext (by match a with | ⟨0, _⟩ => rfl | ⟨1, _⟩ => rfl)
theorem ridx17_ix (e : Fin 1600000) (j k : Fin 64) : ridx_main_v17 (ix2 e j) k = ix2 k j :=
  funext fun a => Fin.ext (by match a with | ⟨0, _⟩ => rfl | ⟨1, _⟩ => rfl)
/-- Row `k` of the upper-half slice of the input weight is its row `k`. -/
theorem idx14_ix (k j : Fin 64) : idx_main_v14 (ix2 k j) = ix2 (Cert.Spec.top k) j :=
  funext fun a => Fin.ext (by match a with | ⟨0, _⟩ => rfl | ⟨1, _⟩ => rfl)
/-- Row `k` of the lower-half slice is its row `64 + k`. -/
theorem idx16_ix (k j : Fin 64) : idx_main_v16 (ix2 k j) = ix2 (Cert.Spec.bot k) j :=
  funext fun a => Fin.ext (by match a with | ⟨0, _⟩ => rfl | ⟨1, _⟩ => rfl)
/-- The input bias broadcast down the rows reads its one row, then its entry `j`. -/
theorem idx20_ix (e : Fin 1600000) (j : Fin 64) : idx_main_v20 (ix2 e j) = ix2 (0 : Fin 1) j :=
  funext fun a => Fin.ext (by match a with | ⟨0, _⟩ => rfl | ⟨1, _⟩ => rfl)
theorem idx19_ix (u : Fin 1) (j : Fin 64) : idx_main_v19 (ix2 u j) = ix1 j :=
  funext fun a => Fin.ext (by match a with | ⟨0, _⟩ => rfl)
/-- The message product and its bias likewise. -/
theorem lidx45_ix (e : Fin 1600000) (j k : Fin 64) : lidx_main_v45 (ix2 e j) k = ix2 e k :=
  funext fun a => Fin.ext (by match a with | ⟨0, _⟩ => rfl | ⟨1, _⟩ => rfl)
theorem ridx45_ix (e : Fin 1600000) (j k : Fin 64) : ridx_main_v45 (ix2 e j) k = ix2 k j :=
  funext fun a => Fin.ext (by match a with | ⟨0, _⟩ => rfl | ⟨1, _⟩ => rfl)
theorem idx47_ix (e : Fin 1600000) (j : Fin 64) : idx_main_v47 (ix2 e j) = ix2 (0 : Fin 1) j :=
  funext fun a => Fin.ext (by match a with | ⟨0, _⟩ => rfl | ⟨1, _⟩ => rfl)
theorem idx46_ix (u : Fin 1) (j : Fin 64) : idx_main_v46 (ix2 u j) = ix1 j :=
  funext fun a => Fin.ext (by match a with | ⟨0, _⟩ => rfl)
/-- The attention product (one output column) and its bias (one entry). -/
theorem lidx27_ix (e : Fin 1600000) (u : Fin 1) (k : Fin 64) : lidx_main_v27 (ix2 e u) k = ix2 e k :=
  funext fun a => Fin.ext (by match a with | ⟨0, _⟩ => rfl | ⟨1, _⟩ => rfl)
theorem ridx27_ix (e : Fin 1600000) (k : Fin 64) : ridx_main_v27 (ix2 e (0 : Fin 1)) k = ix2 k (0 : Fin 1) :=
  funext fun a => Fin.ext (by match a with | ⟨0, _⟩ => rfl | ⟨1, _⟩ => rfl)
theorem idx29_ix (e : Fin 1600000) (u : Fin 1) : idx_main_v29 (ix2 e u) = ix2 (0 : Fin 1) (0 : Fin 1) :=
  funext fun a => Fin.ext (by match a with | ⟨0, _⟩ => rfl | ⟨1, _⟩ => rfl)
theorem idx28_ix (u v : Fin 1) : idx_main_v28 (ix2 u v) = ix1 (0 : Fin 1) :=
  funext fun a => Fin.ext (by match a with | ⟨0, _⟩ => rfl)

/-! ## The stages at an entry -/

variable (x0 : FVec Ideal S100000x64 .f32) (x1 x2 : IVec S1600000 32) (x3 : FVec Ideal S128x64 .f32) (x4 : FVec Ideal S64 .f32)
  (x5 : FVec Ideal S64x1 .f32) (x6 : FVec Ideal S1 .f32) (x7 : FVec Ideal S64x64 .f32) (x8 : FVec Ideal S64 .f32)

/-- The pre-activation of edge `e`, feature `j`. -/
theorem wh_apply (h1 : Cert.Spec.InRows x1) (h2 : Cert.Spec.InRows x2) (e : Fin 1600000) (j : Fin 64) :
    val_main_v21 (F := Ideal) x0 x1 x2 x3 x4 (ix2 e j)
      = ((∑ k : Fin 64, x0 (ix2 (Cert.Spec.rowOf x1 h1 e) k) * x3 (ix2 (Cert.Spec.top k) j))
          + (∑ k : Fin 64, x0 (ix2 (Cert.Spec.rowOf x2 h2 e) k) * x3 (ix2 (Cert.Spec.bot k) j))) + x4 (ix1 j) := by
  rw [val_main_v21_apply, val_main_v18_apply, val_main_v15_apply, val_main_v17_apply, val_main_v20_apply, idx20_ix,
    val_main_v19_apply, idx19_ix]
  simp only [Ideal.addf_def]
  refine congrArg₂ (· + ·) (congrArg₂ (· + ·) (Finset.sum_congr rfl fun k _ => ?_) (Finset.sum_congr rfl fun k _ => ?_)) rfl
  · rw [lidx15_ix, ridx15_ix, v6_apply x0 x1 h1, val_main_v14_apply, idx14_ix]
  · rw [lidx17_ix, ridx17_ix, v13_apply x0 x2 h2, val_main_v16_apply, idx16_ix]

/-- The message of edge `e`, feature `j`. -/
theorem w2_apply (h2 : Cert.Spec.InRows x2) (e : Fin 1600000) (j : Fin 64) :
    val_main_v48 (F := Ideal) x0 x2 x7 x8 (ix2 e j) = Cert.Spec.msg x0 x7 x8 (Cert.Spec.rowOf x2 h2 e) j := by
  rw [val_main_v48_apply, val_main_v45_apply, val_main_v47_apply, idx47_ix, val_main_v46_apply, idx46_ix]
  unfold Cert.Spec.msg
  simp only [Ideal.addf_def]
  refine congrArg₂ (· + ·) (Finset.sum_congr rfl fun k _ => ?_) rfl
  rw [lidx45_ix, ridx45_ix, v13_apply x0 x2 h2]

/-- The attention weight of edge `e`, over the pre-activation. -/
theorem exp_apply (e : Fin 1600000) :
    val_main_v31 (F := Ideal) x0 x1 x2 x3 x4 x5 x6 (ix2 e 0)
      = Ideal.exp ((∑ k : Fin 64, Cert.Spec.leaky (val_main_v21 (F := Ideal) x0 x1 x2 x3 x4 (ix2 e k)) * x5 (ix2 k 0)) + x6 (ix1 0)) := by
  rw [val_main_v31_apply, val_main_v30_apply, val_main_v27_apply, val_main_v29_apply, idx29_ix, val_main_v28_apply, idx28_ix,
    Ideal.hostUnary_exp_def, Ideal.addf_def]
  refine congrArg Ideal.exp (congrArg₂ (· + ·) (Finset.sum_congr rfl fun k _ => ?_) rfl)
  rw [lidx27_ix, ridx27_ix, val_main_v26_apply, val_main_v23_apply, val_main_v25_apply, val_main_v22_apply, val_main_v24_apply,
    val_main_cst_apply, val_main_cst_3_apply]
  rfl

end Cert.ReferenceIdeal.RefSide

end
-- ==== Proof.Bridge.lean ====
/-
  The two programs compute the same array, at the ideal instance, when every source and target index names a row.

  The kernel program gathers AFTER the node-level matrix product and adds the input bias on the source side only, the
  reference gathers first and adds the bias to the sum of the two products: per edge and feature the two
  pre-activations are `(A + b) + (B + 0)` and `(A + B) + b`, equal on the extended reals because addition there is
  commutative and associative (no finiteness is used).  The kernel's lane sum against the attention row and the
  reference's product with the attention vector are the same sum.  From the per-edge weight on, the two programs
  apply the same operations to equal arrays: the sums into the target nodes, the gathered denominators (each
  program's gather reads the row the index names), the quotient, the weighted messages, the second sum, the rectifier.
-/
import proofs.«425531_j44890998177866_3_alg».proof.Proof.KValue
import proofs.«425531_j44890998177866_3_alg».proof.Proof.KRead
import proofs.«425531_j44890998177866_3_alg».proof.Proof.RRead

set_option maxRecDepth 16384

noncomputable section

namespace Cert.Bridge

open Cert.KernelIdeal Cert.KernelIdeal.Gen Cert.KernelIdeal.Hand
open Idealize.ShloMosaic Idealize.ShloMosaic.TcCoe Idealize.ShloMosaic.ValueIdx
open Idealize.SL Idealize.SL.Sem
open Cert.ReferenceIdeal.Read (val_main_v21 val_main_v31 val_main_v36 val_main_v43 val_main_v48 val_main_v53 val_main_v58)
open Cert.Spec (InRows rowOf)

variable (m : (ℓ : Loc nD τ sig) → Buf (Elt Ideal) ℓ) (c : Dev nD)

/-- The pre-activation of edge `e`, feature `j`: the kernel program's two halves add up to the reference's. -/
theorem wh_eq (h1 : InRows (a1 m c)) (h2 : InRows (a2 m c)) (e : Fin 1600000) (j : Fin 64) :
    Cert.Spec.whSrc (a0 m c) (a3 m c) (a4 m c) (rowOf (a1 m c) h1 e) j + Cert.Spec.whTgt (a0 m c) (a3 m c) (rowOf (a2 m c) h2 e) j
      = val_main_v21 (F := Ideal) (a0 m c) (a1 m c) (a2 m c) (a3 m c) (a4 m c) (ix2 e j) := by
  rw [Cert.ReferenceIdeal.RefSide.wh_apply _ _ _ _ _ h1 h2]
  unfold Cert.Spec.whSrc Cert.Spec.whTgt
  rw [Ideal.ofBits_zero_f32, add_zero]
  exact add_right_comm _ _ _

/-- The per-edge attention weights agree. -/
theorem ex_eq (h1 : InRows (a1 m c)) (h2 : InRows (a2 m c)) : Ex m c = val_main_v31 (F := Ideal) (a0 m c) (a1 m c) (a2 m c) (a3 m c) (a4 m c) (a5 m c) (a6 m c) := by
  funext i
  obtain ⟨e, q, rfl⟩ : ∃ (e : Fin 1600000) (q : Fin 1), i = ix2 e q := ⟨i 0, i 1, eq_ix2 i⟩
  obtain rfl : q = 0 := Subsingleton.elim _ _
  rw [Cert.ReferenceIdeal.RefSide.exp_apply]
  show Cert.Spec.edgeAt (Gs m c) (Gt1 m c) _ _ e = _
  unfold Cert.Spec.edgeAt
  refine congrArg Ideal.exp ?_
  refine congrArg₂ (· + ·) (Finset.sum_congr rfl fun j _ => ?_) (abBlk_apply _)
  have hs : Gs m c (ix2 e j) = Cert.Spec.whSrc (a0 m c) (a3 m c) (a4 m c) (rowOf (a1 m c) h1 e) j :=
    gsrc_apply (a0 m c) (a3 m c) (a4 m c) (a7 m c) (a8 m c) (a1 m c) h1 e j
  have ht : Gt1 m c (ix2 e j) = Cert.Spec.whTgt (a0 m c) (a3 m c) (rowOf (a2 m c) h2 e) j :=
    gtgt1_apply (a0 m c) (a3 m c) (a4 m c) (a7 m c) (a8 m c) (a2 m c) h2 e j
  rw [hs, ht, awRow_apply, wh_eq m c h1 h2]

/-- The per-edge messages agree. -/
theorem gt2_eq (h2 : InRows (a2 m c)) : Gt2 m c = val_main_v48 (F := Ideal) (a0 m c) (a2 m c) (a7 m c) (a8 m c) := by
  funext i
  obtain ⟨e, j, rfl⟩ : ∃ (e : Fin 1600000) (j : Fin 64), i = ix2 e j := ⟨i 0, i 1, eq_ix2 i⟩
  have hg : Gt2 m c (ix2 e j) = Cert.Spec.msg (a0 m c) (a7 m c) (a8 m c) (rowOf (a2 m c) h2 e) j :=
    gtgt2_apply (a0 m c) (a3 m c) (a4 m c) (a7 m c) (a8 m c) (a2 m c) h2 e j
  rw [hg, Cert.ReferenceIdeal.RefSide.w2_apply _ _ _ _ h2]

/-- The per-node softmax denominators agree: the same sum into the target nodes of equal weights, plus the same word. -/
theorem denom_eq (h1 : InRows (a1 m c)) (h2 : InRows (a2 m c)) : denomArr (a2 m c) (Ex m c)
    = val_main_v36 (F := Ideal) (a0 m c) (a1 m c) (a2 m c) (a3 m c) (a4 m c) (a5 m c) (a6 m c) := by
  rw [ex_eq m c h1 h2]
  rfl

/-- The per-edge denominators agree: both programs read the denominator of the node the target index names. -/
theorem den_eq (h1 : InRows (a1 m c)) (h2 : InRows (a2 m c)) : Den m c = val_main_v43 (F := Ideal) (a0 m c) (a1 m c) (a2 m c) (a3 m c) (a4 m c) (a5 m c) (a6 m c) := by
  funext i
  obtain ⟨e, q, rfl⟩ : ∃ (e : Fin 1600000) (q : Fin 1), i = ix2 e q := ⟨i 0, i 1, eq_ix2 i⟩
  obtain rfl : q = 0 := Subsingleton.elim _ _
  show takeCol (denomArr (a2 m c) (Ex m c)) (a2 m c) (ix2 e 0) = _
  rw [takeCol_apply _ _ h2, Cert.ReferenceIdeal.RefSide.v43_apply _ _ _ _ _ _ _ h2, denom_eq m c h1 h2]

/-- The aggregated node features agree. -/
theorem agg_eq (h1 : InRows (a1 m c)) (h2 : InRows (a2 m c)) : Agg m c
    = val_main_v53 (F := Ideal) (a0 m c) (a1 m c) (a2 m c) (a3 m c) (a4 m c) (a5 m c) (a6 m c) (a7 m c) (a8 m c) := by
  show aggArr (a2 m c) (Ex m c) (Den m c) (Gt2 m c) = _
  rw [ex_eq m c h1 h2, den_eq m c h1 h2, gt2_eq m c h2]
  rfl

/-- THE BRIDGE: the kernel program's result is the reference's. -/
theorem result_eq (h1 : InRows (a1 m c)) (h2 : InRows (a2 m c)) :
    select (cmpf .oge (Agg m c) (broadcastInDim S100000x64 ![] bcast_S_S100000x64 (constant S_ .f32 0x00000000#32)))
        (Agg m c) (mulf (broadcastInDim S100000x64 ![] bcast_S_S100000x64 (constant S_ .f32 0x3C23D70A#32)) (Agg m c))
      = val_main_v58 (F := Ideal) (a0 m c) (a1 m c) (a2 m c) (a3 m c) (a4 m c) (a5 m c) (a6 m c) (a7 m c) (a8 m c) := by
  rw [agg_eq m c h1 h2]
  rfl

end Cert.Bridge

end
-- ==== Proof.PreRead.lean ====
/-
  The precondition, read: its value is the conjunction of one `all` per input; the last two conjuncts say that every
  source index and every target index is a signed integer in `[0, 100000)`.
-/
import proofs.«425531_j44890998177866_3_alg».proof.Pre_finite_inputs
import proofs.«425531_j44890998177866_3_alg».proof.Proof.Gen.Pre_finite_inputs
import proofs.«425531_j44890998177866_3_alg».proof.Proof.Spec
import Idealize.ShloMosaic.Lib.ValueIdx
import Idealize.ShloMosaic.Lib.ReduceAll
import Idealize.ShloMosaic.Lib.Affine

noncomputable section

namespace Cert.PreRead

open Cert.Pre_finite_inputs
open Idealize.ShloMosaic Idealize.ShloMosaic.ValueIdx

variable {F : FTy → Type} [FloatOps F] [Cert.Pre_finite_inputs.Facts]

/-- The scalar shape has one index. -/
instance : Subsingleton S_.Idx := ⟨fun a b => funext fun d => d.elim0⟩

/-- A 32-bit word that passes both signed comparisons, `w ≥ 0` and `w < 100000`, lies in `[0, 100000)`. -/
theorem word_in_rows (w : BitVec 32)
    (h : IntOp.andi (IntOp.cmpi .sge w 0#32) (IntOp.cmpi .slt w 100000#32) = 1#1) :
    0 ≤ w.toInt ∧ w.toInt < 100000 := by
  obtain ⟨hge, hlt⟩ := IntOp.andi_eq_one.1 h
  have lo : (0#32).toInt ≤ w.toInt := IntOp.cmpi_sge.1 hge
  have hi : w.toInt < (100000#32).toInt := IntOp.cmpi_slt.1 hlt
  have e0 : (0#32).toInt = 0 := by decide
  have e1 : (100000#32).toInt = 100000 := by decide
  rw [e0] at lo
  rw [e1] at hi
  exact ⟨lo, hi⟩

/-- The conjunction over all entries of the range test `0 ≤ I[e] ∧ I[e] < 100000`, as the precondition spells it:
    both bounds broadcast from a scalar, the two comparisons joined entry by entry, then folded by `and` from 1. -/
def allInRows (I : IVec S1600000 32) : IVec S_ 1 :=
  Host.reduce IntOp.andi
    (andi (cmpi .sge I (broadcastInDim S1600000 ![] Facts.bcast_S_S1600000 (constantI S_ 32 0#32)))
      (cmpi .slt I (broadcastInDim S1600000 ![] Facts.bcast_S_S1600000 (constantI S_ 32 100000#32))))
    (constantI S_ 1 1#1) Facts.reducesTo_S1600000_S_d0 Facts.h_S_

/-- A fold by `and` that came out 1 met a 1 at every entry; at entry `e` that 1 is the range test of `I[e]`. -/
theorem inRows_of_all (I : IVec S1600000 32) (h : allInRows I ix0 = 1#1) : Cert.Spec.InRows I := by
  intro e
  unfold allInRows at h
  have he := Host.reduce_andi_all _ _ _ _ ix0 h (ix1 e)
  exact word_in_rows (I (ix1 e)) he

/-- The last part of the precondition at its one index: the conjunct carried in, then the range test of the source
    indices, then that of the target indices. -/
theorem fn_part2_apply (a1 a2 : IVec S1600000 32) (v : IVec S_ 1) :
    fn_part2 (F := F) a1 a2 v ix0 = IntOp.andi (IntOp.andi (v ix0) (allInRows a1 ix0)) (allInRows a2 ix0) := rfl

/-- Where the precondition holds, every source index and every target index names a row of `x`. -/
theorem rows_of_pre (a0 : FVec F S100000x64 .f32) (a1 a2 : IVec S1600000 32) (a3 : FVec F S128x64 .f32) (a4 : FVec F S64 .f32)
    (a5 : FVec F S64x1 .f32) (a6 : FVec F S1 .f32) (a7 : FVec F S64x64 .f32) (a8 : FVec F S64 .f32)
    (h : Cert.Pre_finite_inputs.fn (F := F) a0 a1 a2 a3 a4 a5 a6 a7 a8 = (fun _ => 1#1)) :
    Cert.Spec.InRows a1 ∧ Cert.Spec.InRows a2 := by
  have h0 := congrFun h ix0
  unfold fn fn_part1 at h0
  dsimp only at h0
  rw [fn_part2_apply] at h0
  obtain ⟨hsrc, htgt⟩ := IntOp.andi_eq_one.1 h0
  obtain ⟨-, hsrc⟩ := IntOp.andi_eq_one.1 hsrc
  exact ⟨inRows_of_all a1 hsrc, inRows_of_all a2 htgt⟩

end Cert.PreRead

end
-- ==== Proof.lean ====
/-
  The claim: the three programs run to the end with their arguments unchanged, and the idealized kernel program and
  the idealized reference, run from memories that agree on the arguments, end with equal results.

  The programs are a graph-attention layer.  The kernel program first projects every node once
  (`x · [W_in top | W_in bottom | W_out] + [b_in | 0 | b_out]`, one pallas_call), gathers the three column blocks at
  the source and target indices, computes each edge's attention weight `exp (Σ_j leaky (…)[j] · a_w[j] + a_b)` (a second
  pallas_call), and finishes on the host: the weights summed into their target nodes plus a small word, gathered back
  per edge, the quotient, times the gathered message, summed into the target nodes, the leaky rectifier.  The
  reference gathers the node features first and multiplies per edge.  The two agree on the extended reals wherever
  every source and target index lies in `[0, 100000)` — the statement's precondition says so beside the finiteness of
  the float inputs, which this proof does not use: an index outside that range is where the two programs differ
  (the kernel program's `take` fills such a row, the reference's gather clamps it).

  The frames of the two kernel programs come from the launch theorem over the program's segments, with a body
  obligation per region (Proof/Kernel*/); the reference's is its generated run.  The values: what each region leaves
  (Proof/ProjValue, Proof/EdgeValue), the host stretches read back (Proof/KHost, Proof/KValue), the gathers at in-range
  indices (Proof/TakeRead), the two sides entry by entry (Proof/KRead, Proof/RRead) and their equality (Proof/Bridge).
-/
import proofs.«425531_j44890998177866_3_alg».proof.Defs
import proofs.«425531_j44890998177866_3_alg».proof.Proof.Gen.Kernel
import proofs.«425531_j44890998177866_3_alg».proof.Proof.Gen.KernelIdeal
import proofs.«425531_j44890998177866_3_alg».proof.Proof.Gen.ReferenceIdeal
import proofs.«425531_j44890998177866_3_alg».proof.Proof.Gen.Pre_finite_inputs
import proofs.«425531_j44890998177866_3_alg».proof.Proof.Gen.ReferenceIdeal.Run
import proofs.«425531_j44890998177866_3_alg».proof.Proof.Gen.ReferenceIdeal.Read
import proofs.«425531_j44890998177866_3_alg».proof.Proof.Kernel.Run
import proofs.«425531_j44890998177866_3_alg».proof.Proof.KernelIdeal.Run
import proofs.«425531_j44890998177866_3_alg».proof.Proof.KValue
import proofs.«425531_j44890998177866_3_alg».proof.Proof.Bridge
import proofs.«425531_j44890998177866_3_alg».proof.Proof.PreRead
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs and leaves its arguments unchanged. -/
theorem frame_k : Cert.frame_Kernel := fun m ρ _ => Cert.Kernel.Hand.frame m ρ

/-- The idealized kernel program likewise. -/
theorem frame_ki : Cert.frame_KernelIdeal := fun m ρ _ => Cert.KernelIdeal.Hand.frame m ρ

/-- The idealized reference likewise: its generated run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing: nothing to preserve. -/
theorem preserves : Cert.preserves_Kernel_KernelIdeal := trivial

open Cert.KernelIdeal Cert.KernelIdeal.Gen Cert.KernelIdeal.Hand in
/-- Both idealized programs end at the reference's value of the (agreeing) arguments. -/
theorem algebraic : Cert.algebraic_KernelIdeal_ReferenceIdeal := by
  intro m ρ m' ρ' hpre hagree
  have hrows : ∀ c : Dev nD, Cert.Spec.InRows (a1 m c) ∧ Cert.Spec.InRows (a2 m c) := fun c =>
    Cert.PreRead.rows_of_pre _ _ _ _ _ _ _ _ _ (hpre c)
  refine ⟨fun c => Cert.ReferenceIdeal.Read.val_main_v58 (F := Ideal) (a0 m c) (a1 m c) (a2 m c) (a3 m c) (a4 m c) (a5 m c) (a6 m c)
    (a7 m c) (a8 m c), ?_, ?_⟩
  · refine (θ_run Cert.KernelIdeal.defs _ _).mono (fun r h c => ?_) (run_all m ρ)
    exact ⟨(h c _ (mem_uc main_v32 (by decide))).trans
        ((kernel_value m c).trans (Cert.Bridge.result_eq m c (hrows c).1 (hrows c).2)),
      (h c _ (mem_uc main_arg0 (by decide))).trans (V12_main_arg0 m (outs m) c),
      (h c _ (mem_uc main_arg1 (by decide))).trans (V12_main_arg1 m (outs m) c),
      (h c _ (mem_uc main_arg2 (by decide))).trans (V12_main_arg2 m (outs m) c),
      (h c _ (mem_uc main_arg3 (by decide))).trans (V12_main_arg3 m (outs m) c),
      (h c _ (mem_uc main_arg4 (by decide))).trans (V12_main_arg4 m (outs m) c),
      (h c _ (mem_uc main_arg5 (by decide))).trans (V12_main_arg5 m (outs m) c),
      (h c _ (mem_uc main_arg6 (by decide))).trans (V12_main_arg6 m (outs m) c),
      (h c _ (mem_uc main_arg7 (by decide))).trans (V12_main_arg7 m (outs m) c),
      (h c _ (mem_uc main_arg8 (by decide))).trans (V12_main_arg8 m (outs m) c)⟩
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v58_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1,
      (hagree c).2.2.2.2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
